-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x4 : Shape := ⟨2, ![300000, 4]⟩
abbrev S_ : Shape := ⟨0, ![]⟩

class Facts : Prop where
  bcast_S_S300000x4 : S_.BroadcastsInDim S300000x4 (![] : Fin 0 → Fin S300000x4.rank)
  reducesTo_S300000x4_S_d0_1 : S300000x4.ReducesTo [0, 1] S_
  h_S_ : 0 < S_.numel

variable [Facts]

def fn {F : FTy → Type} [FloatOps F] (main_arg0 : FVec F S300000x4 .f32) : IVec S_ 1 :=
  let main_v0 : FVec F S300000x4 .f32 := Host.absf main_arg0
  let main_cst : FVec F S_ .f32 := constant S_ .f32 0x7F800000#32
  let main_v1 : FVec F S300000x4 .f32 := broadcastInDim S300000x4 ![] bcast_S_S300000x4 main_cst
  let main_v2 : IVec S300000x4 1 := cmpf .olt main_v0 main_v1
  let main_c : IVec S_ 1 := constantI S_ 1 1#1
  let main_v3 : IVec S_ 1 := (fun x v => Host.reduce IntOp.andi x v reducesTo_S300000x4_S_d0_1 h_S_) main_v2 main_c
  main_v3
-- ==== Kernel.lean ====
abbrev S300000x4 : Shape := ⟨2, ![300000, 4]⟩
abbrev S300000x3 : Shape := ⟨2, ![300000, 3]⟩
abbrev S480x4 : Shape := ⟨2, ![480, 4]⟩
abbrev S480x3 : Shape := ⟨2, ![480, 3]⟩
abbrev S16 : Shape := ⟨1, ![16]⟩
abbrev S_ : Shape := ⟨0, ![]⟩
abbrev S400x4 : Shape := ⟨2, ![400, 4]⟩
abbrev S400x3 : Shape := ⟨2, ![400, 3]⟩

abbrev nBuf : Table → Nat
  | .hbm => 2
  | .local .scVector .vmem => 2
  | _ => 0

abbrev bufTy : (tb : Table) → Fin (nBuf tb) → BufTy
  | .hbm, ⟨0, _⟩ => ⟨S300000x4, .f32⟩
  | .hbm, ⟨1, _⟩ => ⟨S300000x3, .i32⟩
  | .local .scVector .vmem, ⟨0, _⟩ => ⟨S480x4, .f32⟩
  | .local .scVector .vmem, ⟨1, _⟩ => ⟨S480x3, .i32⟩
  | _, _ => ⟨S300000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let v2 : BitVec 1 := Scalar.cmpi .slt v1 c30_i32
  let v3 : BitVec 32 := Scalar.extui v2
  let c0_i32 : BitVec 32 := 0#32
  let v4 : BitVec 1 := Scalar.cmpi .ne v3 c0_i32
  v4

@[reducible] def k0_t1_loop : Scf.Loop 32 :=
  let c0_i32_3 : BitVec 32 := 0#32
  let c20_i32 : BitVec 32 := 20#32
  let v12 : BitVec 32 := Scalar.addi c0_i32_3 c20_i32
  let c1_i32_4 : BitVec 32 := 1#32
  ⟨c0_i32_3, v12, c1_i32_4⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32_10 : BitVec 32 := 10000#32
  let v16 : BitVec 32 := Scalar.muli v1 c10000_i32_10
  let c0_i32_3 : BitVec 32 := 0#32
  let c1_i32_4 : BitVec 32 := 1#32
  let arg6 : BitVec 32 := Scf.iv c0_i32_3 c1_i32_4 k0_t1
  let c480_i32 : BitVec 32 := 480#32
  let v17 : BitVec 32 := Scalar.muli arg6 c480_i32
  let v18 : BitVec 32 := Scalar.addi v16 v17
  let c0_i32_18_r0 : BitVec 32 := 0#32
  ![v18.toNat, 0]
@[reducible] def k0_t2_loop : Scf.Loop 32 :=
  let c0_i32_12 : BitVec 32 := 0#32
  let c30_i32_13 : BitVec 32 := 30#32
  let v19 : BitVec 32 := Scalar.addi c0_i32_12 c30_i32_13
  let c1_i32_14 : BitVec 32 := 1#32
  ⟨c0_i32_12, v19, c1_i32_14⟩

def k0_chk1 (i : grid0.Coords) (v6 : IVec S16 32) (v8 : IVec S16 32) (v10 : IVec S16 32) (v22 : IVec S16 32) : Prop :=
  (∀ (k0_h1 : k0_cond1 i = 1#1), ∀ a x, ((![v22, v6] : Fin 2 → IVec S16 32) a x).toNat < S480x4.size a) ∧
  (∀ (k0_h1 : k0_cond1 i = 1#1), ∀ a x, ((![v22, v8] : Fin 2 → IVec S16 32) a x).toNat < S480x4.size a) ∧
  (∀ (k0_h1 : k0_cond1 i = 1#1), ∀ a x, ((![v22, v10] : Fin 2 → IVec S16 32) a x).toNat < S480x4.size a) ∧
  (∀ (k0_h1 : k0_cond1 i = 1#1), ∀ a x, ((![v22, v6] : Fin 2 → IVec S16 32) a x).toNat < S480x3.size a) ∧
  (∀ (k0_h1 : k0_cond1 i = 1#1), ∀ a x, ((![v22, v8] : Fin 2 → IVec S16 32) a x).toNat < S480x3.size a) ∧
  (∀ (k0_h1 : k0_cond1 i = 1#1), ∀ a x, ((![v22, v10] : Fin 2 → IVec S16 32) a x).toNat < S480x3.size a)
instance k0_chk1.dec : ∀ (i : grid0.Coords) (v6 : IVec S16 32) (v8 : IVec S16 32) (v10 : IVec S16 32) (v22 : IVec S16 32), Decidable (k0_chk1 i v6 v8 v10 v22) := fun i v6 v8 v10 v22 => decidable_of_iff' _ (Iff.of_eq (k0_chk1.eq_1 i v6 v8 v10 v22))
theorem k0_idx1_inb : ∀ (i : grid0.Coords) (v6 : IVec S16 32) (v8 : IVec S16 32) (v10 : IVec S16 32) (v22 : IVec S16 32) (k0_hw1 : k0_chk1 i v6 v8 v10 v22), ∀ (k0_h1 : k0_cond1 i = 1#1), ∀ a x, ((![v22, v6] : Fin 2 → IVec S16 32) a x).toNat < S480x4.size a := fun i v6 v8 v10 v22 k0_hw1 k0_h1 => k0_hw1.1 k0_h1
theorem k0_idx2_inb : ∀ (i : grid0.Coords) (v6 : IVec S16 32) (v8 : IVec S16 32) (v10 : IVec S16 32) (v22 : IVec S16 32) (k0_hw1 : k0_chk1 i v6 v8 v10 v22), ∀ (k0_h1 : k0_cond1 i = 1#1), ∀ a x, ((![v22, v8] : Fin 2 → IVec S16 32) a x).toNat < S480x4.size a := fun i v6 v8 v10 v22 k0_hw1 k0_h1 => k0_hw1.2.1 k0_h1
theorem k0_idx3_inb : ∀ (i : grid0.Coords) (v6 : IVec S16 32) (v8 : IVec S16 32) (v10 : IVec S16 32) (v22 : IVec S16 32) (k0_hw1 : k0_chk1 i v6 v8 v10 v22), ∀ (k0_h1 : k0_cond1 i = 1#1), ∀ a x, ((![v22, v10] : Fin 2 → IVec S16 32) a x).toNat < S480x4.size a := fun i v6 v8 v10 v22 k0_hw1 k0_h1 => k0_hw1.2.2.1 k0_h1
theorem k0_idx4_inb : ∀ (i : grid0.Coords) (v6 : IVec S16 32) (v8 : IVec S16 32) (v10 : IVec S16 32) (v22 : IVec S16 32) (k0_hw1 : k0_chk1 i v6 v8 v10 v22), ∀ (k0_h1 : k0_cond1 i = 1#1), ∀ a x, ((![v22, v6] : Fin 2 → IVec S16 32) a x).toNat < S480x3.size a := fun i v6 v8 v10 v22 k0_hw1 k0_h1 => k0_hw1.2.2.2.1 k0_h1
theorem k0_idx5_inb : ∀ (i : grid0.Coords) (v6 : IVec S16 32) (v8 : IVec S16 32) (v10 : IVec S16 32) (v22 : IVec S16 32) (k0_hw1 : k0_chk1 i v6 v8 v10 v22), ∀ (k0_h1 : k0_cond1 i = 1#1), ∀ a x, ((![v22, v8] : Fin 2 → IVec S16 32) a x).toNat < S480x3.size a := fun i v6 v8 v10 v22 k0_hw1 k0_h1 => k0_hw1.2.2.2.2.1 k0_h1
theorem k0_idx6_inb : ∀ (i : grid0.Coords) (v6 : IVec S16 32) (v8 : IVec S16 32) (v10 : IVec S16 32) (v22 : IVec S16 32) (k0_hw1 : k0_chk1 i v6 v8 v10 v22), ∀ (k0_h1 : k0_cond1 i = 1#1), ∀ a x, ((![v22, v10] : Fin 2 → IVec S16 32) a x).toNat < S480x3.size a := fun i v6 v8 v10 v22 k0_hw1 k0_h1 => k0_hw1.2.2.2.2.2 k0_h1
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32_10 : BitVec 32 := 10000#32
  let v16 : BitVec 32 := Scalar.muli v1 c10000_i32_10
  let c0_i32_3 : BitVec 32 := 0#32
  let c1_i32_4 : BitVec 32 := 1#32
  let arg6 : BitVec 32 := Scf.iv c0_i32_3 c1_i32_4 k0_t1
  let c480_i32 : BitVec 32 := 480#32
  let v17 : BitVec 32 := Scalar.muli arg6 c480_i32
  let v18 : BitVec 32 := Scalar.addi v16 v17
  let c0_i32_18_r1 : BitVec 32 := 0#32
  ![v18.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v13 : BitVec 32 := Scalar.muli v1 c10000_i32
  let c9600_i32 : BitVec 32 := 9600#32
  let v14 : BitVec 32 := Scalar.addi v13 c9600_i32
  let c0_i32_12_r2 : BitVec 32 := 0#32
  ![v14.toNat, 0]
@[reducible] def k0_t3_loop : Scf.Loop 32 :=
  let c0_i32_7 : BitVec 32 := 0#32
  let c25_i32 : BitVec 32 := 25#32
  let v15 : BitVec 32 := Scalar.addi c0_i32_7 c25_i32
  let c1_i32_8 : BitVec 32 := 1#32
  ⟨c0_i32_7, v15, c1_i32_8⟩

def k0_chk2 (i : grid0.Coords) (v6 : IVec S16 32) (v8 : IVec S16 32) (v10 : IVec S16 32) (v18 : IVec S16 32) : Prop :=
  (∀ (k0_h1 : k0_cond1 i = 1#1), ∀ a x, ((![v18, v6] : Fin 2 → IVec S16 32) a x).toNat < S480x4.size a) ∧
  (∀ (k0_h1 : k0_cond1 i = 1#1), ∀ a x, ((![v18, v8] : Fin 2 → IVec S16 32) a x).toNat < S480x4.size a) ∧
  (∀ (k0_h1 : k0_cond1 i = 1#1), ∀ a x, ((![v18, v10] : Fin 2 → IVec S16 32) a x).toNat < S480x4.size a) ∧
  (∀ (k0_h1 : k0_cond1 i = 1#1), ∀ a x, ((![v18, v6] : Fin 2 → IVec S16 32) a x).toNat < S480x3.size a) ∧
  (∀ (k0_h1 : k0_cond1 i = 1#1), ∀ a x, ((![v18, v8] : Fin 2 → IVec S16 32) a x).toNat < S480x3.size a) ∧
  (∀ (k0_h1 : k0_cond1 i = 1#1), ∀ a x, ((![v18, v10] : Fin 2 → IVec S16 32) a x).toNat < S480x3.size a)
instance k0_chk2.dec : ∀ (i : grid0.Coords) (v6 : IVec S16 32) (v8 : IVec S16 32) (v10 : IVec S16 32) (v18 : IVec S16 32), Decidable (k0_chk2 i v6 v8 v10 v18) := fun i v6 v8 v10 v18 => decidable_of_iff' _ (Iff.of_eq (k0_chk2.eq_1 i v6 v8 v10 v18))
theorem k0_idx7_inb : ∀ (i : grid0.Coords) (v6 : IVec S16 32) (v8 : IVec S16 32) (v10 : IVec S16 32) (v18 : IVec S16 32) (k0_hw2 : k0_chk2 i v6 v8 v10 v18), ∀ (k0_h1 : k0_cond1 i = 1#1), ∀ a x, ((![v18, v6] : Fin 2 → IVec S16 32) a x).toNat < S480x4.size a := fun i v6 v8 v10 v18 k0_hw2 k0_h1 => k0_hw2.1 k0_h1
theorem k0_idx8_inb : ∀ (i : grid0.Coords) (v6 : IVec S16 32) (v8 : IVec S16 32) (v10 : IVec S16 32) (v18 : IVec S16 32) (k0_hw2 : k0_chk2 i v6 v8 v10 v18), ∀ (k0_h1 : k0_cond1 i = 1#1), ∀ a x, ((![v18, v8] : Fin 2 → IVec S16 32) a x).toNat < S480x4.size a := fun i v6 v8 v10 v18 k0_hw2 k0_h1 => k0_hw2.2.1 k0_h1
theorem k0_idx9_inb : ∀ (i : grid0.Coords) (v6 : IVec S16 32) (v8 : IVec S16 32) (v10 : IVec S16 32) (v18 : IVec S16 32) (k0_hw2 : k0_chk2 i v6 v8 v10 v18), ∀ (k0_h1 : k0_cond1 i = 1#1), ∀ a x, ((![v18, v10] : Fin 2 → IVec S16 32) a x).toNat < S480x4.size a := fun i v6 v8 v10 v18 k0_hw2 k0_h1 => k0_hw2.2.2.1 k0_h1
theorem k0_idx10_inb : ∀ (i : grid0.Coords) (v6 : IVec S16 32) (v8 : IVec S16 32) (v10 : IVec S16 32) (v18 : IVec S16 32) (k0_hw2 : k0_chk2 i v6 v8 v10 v18), ∀ (k0_h1 : k0_cond1 i = 1#1), ∀ a x, ((![v18, v6] : Fin 2 → IVec S16 32) a x).toNat < S480x3.size a := fun i v6 v8 v10 v18 k0_hw2 k0_h1 => k0_hw2.2.2.2.1 k0_h1
theorem k0_idx11_inb : ∀ (i : grid0.Coords) (v6 : IVec S16 32) (v8 : IVec S16 32) (v10 : IVec S16 32) (v18 : IVec S16 32) (k0_hw2 : k0_chk2 i v6 v8 v10 v18), ∀ (k0_h1 : k0_cond1 i = 1#1), ∀ a x, ((![v18, v8] : Fin 2 → IVec S16 32) a x).toNat < S480x3.size a := fun i v6 v8 v10 v18 k0_hw2 k0_h1 => k0_hw2.2.2.2.2.1 k0_h1
theorem k0_idx12_inb : ∀ (i : grid0.Coords) (v6 : IVec S16 32) (v8 : IVec S16 32) (v10 : IVec S16 32) (v18 : IVec S16 32) (k0_hw2 : k0_chk2 i v6 v8 v10 v18), ∀ (k0_h1 : k0_cond1 i = 1#1), ∀ a x, ((![v18, v10] : Fin 2 → IVec S16 32) a x).toNat < S480x3.size a := fun i v6 v8 v10 v18 k0_hw2 k0_h1 => k0_hw2.2.2.2.2.2 k0_h1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v13 : BitVec 32 := Scalar.muli v1 c10000_i32
  let c9600_i32 : BitVec 32 := 9600#32
  let v14 : BitVec 32 := Scalar.addi v13 c9600_i32
  let c0_i32_12_r3 : BitVec 32 := 0#32
  ![v14.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  inb_S480x4_S480x4_0_0 : ∀ a, (![0, 0] : Fin 2 → Nat) a + S480x4.size a ≤ S480x4.size a
  h_S480x4 : 0 < S480x4.numel
  h_S480x3 : 0 < S480x3.numel
  inb_S480x3_S480x3_0_0 : ∀ a, (![0, 0] : Fin 2 → Nat) a + S480x3.size a ≤ S480x3.size a
  inb_S480x4_S400x4_0_0 : ∀ a, (![0, 0] : Fin 2 → Nat) a + S400x4.size a ≤ S480x4.size a
  inb_S480x3_S400x3_0_0 : ∀ a, (![0, 0] : Fin 2 → Nat) a + S400x3.size a ≤ S480x3.size a
  hcc0_scoped0 : 0 + S_.numel ≤ 4
  hcc0_scoped1 : 1 + S_.numel ≤ 4
  hcc0_scoped2 : 2 + S_.numel ≤ 4
  hcc0_scoped3 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, ∀ (k0_h1 : k0_cond1 i = 1#1), k0_t1_loop.OK
  k0_off1_inb : ∀ (i : grid0.Coords) (k0_t1 : Fin k0_t1_loop.trips), ∀ (k0_h1 : k0_cond1 i = 1#1), ∀ a, (k0_off1 i k0_t1) a + S480x4.size a ≤ S300000x4.size a
  k0_t2_ok : ∀ i : grid0.Coords, ∀ (k0_h1 : k0_cond1 i = 1#1), k0_t2_loop.OK
  k0_off2_inb : ∀ (i : grid0.Coords) (k0_t1 : Fin k0_t1_loop.trips), ∀ (k0_h1 : k0_cond1 i = 1#1), ∀ a, (k0_off2 i k0_t1) a + S480x3.size a ≤ S300000x3.size a
  k0_off3_inb : ∀ i : grid0.Coords, ∀ (k0_h1 : k0_cond1 i = 1#1), ∀ a, (k0_off3 i) a + S400x4.size a ≤ S300000x4.size a
  k0_t3_ok : ∀ i : grid0.Coords, ∀ (k0_h1 : k0_cond1 i = 1#1), k0_t3_loop.OK
  k0_off4_inb : ∀ i : grid0.Coords, ∀ (k0_h1 : k0_cond1 i = 1#1), ∀ a, (k0_off4 i) a + S400x3.size a ≤ S300000x3.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3

class Facts : Prop extends Facts₀ where

variable [Facts]
-- ==== ReferenceIdeal.lean ====
abbrev S300000x4 : Shape := ⟨2, ![300000, 4]⟩
abbrev S3 : Shape := ⟨1, ![3]⟩
abbrev S300000x3 : Shape := ⟨2, ![300000, 3]⟩
abbrev S1x3 : Shape := ⟨2, ![1, 3]⟩
abbrev S_ : Shape := ⟨0, ![]⟩
abbrev S300000 : Shape := ⟨1, ![300000]⟩
abbrev S300000x1 : Shape := ⟨2, ![300000, 1]⟩

abbrev nBuf : Space → Nat
  | .hbm => 28
  | .vmem => 0
  | .smem => 0
  | _ => 0

abbrev bufTy : (tb : Table) → Fin (tcTables nBuf tb) → BufTy
  | .hbm, ⟨0, _⟩ => ⟨S300000x4, .f32⟩
  | .hbm, ⟨1, _⟩ => ⟨S3, .f32⟩
  | .hbm, ⟨2, _⟩ => ⟨S3, .f32⟩
  | .hbm, ⟨3, _⟩ => ⟨S3, .i32⟩
  | .hbm, ⟨4, _⟩ => ⟨S300000x3, .f32⟩
  | .hbm, ⟨5, _⟩ => ⟨S1x3, .f32⟩
  | .hbm, ⟨6, _⟩ => ⟨S300000x3, .f32⟩
  | .hbm, ⟨7, _⟩ => ⟨S300000x3, .f32⟩
  | .hbm, ⟨8, _⟩ => ⟨S1x3, .f32⟩
  | .hbm, ⟨9, _⟩ => ⟨S300000x3, .f32⟩
  | .hbm, ⟨10, _⟩ => ⟨S300000x3, .f32⟩
  | .hbm, ⟨11, _⟩ => ⟨S300000x3, .f32⟩
  | .hbm, ⟨12, _⟩ => ⟨S300000x3, .i32⟩
  | .hbm, ⟨13, _⟩ => ⟨S_, .i32⟩
  | .hbm, ⟨14, _⟩ => ⟨S300000x3, .i32⟩
  | .hbm, ⟨15, _⟩ => ⟨S300000x3, .i1⟩
  | .hbm, ⟨16, _⟩ => ⟨S1x3, .i32⟩
  | .hbm, ⟨17, _⟩ => ⟨S300000x3, .i32⟩
  | .hbm, ⟨18, _⟩ => ⟨S300000x3, .i1⟩
  | .hbm, ⟨19, _⟩ => ⟨S300000x3, .i1⟩
  | .hbm, ⟨20, _⟩ => ⟨S_, .i1⟩
  | .hbm, ⟨21, _⟩ => ⟨S300000, .i1⟩
  | .hbm, ⟨22, _⟩ => ⟨S300000x1, .i1⟩
  | .hbm, ⟨23, _⟩ => ⟨S300000x3, .i32⟩
  | .hbm, ⟨24, _⟩ => ⟨S_, .i32⟩
  | .hbm, ⟨25, _⟩ => ⟨S300000x3, .i1⟩
  | .hbm, ⟨26, _⟩ => ⟨S300000x3, .i32⟩
  | .hbm, ⟨27, _⟩ => ⟨S300000x3, .i32⟩
  | _, _ => ⟨S300000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S300000x4_S300000x3_0_0 : S300000x4.Slices ![0, 0] S300000x3
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  bcast_S_S300000x3 : S_.BroadcastsInDim S300000x3 (![] : Fin 0 → Fin S300000x3.rank)
  reducesTo_S300000x3_S300000_d1 : S300000x3.ReducesTo [1] S300000
  h_S_ : 0 < S_.numel
  bcast_S300000_S300000x1_0 : S300000.BroadcastsInDim S300000x1 (![0] : Fin 1 → Fin S300000x1.rank)
  bcast_S300000x1_S300000x3_0_1 : S300000x1.BroadcastsInDim S300000x3 (![0, 1] : Fin 2 → Fin S300000x3.rank)

variable [Facts₀]

class Facts : Prop extends Facts₀ where

variable [Facts]
-- ==== Proof.Spec.lean ====
/-
  The voxel-coordinate function both programs compute, one point at a time.
  A point's coordinate along an axis is its offset from the range's lower end measured in voxel widths,
  q = (p - lo) / w; its voxel index is q rounded to an integer word. The kernel rounds q toward zero and
  calls the point inside when 0 ≤ q and the index is below the grid's extent; the reference rounds q down
  first, converts, and calls the point inside when the index is at least 0 and below the extent. A point
  inside on all three axes gets its indices in the order (z, y, x); any other point gets (-1, -1, -1).
-/
import Idealize.ShloMosaic.PureOps
import Idealize.ShloMosaic.Lib.ValueIdx

noncomputable section

namespace Voxel

open Idealize.ShloMosaic Idealize.ShloMosaic.ValueIdx

variable {F : FTy → Type} [FloatOps F]

abbrev SIn : Shape := ⟨2, ![300000, 4]⟩
abbrev SOut : Shape := ⟨2, ![300000, 3]⟩

/-- The row of an output index, as a number below 300000. -/
def rowOf (j : SOut.Idx) : Fin 300000 := ⟨(j 0).val, idx2_lt0 j⟩
/-- The column of an output index, as a number below 3. -/
def colOf (j : SOut.Idx) : Fin 3 := ⟨(j 1).val, idx2_lt1 j⟩

/-! ## The kernel's form -/

/-- The offset from the lower end `lo` in voxel widths `vs` (both given as f32 words), by the vector unit's
    subtraction and division. -/
def quo (lo vs : BitVec 32) (x : F .f32) : F .f32 :=
  FloatOps.divf (FloatOps.subf x (FloatOps.ofBits .f32 lo)) (FloatOps.ofBits .f32 vs)

/-- Inside along one axis, the kernel's test: `0 ≤ q` and the index rounded toward zero is below `n`. -/
def inb (n : BitVec 32) (q : F .f32) : BitVec 1 :=
  IntOp.andi (FloatOps.cmpf .oge q (FloatOps.ofBits .f32 0x00000000#32)) (IntOp.cmpi .slt (FloatOps.fptosi 32 q) n)

def qx (x : F .f32) : F .f32 := quo 0x00000000#32 0x3D4CCCCD#32 x
def qy (y : F .f32) : F .f32 := quo 0xC2200000#32 0x3D4CCCCD#32 y
def qz (z : F .f32) : F .f32 := quo 0xC0400000#32 0x3DCCCCCD#32 z

/-- Inside on all three axes. -/
def valid (x y z : F .f32) : BitVec 1 :=
  IntOp.andi (IntOp.andi (inb 1408#32 (qx x)) (inb 1600#32 (qy y))) (inb 40#32 (qz z))

/-- One output word: column 0 the z index, column 1 the y index, column 2 the x index; -1 outside. -/
def cell (x y z : F .f32) (col : Fin 3) : BitVec 32 :=
  Scalar.select (valid x y z)
    (match col with
      | 0 => FloatOps.fptosi 32 (qz z)
      | 1 => FloatOps.fptosi 32 (qy y)
      | 2 => FloatOps.fptosi 32 (qx x))
    4294967295#32

/-- The whole result array as a function of the whole point array. -/
def grid (X : FVec F SIn .f32) : IVec SOut 32 := fun j =>
  cell (X (ix2 (rowOf j) 0)) (X (ix2 (rowOf j) 1)) (X (ix2 (rowOf j) 2)) (colOf j)

/-! ## The reference's form -/

/-- The index the reference computes along one axis: the quotient by the host's division, rounded down, converted. -/
def rc (lo vs : BitVec 32) (x : F .f32) : BitVec 32 :=
  FloatOps.fptosi 32 (FloatOps.hostUnary .floor (FloatOps.hostDivf (FloatOps.subf x (FloatOps.ofBits .f32 lo)) (FloatOps.ofBits .f32 vs)))

def rcx (x : F .f32) : BitVec 32 := rc 0x00000000#32 0x3D4CCCCD#32 x
def rcy (y : F .f32) : BitVec 32 := rc 0xC2200000#32 0x3D4CCCCD#32 y
def rcz (z : F .f32) : BitVec 32 := rc 0xC0400000#32 0x3DCCCCCD#32 z

/-- Inside along one axis, the reference's test on the converted index: `0 ≤ c < n` as signed words. -/
def rin (n c : BitVec 32) : BitVec 1 := IntOp.andi (IntOp.cmpi .sge c 0#32) (IntOp.cmpi .slt c n)

/-- One output word of the reference (the three tests joined as a proposition, whatever order a fold takes them in). -/
def rcell (x y z : F .f32) (col : Fin 3) : BitVec 32 :=
  if rin 1408#32 (rcx x) = 1#1 ∧ rin 1600#32 (rcy y) = 1#1 ∧ rin 40#32 (rcz z) = 1#1 then
    (match col with
      | 0 => rcz z
      | 1 => rcy y
      | 2 => rcx x)
  else 4294967295#32

def rgrid (X : FVec F SIn .f32) : IVec SOut 32 := fun j =>
  rcell (X (ix2 (rowOf j) 0)) (X (ix2 (rowOf j) 1)) (X (ix2 (rowOf j) 2)) (colOf j)

end Voxel

end
-- ==== Proof.SpecLaw.lean ====
/-
  The kernel's and the reference's voxel functions agree on extended reals.
  Along one axis both programs form the same quotient q, an extended real. The kernel converts q rounded
  toward zero and asks for 0 ≤ q; the reference rounds q down first, converts, and asks for a nonnegative
  word. For a real q ≥ 0 rounding toward zero is rounding down, so the two words are one, and it is
  nonnegative after clamping. For a real q < 0 the kernel's test fails, and ⌊q⌋ ≤ -1 clamps to a negative
  word, so the reference's test fails too. At +∞ both words are the largest word and both tests hold; at
  -∞ both are the smallest word and both tests fail. So the two inside-tests are the same bit, and where it
  is set the two words agree.
-/
import proofs.«218498_g40716289966699_cont_8to1_b_543_34_alg».proof.Proof.Spec
import Idealize.ShloMosaic.PureOps.Ideal.Laws
import Mathlib.Algebra.Order.Floor.Ring
import Mathlib.Data.EReal.Basic

namespace Voxel
open Idealize.ShloMosaic

theorem toInt_ofInt_range (m : Int) (h1 : -2147483648 ≤ m) (h2 : m ≤ 2147483647) :
    (BitVec.ofInt 32 m).toInt = m := by
  rw [BitVec.toInt_ofInt, Int.bmod_def]
  norm_num
  omega

theorem andi_eq_one (a b : BitVec 1) : (IntOp.andi a b = 1#1) ↔ (a = 1#1 ∧ b = 1#1) := by
  revert a b; decide

theorem fptosi32 (q : EReal) :
    Ideal.fptosi 32 q = BitVec.ofInt 32 (Ideal.toIntClamped (-2147483648) 2147483647 q) := by
  simp [Ideal.fptosi]

/-- A nonnegative quotient converts to the same word whether or not it is rounded down first. -/
theorem conv_floor_eq (q : EReal) (h : 0 ≤ q) :
    Ideal.fptosi 32 (Ideal.liftRound Int.floor q) = Ideal.fptosi 32 q := by
  induction q using EReal.rec with
  | bot => exact absurd h (not_le.mpr EReal.bot_lt_zero)
  | top => rfl
  | coe r =>
    have hr : 0 ≤ r := EReal.coe_nonneg.mp h
    have hf : (0 : ℝ) ≤ ((⌊r⌋ : ℤ) : ℝ) := by exact_mod_cast Int.floor_nonneg.mpr hr
    rw [Ideal.liftRound_coe, fptosi32, fptosi32, Ideal.toIntClamped_coe, Ideal.toIntClamped_coe,
      if_pos hf, if_pos hr, Int.floor_intCast]

/-- The word converted from the quotient rounded down is nonnegative exactly when the quotient is. -/
theorem sge_floor (q : EReal) :
    (0#32).sle (Ideal.fptosi 32 (Ideal.liftRound Int.floor q)) = decide (0 ≤ q) := by
  induction q using EReal.rec with
  | bot =>
    have : ¬ (0 : EReal) ≤ ⊥ := not_le.mpr EReal.bot_lt_zero
    simp [fptosi32, BitVec.sle, this]
  | top =>
    simp [fptosi32, BitVec.sle]
  | coe r =>
    rw [Ideal.liftRound_coe, fptosi32, Ideal.toIntClamped_coe]
    have e : (if (0 : ℝ) ≤ ((⌊r⌋ : ℤ) : ℝ) then ⌊((⌊r⌋ : ℤ) : ℝ)⌋ else ⌈((⌊r⌋ : ℤ) : ℝ)⌉) = ⌊r⌋ := by
      rw [Int.floor_intCast, Int.ceil_intCast, ite_self]
    rw [e]
    have hm := toInt_ofInt_range (max (-2147483648) (min 2147483647 ⌊r⌋)) (by omega) (by omega)
    have h0 : (0 : EReal) ≤ (r : EReal) ↔ 0 ≤ ⌊r⌋ := by
      rw [EReal.coe_nonneg, Int.floor_nonneg]
    simp only [BitVec.sle, hm, BitVec.toInt_zero, h0]
    congr 1
    apply propext
    omega

/-- Along one axis, the kernel's inside-test is the reference's test on the word it converts. -/
theorem inb_eq_rin (n : BitVec 32) (q : Ideal .f32) :
    inb (F := Ideal) n q = rin n (Ideal.fptosi 32 (Ideal.liftRound Int.floor q)) := by
  have hz : FloatOps.ofBits (F := Ideal) .f32 0x00000000#32 = (0 : EReal) := Ideal.ofBits_zero_f32
  unfold inb rin
  rw [hz]
  show IntOp.andi (BitVec.ofBool (decide ((0 : EReal) ≤ q))) (BitVec.ofBool ((Ideal.fptosi 32 q).slt n))
    = IntOp.andi (BitVec.ofBool ((0#32).sle (Ideal.fptosi 32 (Ideal.liftRound Int.floor q))))
        (BitVec.ofBool ((Ideal.fptosi 32 (Ideal.liftRound Int.floor q)).slt n))
  rw [sge_floor]
  by_cases h : 0 ≤ q
  · rw [conv_floor_eq q h]
  · simp [h, IntOp.andi]

/-- Where the kernel's inside-test holds, the kernel's word is the reference's. -/
theorem inb_conv (n : BitVec 32) (q : Ideal .f32) (h : inb (F := Ideal) n q = 1#1) :
    FloatOps.fptosi (F := Ideal) 32 q = Ideal.fptosi 32 (Ideal.liftRound Int.floor q) := by
  have h1 := ((andi_eq_one _ _).mp h).1
  have hz : FloatOps.ofBits (F := Ideal) .f32 0x00000000#32 = (0 : EReal) := Ideal.ofBits_zero_f32
  rw [hz] at h1
  have h2 : BitVec.ofBool (decide ((0 : EReal) ≤ q)) = 1#1 := h1
  have h3 : (0 : EReal) ≤ q := by
    by_contra hn
    rw [decide_eq_false hn] at h2
    exact absurd h2 (by decide)
  exact (conv_floor_eq q h3).symm

theorem cell_ideal (x y z : Ideal .f32) (col : Fin 3) :
    cell (F := Ideal) x y z col = rcell (F := Ideal) x y z col := by
  have ex : rcx (F := Ideal) x = Ideal.fptosi 32 (Ideal.liftRound Int.floor (qx (F := Ideal) x)) := rfl
  have ey : rcy (F := Ideal) y = Ideal.fptosi 32 (Ideal.liftRound Int.floor (qy (F := Ideal) y)) := rfl
  have ez : rcz (F := Ideal) z = Ideal.fptosi 32 (Ideal.liftRound Int.floor (qz (F := Ideal) z)) := rfl
  have hx := inb_eq_rin 1408#32 (qx (F := Ideal) x)
  have hy := inb_eq_rin 1600#32 (qy (F := Ideal) y)
  have hz := inb_eq_rin 40#32 (qz (F := Ideal) z)
  rw [← ex] at hx
  rw [← ey] at hy
  rw [← ez] at hz
  unfold cell rcell valid Scalar.select
  by_cases hv : inb (F := Ideal) 1408#32 (qx x) = 1#1 ∧ inb (F := Ideal) 1600#32 (qy y) = 1#1
      ∧ inb (F := Ideal) 40#32 (qz z) = 1#1
  · have hc : IntOp.andi (IntOp.andi (inb (F := Ideal) 1408#32 (qx x)) (inb (F := Ideal) 1600#32 (qy y)))
        (inb (F := Ideal) 40#32 (qz z)) = 1 :=
      (andi_eq_one _ _).mpr ⟨(andi_eq_one _ _).mpr ⟨hv.1, hv.2.1⟩, hv.2.2⟩
    have hr : rin 1408#32 (rcx (F := Ideal) x) = 1#1 ∧ rin 1600#32 (rcy (F := Ideal) y) = 1#1
        ∧ rin 40#32 (rcz (F := Ideal) z) = 1#1 := by
      rw [← hx, ← hy, ← hz]; exact hv
    rw [if_pos hc, if_pos hr]
    fin_cases col
    · exact (inb_conv _ _ hv.2.2).trans ez.symm
    · exact (inb_conv _ _ hv.2.1).trans ey.symm
    · exact (inb_conv _ _ hv.1).trans ex.symm
  · have hc : ¬ IntOp.andi (IntOp.andi (inb (F := Ideal) 1408#32 (qx x)) (inb (F := Ideal) 1600#32 (qy y)))
        (inb (F := Ideal) 40#32 (qz z)) = 1 := by
      intro h
      have h1 := (andi_eq_one _ _).mp h
      have h2 := (andi_eq_one _ _).mp h1.1
      exact hv ⟨h2.1, h2.2, h1.2⟩
    have hr : ¬ (rin 1408#32 (rcx (F := Ideal) x) = 1#1 ∧ rin 1600#32 (rcy (F := Ideal) y) = 1#1
        ∧ rin 40#32 (rcz (F := Ideal) z) = 1#1) := by
      rw [← hx, ← hy, ← hz]; exact hv
    rw [if_neg hc, if_neg hr]

theorem grid_ideal (X : FVec Ideal SIn .f32) : grid (F := Ideal) X = rgrid (F := Ideal) X := by
  funext j
  exact cell_ideal _ _ _ _

end Voxel
-- ==== Proof.RefRun.lean ====
/-
  The reference program's run.

  The reference is a straight line of host operations: three literal tables, a slice of the point array's first
  three columns, the lower ends and voxel widths broadcast over the rows, the subtraction, the host's division,
  the rounding down and the conversion to integer words; then the two tests per coordinate, their conjunction,
  the conjunction of a row's three tests (a reduction over the columns), the columns reversed, and the choice
  between the reversed indices and -1 by the row's test (three operations of a module-local function, run on the
  call's own buffers). Its run is the library's run of a list of host operations: every buffer ends at the
  fold of the operations over the launch contents, which at the result buffer is one term of the argument
  array (`out` below), and leaves the argument array as it was.
-/
import proofs.«218498_g40716289966699_cont_8to1_b_543_34_alg».proof.Defs
import proofs.«218498_g40716289966699_cont_8to1_b_543_34_alg».proof.Proof.Spec
import proofs.«218498_g40716289966699_cont_8to1_b_543_34_alg».proof.Proof.Gen.ReferenceIdeal
import Idealize.ShloMosaic.Lib.StableHlo.Run
import Idealize.ShloMosaic.Lib.Pipeline.Value
import Idealize.ShloMosaic.Lib.ValueLayout
import Idealize.ShloMosaic.Lib.IdealHost
import Idealize.ShloMosaic.Lib.Affine
import Idealize.ShloMosaic.PureOps.Reduce

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! ## The result as one term of the argument array -/

/-- The lower ends of the three ranges, one per column, over every row. -/
def los : FVec F S300000x3 .f32 :=
  broadcastInDim S300000x3 ![0, 1] bcast_S1x3_S300000x3_0_1
    (broadcastInDim S1x3 ![1] bcast_S3_S1x3_1 (fun i => FloatOps.ofBits .f32 (lit1 (S3.rowMajor i)) : FVec F S3 .f32))

/-- The voxel widths, one per column, over every row. -/
def widths : FVec F S300000x3 .f32 :=
  broadcastInDim S300000x3 ![0, 1] bcast_S1x3_S300000x3_0_1
    (broadcastInDim S1x3 ![1] bcast_S3_S1x3_1 (fun i => FloatOps.ofBits .f32 (lit0 (S3.rowMajor i)) : FVec F S3 .f32))

/-- The grid's extents, one per column, over every row. -/
def extents : IVec S300000x3 32 :=
  broadcastInDim S300000x3 ![0, 1] bcast_S1x3_S300000x3_0_1
    (broadcastInDim S1x3 ![1] bcast_S3_S1x3_1 (fun i => lit2 (S3.rowMajor i) : IVec S3 32))

/-- The voxel indices of every point, in the order (x, y, z): the offset from the lower end in voxel widths,
    rounded down, converted. -/
def idxs (X : FVec F S300000x4 .f32) : IVec S300000x3 32 :=
  fptosi 32 (Host.floor (Host.divf (subf (extractStridedSlice S300000x3 ![0, 0] X slices_S300000x4_S300000x3_0_0) los) widths))

/-- Per point and coordinate, whether the index is at least 0 and below the extent. -/
def inside (X : FVec F S300000x4 .f32) : IVec S300000x3 1 :=
  andi (cmpi .sge (idxs X) (broadcastInDim S300000x3 ![] bcast_S_S300000x3 (constantI S_ 32 0#32)))
    (cmpi .slt (idxs X) extents)

/-- Per point, whether all three coordinates are inside. -/
def rowInside (X : FVec F S300000x4 .f32) : IVec S300000 1 :=
  Host.reduce IntOp.andi (inside X) (constantI S_ 1 1#1) reducesTo_S300000x3_S300000_d1 h_S_

/-- The result: the indices in the order (z, y, x) where the point is inside, -1 elsewhere. -/
def out (X : FVec F S300000x4 .f32) : IVec S300000x3 32 :=
  select
    (broadcastInDim S300000x3 ![0, 1] bcast_S300000x1_S300000x3_0_1
      (broadcastInDim S300000x1 ![0] bcast_S300000_S300000x1_0 (rowInside X)))
    (Host.reverse [1] (idxs X))
    (broadcastInDim S300000x3 ![] bcast_S_S300000x3 (constantI S_ 32 4294967295#32))

/-! ## The run -/

/-- @main's 27 operations in order, the call's three in its place over the call's own buffers. -/
abbrev ops : List (HloOp τ sig (Elt F)) :=
  [ nullary main_cst (fun i => FloatOps.ofBits .f32 (lit0 (S3.rowMajor i))),
    nullary main_cst_0 (fun i => FloatOps.ofBits .f32 (lit1 (S3.rowMajor i))),
    nullary main_c (fun i => lit2 (S3.rowMajor i)),
    unary main_arg0 main_v0 ((extractStridedSlice S300000x3 ![0, 0] · slices_S300000x4_S300000x3_0_0) : (⟨S300000x4, .f32⟩ : BufTy).Contents (Elt F) → (⟨S300000x3, .f32⟩ : BufTy).Contents (Elt F)),
    unary main_cst_0 main_v1 (broadcastInDim S1x3 ![1] bcast_S3_S1x3_1 : (⟨S3, .f32⟩ : BufTy).Contents (Elt F) → (⟨S1x3, .f32⟩ : BufTy).Contents (Elt F)),
    unary main_v1 main_v2 (broadcastInDim S300000x3 ![0, 1] bcast_S1x3_S300000x3_0_1 : (⟨S1x3, .f32⟩ : BufTy).Contents (Elt F) → (⟨S300000x3, .f32⟩ : BufTy).Contents (Elt F)),
    binary main_v0 main_v2 main_v3 (subf : (⟨S300000x3, .f32⟩ : BufTy).Contents (Elt F) → (⟨S300000x3, .f32⟩ : BufTy).Contents (Elt F) → (⟨S300000x3, .f32⟩ : BufTy).Contents (Elt F)),
    unary main_cst main_v4 (broadcastInDim S1x3 ![1] bcast_S3_S1x3_1 : (⟨S3, .f32⟩ : BufTy).Contents (Elt F) → (⟨S1x3, .f32⟩ : BufTy).Contents (Elt F)),
    unary main_v4 main_v5 (broadcastInDim S300000x3 ![0, 1] bcast_S1x3_S300000x3_0_1 : (⟨S1x3, .f32⟩ : BufTy).Contents (Elt F) → (⟨S300000x3, .f32⟩ : BufTy).Contents (Elt F)),
    binary main_v3 main_v5 main_v6 (Host.divf : (⟨S300000x3, .f32⟩ : BufTy).Contents (Elt F) → (⟨S300000x3, .f32⟩ : BufTy).Contents (Elt F) → (⟨S300000x3, .f32⟩ : BufTy).Contents (Elt F)),
    unary main_v6 main_v7 (Host.floor : (⟨S300000x3, .f32⟩ : BufTy).Contents (Elt F) → (⟨S300000x3, .f32⟩ : BufTy).Contents (Elt F)),
    unary main_v7 main_v8 (fptosi 32 : (⟨S300000x3, .f32⟩ : BufTy).Contents (Elt F) → (⟨S300000x3, .i32⟩ : BufTy).Contents (Elt F)),
    nullary main_c_1 (constantI S_ 32 0#32),
    unary main_c_1 main_v9 (broadcastInDim S300000x3 ![] bcast_S_S300000x3 : (⟨S_, .i32⟩ : BufTy).Contents (Elt F) → (⟨S300000x3, .i32⟩ : BufTy).Contents (Elt F)),
    binary main_v8 main_v9 main_v10 (cmpi .sge : (⟨S300000x3, .i32⟩ : BufTy).Contents (Elt F) → (⟨S300000x3, .i32⟩ : BufTy).Contents (Elt F) → (⟨S300000x3, .i1⟩ : BufTy).Contents (Elt F)),
    unary main_c main_v11 (broadcastInDim S1x3 ![1] bcast_S3_S1x3_1 : (⟨S3, .i32⟩ : BufTy).Contents (Elt F) → (⟨S1x3, .i32⟩ : BufTy).Contents (Elt F)),
    unary main_v11 main_v12 (broadcastInDim S300000x3 ![0, 1] bcast_S1x3_S300000x3_0_1 : (⟨S1x3, .i32⟩ : BufTy).Contents (Elt F) → (⟨S300000x3, .i32⟩ : BufTy).Contents (Elt F)),
    binary main_v8 main_v12 main_v13 (cmpi .slt : (⟨S300000x3, .i32⟩ : BufTy).Contents (Elt F) → (⟨S300000x3, .i32⟩ : BufTy).Contents (Elt F) → (⟨S300000x3, .i1⟩ : BufTy).Contents (Elt F)),
    binary main_v10 main_v13 main_v14 (andi : (⟨S300000x3, .i1⟩ : BufTy).Contents (Elt F) → (⟨S300000x3, .i1⟩ : BufTy).Contents (Elt F) → (⟨S300000x3, .i1⟩ : BufTy).Contents (Elt F)),
    nullary main_c_2 (constantI S_ 1 1#1),
    binary main_v14 main_c_2 main_v15 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    unary main_v15 main_v16 (broadcastInDim S300000x1 ![0] bcast_S300000_S300000x1_0 : (⟨S300000, .i1⟩ : BufTy).Contents (Elt F) → (⟨S300000x1, .i1⟩ : BufTy).Contents (Elt F)),
    unary main_v8 main_v17 (Host.reverse [1] : (⟨S300000x3, .i32⟩ : BufTy).Contents (Elt F) → (⟨S300000x3, .i32⟩ : BufTy).Contents (Elt F)),
    nullary main_c_3 (constantI S_ 32 4294967295#32),
    unary main_v16 main_call0_v0 (broadcastInDim S300000x3 ![0, 1] bcast_S300000x1_S300000x3_0_1 : (⟨S300000x1, .i1⟩ : BufTy).Contents (Elt F) → (⟨S300000x3, .i1⟩ : BufTy).Contents (Elt F)),
    unary main_c_3 main_call0_v1 (broadcastInDim S300000x3 ![] bcast_S_S300000x3 : (⟨S_, .i32⟩ : BufTy).Contents (Elt F) → (⟨S300000x3, .i32⟩ : BufTy).Contents (Elt F)),
    ternary main_call0_v0 main_v17 main_call0_v1 main_v18 (select : (⟨S300000x3, .i1⟩ : BufTy).Contents (Elt F) → (⟨S300000x3, .i32⟩ : BufTy).Contents (Elt F) → (⟨S300000x3, .i32⟩ : BufTy).Contents (Elt F) → (⟨S300000x3, .i32⟩ : BufTy).Contents (Elt F)) ]

/-- The call's first operation over typed references is the plain operation over the same buffers: the transport
    along the references' type equations is the identity. -/
theorem call_v0_eq :
    (TRef.unary (.of main_v16 : TRef sig ⟨S300000x1, .i1⟩) main_call0.v0 (broadcastInDim S300000x3 ![0, 1] bcast_S300000x1_S300000x3_0_1) : HloOp τ sig (Elt F))
      = unary main_v16 main_call0_v0 (broadcastInDim S300000x3 ![0, 1] bcast_S300000x1_S300000x3_0_1 : (⟨S300000x1, .i1⟩ : BufTy).Contents (Elt F) → (⟨S300000x3, .i1⟩ : BufTy).Contents (Elt F)) := rfl

/-- Likewise its second. -/
theorem call_v1_eq :
    (TRef.unary (.of main_c_3 : TRef sig ⟨S_, .i32⟩) main_call0.v1 (broadcastInDim S300000x3 ![] bcast_S_S300000x3) : HloOp τ sig (Elt F))
      = unary main_c_3 main_call0_v1 (broadcastInDim S300000x3 ![] bcast_S_S300000x3 : (⟨S_, .i32⟩ : BufTy).Contents (Elt F) → (⟨S300000x3, .i32⟩ : BufTy).Contents (Elt F)) := rfl

/-- Likewise its third. -/
theorem call_v2_eq :
    (TRef.ternary main_call0.v0 (.of main_v17 : TRef sig ⟨S300000x3, .i32⟩) main_call0.v1 main_call0.v2 select : HloOp τ sig (Elt F))
      = ternary main_call0_v0 main_v17 main_call0_v1 main_v18 (select : (⟨S300000x3, .i1⟩ : BufTy).Contents (Elt F) → (⟨S300000x3, .i32⟩ : BufTy).Contents (Elt F) → (⟨S300000x3, .i32⟩ : BufTy).Contents (Elt F) → (⟨S300000x3, .i32⟩ : BufTy).Contents (Elt F)) := rfl

set_option maxRecDepth 1024 in
/-- @main is that straight line: the function's definition unfolded at its call and the record at its fields,
    both sides are one chain of host steps once sequencing is reassociated. -/
theorem main_eq (c : Dev nD) : main (F := F) c = seq ops := by
  simp only [main, fn_where.body, seq, bind_assoc, pure_bind]
  rw [call_v0_eq, call_v1_eq, call_v2_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., unary_bufs_sub .., unary_bufs_sub .., binary_bufs_sub ..,
    binary_bufs_sub .., nullary_bufs_sub .., binary_bufs_sub .., unary_bufs_sub .., unary_bufs_sub .., nullary_bufs_sub ..,
    unary_bufs_sub .., unary_bufs_sub .., ternary_bufs_sub ..⟩

/-- The fold at the result buffer is `out` of the argument's contents: each operation's result at its own buffer
    is its function of its operands' contents, and those terms, composed, are `out`'s own text. -/
theorem out_eq (V : Valuation τ sig (Elt F)) :
    after ops V (main_v18 : DevRef τ sig) = out (F := F) (V (main_arg0 : DevRef τ sig)) := by
  after_results
  unfold out rowInside inside idxs los widths extents
  rfl

/-- The fold leaves the argument buffer as it was: no operation writes it. -/
theorem arg0_eq (V : Valuation τ sig (Elt F)) :
    after ops V (main_arg0 : DevRef τ sig) = V (main_arg0 : DevRef τ sig) := by
  after_results

/-- On the device, for any float values, from any memory with zero counters: every weakly fair execution of
    @main terminates with the result buffer at `out` of the argument's launch contents and the argument unchanged. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v18) = out (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (out_eq _), (h c main_arg0).trans (arg0_eq _)⟩)
    (run_seq scopedRefs_eq scopedSems_eq defs main (fun _ => ops) main_eq (fun _ => ops_sub) m ρ)

/-! ## The result, index by index -/

section Value

open Idealize.ShloMosaic.ValueIdx

/-- A three-word table laid along the columns of every row reads, at (r, k), the table at k. -/
theorem table_apply {α : Type} (v : S3.Idx → α) (r : Fin 300000) (k : Fin 3) :
    broadcastInDim S300000x3 ![0, 1] bcast_S1x3_S300000x3_0_1 (broadcastInDim S1x3 ![1] bcast_S3_S1x3_1 v) (ix2 r k)
      = v (ix1 k) := by
  refine (broadcastInDim_apply _ _ _ (ix2 r k) (ix2 (0 : Fin 1) k) fun a => ?_).trans
    (broadcastInDim_apply _ _ _ (ix2 (0 : Fin 1) k) (ix1 k) fun a => ?_)
  · match a with
    | ⟨0, _⟩ => rfl
    | ⟨1, _⟩ => rfl
  · match a with
    | ⟨0, _⟩ => rfl

/-- A row's one word laid along that row's columns reads, at (r, k), the word of row r. -/
theorem rowWord_apply {α : Type} (v : S300000.Idx → α) (r : Fin 300000) (k : Fin 3) :
    broadcastInDim S300000x3 ![0, 1] bcast_S300000x1_S300000x3_0_1
        (broadcastInDim S300000x1 ![0] bcast_S300000_S300000x1_0 v) (ix2 r k)
      = v (ix1 r) := by
  refine (broadcastInDim_apply _ _ _ (ix2 r k) (ix2 r (0 : Fin 1)) fun a => ?_).trans
    (broadcastInDim_apply _ _ _ (ix2 r (0 : Fin 1)) (ix1 r) fun a => ?_)
  · match a with
    | ⟨0, _⟩ => rfl
    | ⟨1, _⟩ => rfl
  · match a with
    | ⟨0, _⟩ => rfl

/-- The first three columns of the point array read, at (r, k), the array at (r, k). -/
theorem slice_apply (X : FVec F S300000x4 .f32) (r : Fin 300000) (k : Fin 3) (k' : Fin 4) (hk : k'.val = k.val) :
    extractStridedSlice S300000x3 ![0, 0] X slices_S300000x4_S300000x3_0_0 (ix2 r k) = X (ix2 r k') :=
  slice2_axis1_apply 0 X _ r k k' (by omega)

/-- The columns reversed: column k reads column 2 - k. -/
theorem reverse_apply {α : Type} (x : S300000x3.Idx → α) (r : Fin 300000) (k : Fin 3) :
    Host.reverse [1] x (ix2 r k) = x (ix2 r k.rev) := by
  unfold Host.reverse
  refine congrArg x (funext fun a => ?_)
  match a with
  | ⟨0, _⟩ => rfl
  | ⟨1, _⟩ => rfl

/-- The index along coordinate k of point r: the point's coordinate less the range's lower end, over the voxel
    width, rounded down, converted. -/
theorem idxs_apply (X : FVec F S300000x4 .f32) (r : Fin 300000) (k : Fin 3) (k' : Fin 4) (hk : k'.val = k.val) :
    idxs X (ix2 r k) = Voxel.rc (lit1 k) (lit0 k) (X (ix2 r k')) := by
  have e1 := slice_apply X r k k' hk
  have e2 : (los : FVec F S300000x3 .f32) (ix2 r k) = FloatOps.ofBits .f32 (lit1 (S3.rowMajor (ix1 k))) :=
    table_apply _ r k
  have e3 : (widths : FVec F S300000x3 .f32) (ix2 r k) = FloatOps.ofBits .f32 (lit0 (S3.rowMajor (ix1 k))) :=
    table_apply _ r k
  show FloatOps.fptosi 32 (FloatOps.hostUnary .floor (FloatOps.hostDivf
      (FloatOps.subf (extractStridedSlice S300000x3 ![0, 0] X slices_S300000x4_S300000x3_0_0 (ix2 r k)) (los (ix2 r k)))
      (widths (ix2 r k)))) = _
  rw [e1, e2, e3]
  fin_cases k <;> rfl

/-- The test along coordinate k of point r: the index at least 0 and below the extent. -/
theorem inside_apply (X : FVec F S300000x4 .f32) (r : Fin 300000) (k : Fin 3) :
    inside X (ix2 r k) = Voxel.rin (lit2 k) (idxs X (ix2 r k)) := by
  have e1 : broadcastInDim S300000x3 ![] bcast_S_S300000x3 (constantI S_ 32 0#32) (ix2 r k) = 0#32 :=
    broadcastInDim_scalar_apply _ _ _
  have e2 : extents (ix2 r k) = lit2 (S3.rowMajor (ix1 k)) := table_apply _ r k
  show IntOp.andi
      (IntOp.cmpi .sge (idxs X (ix2 r k)) (broadcastInDim S300000x3 ![] bcast_S_S300000x3 (constantI S_ 32 0#32) (ix2 r k)))
      (IntOp.cmpi .slt (idxs X (ix2 r k)) (extents (ix2 r k))) = _
  rw [e1, e2]
  fin_cases k <;> rfl

/-- A fold by `and` over one-bit words is 1 exactly when it started at 1 and met only 1s. -/
theorem fold_andi_eq_one {ι : Type} [DecidableEq ι] (s : Finset ι) (f : ι → BitVec 1) (b : BitVec 1) :
    s.fold IntOp.andi b f = 1#1 ↔ b = 1#1 ∧ ∀ i ∈ s, f i = 1#1 := by
  induction s using Finset.induction_on with
  | empty => simp
  | insert a s ha ih =>
    rw [Finset.fold_insert ha, IntOp.andi_eq_one, ih, Finset.forall_mem_insert]
    tauto

/-- A row's test: 1 exactly when the row's three tests are. -/
theorem rowInside_eq_one (X : FVec F S300000x4 .f32) (r : Fin 300000) :
    rowInside X (ix1 r) = 1#1
      ↔ inside X (ix2 r 0) = 1#1 ∧ inside X (ix2 r 1) = 1#1 ∧ inside X (ix2 r 2) = 1#1 := by
  have hred : S300000x3.Reduces [1] S300000 := by decide
  have hl : ∀ k : Fin 3, hred.lift (ix1 r) k = ix2 r k := fun k => by
    funext c
    match c with
    | ⟨0, _⟩ => exact Fin.ext rfl
    | ⟨1, _⟩ => exact Fin.ext rfl
  have hk : ∀ k : Fin 3, (inside X ∘ hred.lift (ix1 r)) k = inside X (ix2 r k) := fun k =>
    congrArg (inside X) (hl k)
  unfold rowInside
  rw [Host.reduce_eq_fold_single IntOp.andi (inside X) _ reducesTo_S300000x3_S300000_d1 hred h_S_ (ix1 r),
    fold_andi_eq_one]
  constructor
  · rintro ⟨-, h⟩
    exact ⟨(hk 0).symm.trans (h (0 : Fin 3) (Finset.mem_univ _)), (hk 1).symm.trans (h (1 : Fin 3) (Finset.mem_univ _)),
      (hk 2).symm.trans (h (2 : Fin 3) (Finset.mem_univ _))⟩
  · rintro ⟨h0, h1, h2⟩
    have hall : ∀ k : Fin 3, (inside X ∘ hred.lift (ix1 r)) k = 1#1 := fun k => by
      rw [hk]; fin_cases k
      · exact h0
      · exact h1
      · exact h2
    exact ⟨rfl, fun k _ => hall k⟩

/-- The composed term is the specification's array, index by index: at (r, k) both choose, by the same three
    tests, between the index along coordinate 2 - k and -1. -/
theorem out_eq_rgrid (X : FVec F S300000x4 .f32) : out X = Voxel.rgrid (F := F) X := by
  funext j
  obtain ⟨r, k, rfl⟩ : ∃ (r : Fin 300000) (k : Fin 3), j = ix2 r k := ⟨j 0, j 1, eq_ix2 j⟩
  have hb : broadcastInDim S300000x3 ![0, 1] bcast_S300000x1_S300000x3_0_1
      (broadcastInDim S300000x1 ![0] bcast_S300000_S300000x1_0 (rowInside X)) (ix2 r k) = rowInside X (ix1 r) :=
    rowWord_apply _ r k
  have hm : broadcastInDim S300000x3 ![] bcast_S_S300000x3 (constantI S_ 32 4294967295#32) (ix2 r k) = 4294967295#32 :=
    broadcastInDim_scalar_apply _ _ _
  have hr : Host.reverse [1] (idxs X) (ix2 r k) = idxs X (ix2 r k.rev) := reverse_apply _ r k
  have hiff : rowInside X (ix1 r) = 1#1
      ↔ Voxel.rin 1408#32 (Voxel.rcx (X (ix2 r 0))) = 1#1 ∧ Voxel.rin 1600#32 (Voxel.rcy (X (ix2 r 1))) = 1#1
        ∧ Voxel.rin 40#32 (Voxel.rcz (X (ix2 r 2))) = 1#1 := by
    have h := rowInside_eq_one X r
    rw [inside_apply, inside_apply, inside_apply, idxs_apply X r 0 0 rfl, idxs_apply X r 1 1 rfl,
      idxs_apply X r 2 2 rfl] at h
    exact h
  show Scalar.select
      (broadcastInDim S300000x3 ![0, 1] bcast_S300000x1_S300000x3_0_1
        (broadcastInDim S300000x1 ![0] bcast_S300000_S300000x1_0 (rowInside X)) (ix2 r k))
      (Host.reverse [1] (idxs X) (ix2 r k))
      (broadcastInDim S300000x3 ![] bcast_S_S300000x3 (constantI S_ 32 4294967295#32) (ix2 r k))
    = Voxel.rcell (X (ix2 r 0)) (X (ix2 r 1)) (X (ix2 r 2)) k
  rw [hb, hm, hr]
  unfold Scalar.select Voxel.rcell
  by_cases hc : rowInside X (ix1 r) = 1#1
  · refine (if_pos hc).trans (Eq.trans ?_ (if_pos (hiff.1 hc)).symm)
    fin_cases k
    · exact idxs_apply X r 2 2 rfl
    · exact idxs_apply X r 1 1 rfl
    · exact idxs_apply X r 0 0 rfl
  · exact (if_neg hc).trans (if_neg fun h => hc (hiff.2 h)).symm

end Value

/-! ## The run, at the specification's array -/

/-- On the device, at the ideal float values, from any memory with zero counters: every weakly fair execution of
    @main terminates with the result buffer at the specification's array of the argument's launch contents, and
    the argument unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v18)
            = Voxel.rgrid (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run defs _ _).mono (fun _ h c => ⟨(h c).1.trans (out_eq_rgrid _), (h c).2⟩) (run_out (F := Ideal) m ρ)

end Cert.ReferenceIdeal.RefValue

end
-- ==== Proof.SetupI.lean ====
/-
  The kernel program as the SparseCore launch theorem sees it, and what its handshakes carry.
  Thirty of the thirty-two vector subcores each convert ten thousand consecutive points: subcore i of
  SparseCore c is worker 2 i + c and owns rows [10000 (2 i + c), 10000 (2 i + c + 1)) of the result; the
  two last workers own nothing. Every subcore reads the point array through a read share of the whole array.
  The call hands each SparseCore one share of the points and its subcores' rows of the result at the launch
  contents, and takes them back with the rows at the voxel function of the points (Voxel.grid).
-/
import proofs.«218498_g40716289966699_cont_8to1_b_543_34_alg».proof.Defs
import proofs.«218498_g40716289966699_cont_8to1_b_543_34_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218498_g40716289966699_cont_8to1_b_543_34_alg».proof.Proof.Gen.KernelIdeal
import proofs.«218498_g40716289966699_cont_8to1_b_543_34_alg».proof.Proof.Gen.KernelIdeal.Skeleton

noncomputable section

namespace Cert.Proof.VoxI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, the shares and the rows -/

variable (m : (ℓ : Loc nD τ sig) → Buf (Elt F) ℓ) (ρ : Dev nD → PrngReg)

/-- The point array (the argument) and the result array, as locations of device `d`. -/
abbrev xLoc (d : Dev nD) : Loc nD τ sig := (SparseCore.T d).loc main_arg0
abbrev oLoc (d : Dev nD) : Loc nD τ sig := (SparseCore.T d).loc main_v0

/-- SparseCore `c`'s read share of the points, and subcore `i`'s part of it. -/
def tokC (c : ℕ) : PosShare TreeShare := Transfers.shareTokN fullShare c
def tokT (c i : ℕ) : PosShare TreeShare := Transfers.shareTokN (tokC c) i

/-- The worker number of subcore `i` of SparseCore `c`. -/
def wid (c i : ℕ) : ℕ := 2 * i + c

/-- The result rows worker `wid c i` owns: ten thousand consecutive rows, none for the two last workers. -/
def rowsOf (c i : ℕ) : Finset S300000x3.Idx :=
  Finset.univ.filter fun j => wid c i < 30 ∧ wid c i * 10000 ≤ (j 0).val ∧ (j 0).val < (wid c i + 1) * 10000

theorem mem_rowsOf {c i : ℕ} {j : S300000x3.Idx} :
    j ∈ rowsOf c i ↔ wid c i < 30 ∧ wid c i * 10000 ≤ (j 0).val ∧ (j 0).val < (wid c i + 1) * 10000 := by
  unfold rowsOf; rw [Finset.mem_filter]; exact ⟨fun h => h.2, fun h => ⟨Finset.mem_univ _, h⟩⟩

variable [FloatOps F]

/-- What the result array holds after the run: the voxel function of the launch contents of the points. -/
def gout (d : Dev nD) : Buf (Elt F) (oLoc d) := Voxel.grid (F := F) (m (xLoc d))

/-- A subcore's operands: its share of the points, its rows of the result at `f`. -/
def tilePts (d : Dev nD) (c i : ℕ) (f : Buf (Elt F) (oLoc d)) : sProp 𝕄 :=
  iprop((xLoc d ↦{tokT c i} m (xLoc d)) ∗ oLoc d ↦[rowsOf c i]{fullShare} f)

/-- A SparseCore's operands: its share of the points, its sixteen subcores' rows of the result at `f`. -/
def corePts (d : Dev nD) (c : ℕ) (f : Buf (Elt F) (oLoc d)) : sProp 𝕄 :=
  iprop((xLoc d ↦{tokC c} m (xLoc d)) ∗ bigSep Finset.univ fun i : Fin ((K (F := F)).nSub 0) => oLoc d ↦[rowsOf c i.val]{fullShare} f)

/-- The one call: points' shares out and back unchanged, result rows out at the launch contents and back at `gout`. -/
def P : (K (F := F)).Pay (nD := nD) (Val := Elt F) (Name := ℕ) (U := UU) where
  st := fun q d c => match q with | 0 => corePts m d c.val (m (oLoc d))
  dn := fun q d c => match q with | 0 => corePts m d c.val (gout m d)
  go := fun q d c i => match q with | 0 => tilePts m d c.val i.val (m (oLoc d))
  td := fun q d c i => match q with | 0 => tilePts m d c.val i.val (gout m d)
  x := fun _ _ => iprop(emp)

instance P_storable : (P (F := F) m).IsStorable where
  st q d c := match q with | 0 => by unfold P corePts; infer_instance
  dn q d c := match q with | 0 => by unfold P corePts; infer_instance
  go q d c i := match q with | 0 => by unfold P tilePts; infer_instance
  td q d c i := match q with | 0 => by unfold P tilePts; infer_instance

end Cert.Proof.VoxI

end
-- ==== Proof.RowsI.lean ====
/-
  The chunk memrefs of one vector subcore's task, in the program's own spelling, and the row arithmetic
  of its proof. A working subcore converts its ten thousand rows in twenty chunks of 480 rows and a tail
  of 400: chunk k is rows [base + 480 k, base + 480 k + 480) of the points and of the result, the tail
  rows [base + 9600, base + 10000), with base = 20000 (L 1) + 10000 (L 0) the first row of the worker.
-/
import proofs.«218498_g40716289966699_cont_8to1_b_543_34_alg».proof.Proof.SetupI

noncomputable section

namespace Cert.Proof.VoxI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S300000x4 EltTy.f32)
local notation "oV" => (Memref.whole Cert.KernelIdeal.main_v0_scv : Memref Cert.KernelIdeal.sig Kind.scVector Space.hbm Cert.KernelIdeal.S300000x3 EltTy.i32)

/-! ## Which subcores work -/

/-- The kernel's test, computed on words, is that the worker number is below thirty. -/
theorem cond_iff (L : grid0.Coords) : k0_cond1 L = 1#1 ↔ wid (L 0).val (L 1).val < 30 := by
  revert L; decide +kernel

/-! ## The chunks, as the program slices them -/

abbrev xChunk (L : grid0.Coords) (h : k0_cond1 L = 1#1) (k : Fin k0_t1_loop.trips) : Memref sig .scVector .hbm S480x4 .f32 :=
  (xV).slice (Rect.unit (s := S300000x4) (k0_off1 L k) S480x4.size (Gen.k0_off1_inb L k h)) (fun _ => rfl)
abbrev oChunk (L : grid0.Coords) (h : k0_cond1 L = 1#1) (k : Fin k0_t1_loop.trips) : Memref sig .scVector .hbm S480x3 .i32 :=
  (oV).slice (Rect.unit (s := S300000x3) (k0_off2 L k) S480x3.size (Gen.k0_off2_inb L k h)) (fun _ => rfl)
abbrev xTail (L : grid0.Coords) (h : k0_cond1 L = 1#1) : Memref sig .scVector .hbm S400x4 .f32 :=
  (xV).slice (Rect.unit (s := S300000x4) (k0_off3 L) S400x4.size (Gen.k0_off3_inb L h)) (fun _ => rfl)
abbrev oTail (L : grid0.Coords) (h : k0_cond1 L = 1#1) : Memref sig .scVector .hbm S400x3 .i32 :=
  (oV).slice (Rect.unit (s := S300000x3) (k0_off4 L) S400x3.size (Gen.k0_off4_inb L h)) (fun _ => rfl)

theorem trips_lt (k : Fin k0_t1_loop.trips) : k.val < 20 := Nat.lt_of_lt_of_le k.isLt k0_t1_abs.2.1

theorem off1_0 (L : grid0.Coords) (k : Fin k0_t1_loop.trips) : k0_off1 L k 0 = 20000 * (L 1).val + 10000 * (L 0).val + 480 * k.val := by rw [k0_off1_eq]; rfl
theorem off1_1 (L : grid0.Coords) (k : Fin k0_t1_loop.trips) : k0_off1 L k 1 = 0 := by rw [k0_off1_eq]; rfl
theorem off2_0 (L : grid0.Coords) (k : Fin k0_t1_loop.trips) : k0_off2 L k 0 = 20000 * (L 1).val + 10000 * (L 0).val + 480 * k.val := by rw [k0_off2_eq]; rfl
theorem off2_1 (L : grid0.Coords) (k : Fin k0_t1_loop.trips) : k0_off2 L k 1 = 0 := by rw [k0_off2_eq]; rfl
theorem off3_0 (L : grid0.Coords) : k0_off3 L 0 = 20000 * (L 1).val + 10000 * (L 0).val + 9600 := by rw [k0_off3_eq]; rfl
theorem off3_1 (L : grid0.Coords) : k0_off3 L 1 = 0 := by rw [k0_off3_eq]; rfl
theorem off4_0 (L : grid0.Coords) : k0_off4 L 0 = 20000 * (L 1).val + 10000 * (L 0).val + 9600 := by rw [k0_off4_eq]; rfl
theorem off4_1 (L : grid0.Coords) : k0_off4 L 1 = 0 := by rw [k0_off4_eq]; rfl

/-! ## Where a chunk's elements lie in the array -/

theorem xChunk_emb (L : grid0.Coords) (h : k0_cond1 L = 1#1) (k : Fin k0_t1_loop.trips) (y : S480x4.Idx) :
    (((xChunk L h k).view.emb y) 0).val = 20000 * (L 1).val + 10000 * (L 0).val + 480 * k.val + (y 0).val
      ∧ (((xChunk L h k).view.emb y) 1).val = (y 1).val := by
  constructor
  · show k0_off1 L k 0 + 1 * (y 0).val = _
    rw [off1_0]; omega
  · show k0_off1 L k 1 + 1 * (y 1).val = _
    rw [off1_1]; omega

theorem oChunk_emb (L : grid0.Coords) (h : k0_cond1 L = 1#1) (k : Fin k0_t1_loop.trips) (y : S480x3.Idx) :
    (((oChunk L h k).view.emb y) 0).val = 20000 * (L 1).val + 10000 * (L 0).val + 480 * k.val + (y 0).val
      ∧ (((oChunk L h k).view.emb y) 1).val = (y 1).val := by
  constructor
  · show k0_off2 L k 0 + 1 * (y 0).val = _
    rw [off2_0]; omega
  · show k0_off2 L k 1 + 1 * (y 1).val = _
    rw [off2_1]; omega

theorem xTail_emb (L : grid0.Coords) (h : k0_cond1 L = 1#1) (y : S400x4.Idx) :
    (((xTail L h).view.emb y) 0).val = 20000 * (L 1).val + 10000 * (L 0).val + 9600 + (y 0).val
      ∧ (((xTail L h).view.emb y) 1).val = (y 1).val := by
  constructor
  · show k0_off3 L 0 + 1 * (y 0).val = _
    rw [off3_0]; omega
  · show k0_off3 L 1 + 1 * (y 1).val = _
    rw [off3_1]; omega

theorem oTail_emb (L : grid0.Coords) (h : k0_cond1 L = 1#1) (y : S400x3.Idx) :
    (((oTail L h).view.emb y) 0).val = 20000 * (L 1).val + 10000 * (L 0).val + 9600 + (y 0).val
      ∧ (((oTail L h).view.emb y) 1).val = (y 1).val := by
  constructor
  · show k0_off4 L 0 + 1 * (y 0).val = _
    rw [off4_0]; omega
  · show k0_off4 L 1 + 1 * (y 1).val = _
    rw [off4_1]; omega

/-! ## Which rows of the result a chunk is -/

theorem mem_oChunk (L : grid0.Coords) (h : k0_cond1 L = 1#1) (k : Fin k0_t1_loop.trips) (j : S300000x3.Idx) :
    j ∈ (oChunk L h k).view.set ↔ 20000 * (L 1).val + 10000 * (L 0).val + 480 * k.val ≤ (j 0).val
      ∧ (j 0).val < 20000 * (L 1).val + 10000 * (L 0).val + 480 * k.val + 480 := by
  show j ∈ ((View.whole main_v0_scv).slice (Rect.unit (s := S300000x3) (k0_off2 L k) S480x3.size (Gen.k0_off2_inb L k h))).set ↔ _
  rw [View.set_slice_whole, Rect.mem_set_unit]
  have hj1 : (j 1).val < 3 := (j 1).isLt
  refine ⟨fun hm => ?_, fun hm => Fin.forall_fin_two.mpr ⟨?_, ?_⟩⟩
  · have h0 := hm (0 : Fin 2)
    rw [off2_0] at h0
    exact h0
  · rw [off2_0]; exact hm
  · rw [off2_1]; exact ⟨Nat.zero_le _, by show (j 1).val < 0 + 3; omega⟩

theorem mem_oTail (L : grid0.Coords) (h : k0_cond1 L = 1#1) (j : S300000x3.Idx) :
    j ∈ (oTail L h).view.set ↔ 20000 * (L 1).val + 10000 * (L 0).val + 9600 ≤ (j 0).val
      ∧ (j 0).val < 20000 * (L 1).val + 10000 * (L 0).val + 10000 := by
  show j ∈ ((View.whole main_v0_scv).slice (Rect.unit (s := S300000x3) (k0_off4 L) S400x3.size (Gen.k0_off4_inb L h))).set ↔ _
  rw [View.set_slice_whole, Rect.mem_set_unit]
  have hj1 : (j 1).val < 3 := (j 1).isLt
  refine ⟨fun hm => ?_, fun hm => Fin.forall_fin_two.mpr ⟨?_, ?_⟩⟩
  · have h0 := hm (0 : Fin 2)
    rw [off4_0] at h0
    have h0' : 20000 * (L 1).val + 10000 * (L 0).val + 9600 ≤ (j 0).val
        ∧ (j 0).val < 20000 * (L 1).val + 10000 * (L 0).val + 9600 + 400 := h0
    omega
  · rw [off4_0]
    show 20000 * (L 1).val + 10000 * (L 0).val + 9600 ≤ (j 0).val ∧ (j 0).val < 20000 * (L 1).val + 10000 * (L 0).val + 9600 + 400
    omega
  · rw [off4_1]; exact ⟨Nat.zero_le _, by show (j 1).val < 0 + 3; omega⟩

theorem oChunk_sub (L : grid0.Coords) (h : k0_cond1 L = 1#1) (k : Fin k0_t1_loop.trips) :
    (oChunk L h k).view.set ⊆ rowsOf (L 0).val (L 1).val := by
  intro j hj
  have hj' := (mem_oChunk L h k j).mp hj
  have hw := (cond_iff L).mp h
  have hk := trips_lt k
  refine mem_rowsOf.mpr ?_
  unfold wid at hw ⊢
  omega

theorem oTail_sub (L : grid0.Coords) (h : k0_cond1 L = 1#1) : (oTail L h).view.set ⊆ rowsOf (L 0).val (L 1).val := by
  intro j hj
  have hj' := (mem_oTail L h j).mp hj
  have hw := (cond_iff L).mp h
  refine mem_rowsOf.mpr ?_
  unfold wid at hw ⊢
  omega

/-! ## The result array while the rows fill

Rows below `r` hold the voxel function of the points, the rows from `r` on their launch contents. -/

variable (m : (ℓ : Loc nD τ sig) → Buf (Elt F) ℓ) [FloatOps F]

def outAt (d : Dev nD) (r : ℕ) : Buf (Elt F) (oLoc d) := fun (j : S300000x3.Idx) => if (j 0).val < r then gout m d j else m (oLoc d) j

theorem outAt_start (d : Dev nD) (L : grid0.Coords) :
    ∀ j ∈ rowsOf (L 0).val (L 1).val, outAt m d (20000 * (L 1).val + 10000 * (L 0).val) j = m (oLoc d) j := by
  intro j hj
  have hj' := mem_rowsOf.mp hj
  unfold wid at hj'
  unfold outAt
  exact if_neg (by omega)

theorem outAt_end (d : Dev nD) (L : grid0.Coords) :
    ∀ j ∈ rowsOf (L 0).val (L 1).val, outAt m d (20000 * (L 1).val + 10000 * (L 0).val + 10000) j = gout m d j := by
  intro j hj
  have hj' := mem_rowsOf.mp hj
  unfold wid at hj'
  unfold outAt
  exact if_pos (by omega)

theorem outAt_step (d : Dev nD) (L : grid0.Coords) (h : k0_cond1 L = 1#1) (k : Fin k0_t1_loop.trips) (g : Buf (Elt F) (oLoc d))
    (hg : ∀ j ∈ (oChunk L h k).view.set, g j = gout m d j) :
    ∀ j ∈ rowsOf (L 0).val (L 1).val, ((oChunk L h k).view.set.piecewise g (outAt m d (20000 * (L 1).val + 10000 * (L 0).val + 480 * k.val))) j
      = outAt m d (20000 * (L 1).val + 10000 * (L 0).val + 480 * (k.val + 1)) j := by
  intro j hj
  have hj' := mem_rowsOf.mp hj
  unfold wid at hj'
  by_cases hc : j ∈ (oChunk L h k).view.set
  · have hc' := (mem_oChunk L h k j).mp hc
    rw [Finset.piecewise_eq_of_mem _ _ _ hc, hg j hc]
    unfold outAt
    exact (if_pos (by omega)).symm
  · have hc' : ¬ (20000 * (L 1).val + 10000 * (L 0).val + 480 * k.val ≤ (j 0).val
        ∧ (j 0).val < 20000 * (L 1).val + 10000 * (L 0).val + 480 * k.val + 480) := fun hh => hc ((mem_oChunk L h k j).mpr hh)
    rw [Finset.piecewise_eq_of_notMem _ _ _ hc]
    unfold outAt
    by_cases hlt : (j 0).val < 20000 * (L 1).val + 10000 * (L 0).val + 480 * k.val
    · rw [if_pos hlt, if_pos (by omega)]
    · rw [if_neg hlt, if_neg (by omega)]

theorem outAt_step_tail (d : Dev nD) (L : grid0.Coords) (h : k0_cond1 L = 1#1) (g : Buf (Elt F) (oLoc d))
    (hg : ∀ j ∈ (oTail L h).view.set, g j = gout m d j) :
    ∀ j ∈ rowsOf (L 0).val (L 1).val, ((oTail L h).view.set.piecewise g (outAt m d (20000 * (L 1).val + 10000 * (L 0).val + 9600))) j
      = outAt m d (20000 * (L 1).val + 10000 * (L 0).val + 10000) j := by
  intro j hj
  have hj' := mem_rowsOf.mp hj
  unfold wid at hj'
  by_cases hc : j ∈ (oTail L h).view.set
  · have hc' := (mem_oTail L h j).mp hc
    rw [Finset.piecewise_eq_of_mem _ _ _ hc, hg j hc]
    unfold outAt
    exact (if_pos (by omega)).symm
  · have hc' : ¬ (20000 * (L 1).val + 10000 * (L 0).val + 9600 ≤ (j 0).val
        ∧ (j 0).val < 20000 * (L 1).val + 10000 * (L 0).val + 10000) := fun hh => hc ((mem_oTail L h j).mpr hh)
    rw [Finset.piecewise_eq_of_notMem _ _ _ hc]
    unfold outAt
    by_cases hlt : (j 0).val < 20000 * (L 1).val + 10000 * (L 0).val + 9600
    · rw [if_pos hlt, if_pos (by omega)]
    · rw [if_neg hlt, if_neg (by omega)]

end Cert.Proof.VoxI

end
-- ==== Proof.StoreIdx.lean ====
/-
  The scatter store with every lane enabled and no accumulation, read one element at a time.
  The lanes are written in ascending order, each at the index its index vectors name. An element that no
  lane names keeps its old value; when distinct lanes name distinct elements, the element lane k names
  ends up holding lane k's value.
-/
import Idealize.ShloMosaic.PureOps

namespace Voxel

open Idealize.ShloMosaic

variable {F : FTy → Type} [FloatOps F] {s : Shape} {e : EltTy} {d : Fin 1 → Nat}

/-- The scatter over an arbitrary list of lanes, from arbitrary starting contents: each lane in turn
    overwrites the element it names. -/
def scat (idxs : Fin s.rank → IVec ⟨1, d⟩ 32) (v : Vec F ⟨1, d⟩ e) (h : ∀ a x, (idxs a x).toNat < s.size a)
    (l : List (Fin (d 0))) (g : Vec F s e) : Vec F s e :=
  l.foldl (fun g k => fun j =>
    if (∀ a, (j a).val = ((idxAt idxs h (Shape.ofLane k)) a).val) then v (Shape.ofLane k) else g j) g

theorem storeIdx_eq_scat (f : Vec F s e) (idxs : Fin s.rank → IVec ⟨1, d⟩ 32) (v : Vec F ⟨1, d⟩ e)
    (h : ∀ a x, (idxs a x).toNat < s.size a) :
    storeIdx f idxs v (fun _ => 1#1) false h = scat idxs v h (List.finRange (d 0)) f := by
  simp [storeIdx, scat]

/-- An element none of the listed lanes names is left as it was. -/
theorem scat_miss (idxs : Fin s.rank → IVec ⟨1, d⟩ 32) (v : Vec F ⟨1, d⟩ e) (h : ∀ a x, (idxs a x).toNat < s.size a)
    (l : List (Fin (d 0))) (g : Vec F s e) (j : s.Idx)
    (hj : ∀ k ∈ l, idxAt idxs h (Shape.ofLane k) ≠ j) : scat idxs v h l g j = g j := by
  induction l generalizing g with
  | nil => rfl
  | cons k l ih =>
    have hk : idxAt idxs h (Shape.ofLane k) ≠ j := hj k (List.mem_cons_self ..)
    have hne : ¬ ∀ a, (j a).val = ((idxAt idxs h (Shape.ofLane k)) a).val := by
      intro hall
      exact hk (funext fun a => Fin.ext (hall a).symm)
    have := ih (fun j => if (∀ a, (j a).val = ((idxAt idxs h (Shape.ofLane k)) a).val)
      then v (Shape.ofLane k) else g j) (fun k' hk' => hj k' (List.mem_cons_of_mem _ hk'))
    simp only [scat, List.foldl_cons] at this ⊢
    rw [this, if_neg hne]

/-- When the listed lanes are distinct and name distinct elements, the element a listed lane names holds
    that lane's value. -/
theorem scat_hit (idxs : Fin s.rank → IVec ⟨1, d⟩ 32) (v : Vec F ⟨1, d⟩ e) (h : ∀ a x, (idxs a x).toNat < s.size a)
    (hinj : ∀ k k' : Fin (d 0), idxAt idxs h (Shape.ofLane k) = idxAt idxs h (Shape.ofLane k') → k = k')
    (l : List (Fin (d 0))) (hl : l.Nodup) (g : Vec F s e) (k : Fin (d 0)) (hk : k ∈ l) :
    scat idxs v h l g (idxAt idxs h (Shape.ofLane k)) = v (Shape.ofLane k) := by
  induction l generalizing g with
  | nil => exact absurd hk (List.not_mem_nil)
  | cons k0 l ih =>
    have hnd := List.nodup_cons.mp hl
    by_cases hkk : k = k0
    · subst hkk
      have hm := scat_miss idxs v h l (fun j => if (∀ a, (j a).val = ((idxAt idxs h (Shape.ofLane k)) a).val)
        then v (Shape.ofLane k) else g j) (idxAt idxs h (Shape.ofLane k))
        (fun k' hk' heq => hnd.1 (by rw [← hinj k' k heq]; exact hk'))
      simp only [scat, List.foldl_cons] at hm ⊢
      rw [hm, if_pos (fun _ => trivial)]
    · have hk' : k ∈ l := by
        rcases List.mem_cons.mp hk with h1 | h1
        · exact absurd h1 hkk
        · exact h1
      have := ih hnd.2 (fun j => if (∀ a, (j a).val = ((idxAt idxs h (Shape.ofLane k0)) a).val)
        then v (Shape.ofLane k0) else g j) hk'
      simp only [scat, List.foldl_cons] at this ⊢
      exact this

theorem storeIdx_hit (f : Vec F s e) (idxs : Fin s.rank → IVec ⟨1, d⟩ 32) (v : Vec F ⟨1, d⟩ e) (h : ∀ a x, (idxs a x).toNat < s.size a)
    (hinj : ∀ k k' : Fin (d 0), idxAt idxs h (Shape.ofLane k) = idxAt idxs h (Shape.ofLane k') → k = k') (k : Fin (d 0)) :
    storeIdx f idxs v (fun _ => 1#1) false h (idxAt idxs h (Shape.ofLane k)) = v (Shape.ofLane k) := by
  rw [storeIdx_eq_scat]
  exact scat_hit idxs v h hinj _ (List.nodup_finRange _) f k (List.mem_finRange k)

theorem storeIdx_miss (f : Vec F s e) (idxs : Fin s.rank → IVec ⟨1, d⟩ 32) (v : Vec F ⟨1, d⟩ e) (h : ∀ a x, (idxs a x).toNat < s.size a)
    (j : s.Idx) (hj : ∀ k : Fin (d 0), idxAt idxs h (Shape.ofLane k) ≠ j) :
    storeIdx f idxs v (fun _ => 1#1) false h j = f j := by
  rw [storeIdx_eq_scat]
  exact scat_miss idxs v h _ f j (fun k _ => hj k)

end Voxel
-- ==== Proof.InnerI.lean ====
/-
  One trip of the inner loop as a function of the two scratch arrays.
  A trip takes sixteen consecutive rows r0 .. r0 + 15 of the 480-row float scratch, reads the first three
  columns of each row, computes the voxel word for each of the three output columns lane by lane, and writes
  the sixteen words of each output column to the same rows of the 480-row word scratch. Lanes name distinct
  rows, and the three writes go to distinct columns, so afterwards an element in the band of rows holds the
  voxel word of its row and column, and every other element is unchanged.
-/
import proofs.«218498_g40716289966699_cont_8to1_b_543_34_alg».proof.Proof.SetupI
import proofs.«218498_g40716289966699_cont_8to1_b_543_34_alg».proof.Proof.StoreIdx

noncomputable section

namespace Cert.Proof.VoxI

open Cert.KernelIdeal Cert.KernelIdeal.Gen Idealize.ShloMosaic Idealize.ShloMosaic.ValueIdx

variable {F : FTy → Type} [FloatOps F]

abbrev v6 : IVec S16 32 := broadcast S16 0#32
abbrev v8 : IVec S16 32 := k0_pay1 v6
abbrev v10 : IVec S16 32 := k0_pay2 v6

/-- the voxel word of row (y 0) of a 480-row chunk held in A, column (y 1) -/
def cellA (A : Vec F S480x4 .f32) (y : S480x3.Idx) : BitVec 32 :=
  Voxel.cell (F := F) (A (ix2 (⟨(y 0).val, idx2_lt0 y⟩ : Fin 480) (0 : Fin 4))) (A (ix2 (⟨(y 0).val, idx2_lt0 y⟩ : Fin 480) (1 : Fin 4))) (A (ix2 (⟨(y 0).val, idx2_lt0 y⟩ : Fin 480) (2 : Fin 4))) ⟨(y 1).val, idx2_lt1 y⟩

/-! ## Each stored vector, lane by lane -/

theorem pay12_lane (a0 a1 a2 : Vec F S16 .f32) (x : S16.Idx) :
    k0_pay12 a0 a1 a2 x = Voxel.cell (F := F) (a0 x) (a1 x) (a2 x) 0 := rfl
theorem pay13_lane (a0 a1 a2 : Vec F S16 .f32) (x : S16.Idx) :
    k0_pay13 a0 a1 a2 x = Voxel.cell (F := F) (a0 x) (a1 x) (a2 x) 1 := rfl
theorem pay14_lane (a0 a1 a2 : Vec F S16 .f32) (x : S16.Idx) :
    k0_pay14 a0 a1 a2 x = Voxel.cell (F := F) (a0 x) (a1 x) (a2 x) 2 := rfl
theorem pay23_lane (a0 a1 a2 : Vec F S16 .f32) (x : S16.Idx) :
    k0_pay23 a0 a1 a2 x = Voxel.cell (F := F) (a0 x) (a1 x) (a2 x) 0 := rfl
theorem pay24_lane (a0 a1 a2 : Vec F S16 .f32) (x : S16.Idx) :
    k0_pay24 a0 a1 a2 x = Voxel.cell (F := F) (a0 x) (a1 x) (a2 x) 1 := rfl
theorem pay25_lane (a0 a1 a2 : Vec F S16 .f32) (x : S16.Idx) :
    k0_pay25 a0 a1 a2 x = Voxel.cell (F := F) (a0 x) (a1 x) (a2 x) 2 := rfl

/-! ## The three column vectors are the words 0, 1, 2 in every lane -/

theorem v6_toNat (x : S16.Idx) : (v6 x).toNat = 0 := rfl
theorem v8_toNat (x : S16.Idx) : (v8 x).toNat = 1 := rfl
theorem v10_toNat (x : S16.Idx) : (v10 x).toNat = 2 := rfl

/-- A lane's number is below sixteen. -/
theorem lane_lt (x : S16.Idx) : (x 0).val < 16 := (x 0).isLt

/-! ## The element a lane names -/

/-- Reading the float scratch through a row vector and a column vector: lane `x` reads row `p`, column `q`
    when those are the numbers its two index words hold. -/
theorem load_at (A : Vec F S480x4 .f32) (rows c : IVec S16 32)
    (h : ∀ a x, ((![rows, c] : Fin 2 → IVec S16 32) a x).toNat < S480x4.size a)
    (x : S16.Idx) (p : Fin 480) (q : Fin 4) (hp : (rows x).toNat = p.val) (hq : (c x).toNat = q.val) :
    loadIdx A ![rows, c] h x = A (ix2 p q) := by
  show A (idxAt (s := S480x4) ![rows, c] h x) = A (ix2 p q)
  congr 1
  funext a
  match a with
  | ⟨0, _⟩ => exact Fin.ext hp
  | ⟨1, _⟩ => exact Fin.ext hq

/-- The voxel word computed from lane `x`'s three loaded floats is the voxel word of the row lane `x` names. -/
theorem lanes_cell (A : Vec F S480x4 .f32) (rows : IVec S16 32) (r0 : ℕ)
    (hr : ∀ x : S16.Idx, (rows x).toNat = r0 + (x 0).val)
    (h0 : ∀ a x, ((![rows, v6] : Fin 2 → IVec S16 32) a x).toNat < S480x4.size a)
    (h1 : ∀ a x, ((![rows, v8] : Fin 2 → IVec S16 32) a x).toNat < S480x4.size a)
    (h2 : ∀ a x, ((![rows, v10] : Fin 2 → IVec S16 32) a x).toNat < S480x4.size a)
    (x : S16.Idx) (y : S480x3.Idx) (hy : (y 0).val = r0 + (x 0).val) (col : Fin 3) (hcol : (y 1).val = col.val) :
    Voxel.cell (F := F) (loadIdx A ![rows, v6] h0 x) (loadIdx A ![rows, v8] h1 x) (loadIdx A ![rows, v10] h2 x) col
      = cellA A y := by
  have hp : (rows x).toNat = (⟨(y 0).val, idx2_lt0 y⟩ : Fin 480).val := by rw [hr x]; exact hy.symm
  rw [load_at A rows v6 h0 x ⟨(y 0).val, idx2_lt0 y⟩ 0 hp rfl, load_at A rows v8 h1 x ⟨(y 0).val, idx2_lt0 y⟩ 1 hp rfl,
    load_at A rows v10 h2 x ⟨(y 0).val, idx2_lt0 y⟩ 2 hp rfl]
  unfold cellA
  congr 1
  exact Fin.ext hcol.symm

/-- One scatter of sixteen words to rows r0 .. r0 + 15 of column `cn` of the word scratch: an element of that
    column in the band holds the word its lane carried, every other element is unchanged. The lane's word is
    given as a function `w` of the element it lands on. -/
theorem store_col (B : Vec F S480x3 .i32) (rows c : IVec S16 32) (v : IVec S16 32)
    (g : ∀ a x, ((![rows, c] : Fin 2 → IVec S16 32) a x).toNat < S480x3.size a) (r0 cn : ℕ)
    (hr : ∀ x : S16.Idx, (rows x).toNat = r0 + (x 0).val) (hc : ∀ x : S16.Idx, (c x).toNat = cn)
    (w : S480x3.Idx → BitVec 32)
    (hv : ∀ (x : S16.Idx) (y : S480x3.Idx), (y 0).val = r0 + (x 0).val → (y 1).val = cn → v x = w y)
    (y : S480x3.Idx) :
    storeIdx B ![rows, c] v (fun _ => 1#1) false g y
      = if (r0 ≤ (y 0).val ∧ (y 0).val < r0 + 16) ∧ (y 1).val = cn then w y else B y := by
  have c0 : ∀ k : Fin ((![16] : Fin 1 → ℕ) 0),
      ((idxAt (s := S480x3) ![rows, c] g (Shape.ofLane k)) 0).val = r0 + k.val := fun k => hr _
  have c1 : ∀ k : Fin ((![16] : Fin 1 → ℕ) 0),
      ((idxAt (s := S480x3) ![rows, c] g (Shape.ofLane k)) 1).val = cn := fun k => hc _
  have hinj : ∀ k k' : Fin ((![16] : Fin 1 → ℕ) 0),
      idxAt (s := S480x3) ![rows, c] g (Shape.ofLane k) = idxAt (s := S480x3) ![rows, c] g (Shape.ofLane k') → k = k' := by
    intro k k' h
    have e := congrArg (fun j : S480x3.Idx => (j 0).val) h
    have e' : ((idxAt (s := S480x3) ![rows, c] g (Shape.ofLane k)) 0).val
        = ((idxAt (s := S480x3) ![rows, c] g (Shape.ofLane k')) 0).val := e
    rw [c0, c0] at e'
    exact Fin.ext (by omega)
  by_cases hy : (r0 ≤ (y 0).val ∧ (y 0).val < r0 + 16) ∧ (y 1).val = cn
  · rw [if_pos hy]
    have hk : (y 0).val - r0 < 16 := by omega
    have hyk : idxAt (s := S480x3) ![rows, c] g (Shape.ofLane (d := ![16]) ⟨(y 0).val - r0, hk⟩) = y := by
      funext a
      match a with
      | ⟨0, _⟩ => exact Fin.ext ((c0 ⟨(y 0).val - r0, hk⟩).trans (by show r0 + ((y 0).val - r0) = (y 0).val; omega))
      | ⟨1, _⟩ => exact Fin.ext ((c1 ⟨(y 0).val - r0, hk⟩).trans hy.2.symm)
    calc storeIdx B ![rows, c] v (fun _ => 1#1) false g y
        = storeIdx B ![rows, c] v (fun _ => 1#1) false g
            (idxAt (s := S480x3) ![rows, c] g (Shape.ofLane (d := ![16]) ⟨(y 0).val - r0, hk⟩)) := by rw [hyk]
      _ = v (Shape.ofLane (d := ![16]) ⟨(y 0).val - r0, hk⟩) :=
          Voxel.storeIdx_hit B ![rows, c] v g hinj ⟨(y 0).val - r0, hk⟩
      _ = w y := hv _ y (by show (y 0).val = r0 + ((y 0).val - r0); omega) hy.2
  · rw [if_neg hy]
    apply Voxel.storeIdx_miss
    intro k heq
    apply hy
    have h0 : (y 0).val = r0 + k.val := by rw [← heq]; exact c0 k
    have h1 : (y 1).val = cn := by rw [← heq]; exact c1 k
    have hk : k.val < 16 := k.isLt
    exact ⟨⟨by omega, by omega⟩, h1⟩

/-! ## One trip -/

theorem trip_value (A : Vec F S480x4 .f32) (B : Vec F S480x3 .i32) (rows : IVec S16 32) (r0 : ℕ) (hr : ∀ x : S16.Idx, (rows x).toNat = r0 + (x 0).val) (hr0 : r0 + 16 ≤ 480)
    (h0 : ∀ a x, ((![rows, v6] : Fin 2 → IVec S16 32) a x).toNat < S480x4.size a) (h1 : ∀ a x, ((![rows, v8] : Fin 2 → IVec S16 32) a x).toNat < S480x4.size a) (h2 : ∀ a x, ((![rows, v10] : Fin 2 → IVec S16 32) a x).toNat < S480x4.size a)
    (g0 : ∀ a x, ((![rows, v6] : Fin 2 → IVec S16 32) a x).toNat < S480x3.size a) (g1 : ∀ a x, ((![rows, v8] : Fin 2 → IVec S16 32) a x).toNat < S480x3.size a) (g2 : ∀ a x, ((![rows, v10] : Fin 2 → IVec S16 32) a x).toNat < S480x3.size a) :
    storeIdx (storeIdx (storeIdx B ![rows, v6] (k0_pay12 (loadIdx A ![rows, v6] h0) (loadIdx A ![rows, v8] h1) (loadIdx A ![rows, v10] h2)) (fun _ => 1#1) false g0)
        ![rows, v8] (k0_pay13 (loadIdx A ![rows, v6] h0) (loadIdx A ![rows, v8] h1) (loadIdx A ![rows, v10] h2)) (fun _ => 1#1) false g1)
        ![rows, v10] (k0_pay14 (loadIdx A ![rows, v6] h0) (loadIdx A ![rows, v8] h1) (loadIdx A ![rows, v10] h2)) (fun _ => 1#1) false g2
      = fun y => if r0 ≤ (y 0).val ∧ (y 0).val < r0 + 16 then cellA A y else B y := by
  funext y
  have e2 := store_col (storeIdx (storeIdx B ![rows, v6] (k0_pay12 (loadIdx A ![rows, v6] h0) (loadIdx A ![rows, v8] h1) (loadIdx A ![rows, v10] h2)) (fun _ => 1#1) false g0)
        ![rows, v8] (k0_pay13 (loadIdx A ![rows, v6] h0) (loadIdx A ![rows, v8] h1) (loadIdx A ![rows, v10] h2)) (fun _ => 1#1) false g1)
      rows v10 (k0_pay14 (loadIdx A ![rows, v6] h0) (loadIdx A ![rows, v8] h1) (loadIdx A ![rows, v10] h2)) g2 r0 2 hr v10_toNat (cellA A)
      (fun x y' hy0 hy1 => (pay14_lane _ _ _ x).trans (lanes_cell A rows r0 hr h0 h1 h2 x y' hy0 2 hy1)) y
  have e1 := store_col (storeIdx B ![rows, v6] (k0_pay12 (loadIdx A ![rows, v6] h0) (loadIdx A ![rows, v8] h1) (loadIdx A ![rows, v10] h2)) (fun _ => 1#1) false g0)
      rows v8 (k0_pay13 (loadIdx A ![rows, v6] h0) (loadIdx A ![rows, v8] h1) (loadIdx A ![rows, v10] h2)) g1 r0 1 hr v8_toNat (cellA A)
      (fun x y' hy0 hy1 => (pay13_lane _ _ _ x).trans (lanes_cell A rows r0 hr h0 h1 h2 x y' hy0 1 hy1)) y
  have e0 := store_col B rows v6 (k0_pay12 (loadIdx A ![rows, v6] h0) (loadIdx A ![rows, v8] h1) (loadIdx A ![rows, v10] h2)) g0 r0 0 hr v6_toNat (cellA A)
      (fun x y' hy0 hy1 => (pay12_lane _ _ _ x).trans (lanes_cell A rows r0 hr h0 h1 h2 x y' hy0 0 hy1)) y
  rw [e2, e1, e0]
  have hq := idx2_lt1 y
  split_ifs <;> first | rfl | (exfalso; omega)

theorem trip_value_tail (A : Vec F S480x4 .f32) (B : Vec F S480x3 .i32) (rows : IVec S16 32) (r0 : ℕ) (hr : ∀ x : S16.Idx, (rows x).toNat = r0 + (x 0).val) (hr0 : r0 + 16 ≤ 480)
    (h0 : ∀ a x, ((![rows, v6] : Fin 2 → IVec S16 32) a x).toNat < S480x4.size a) (h1 : ∀ a x, ((![rows, v8] : Fin 2 → IVec S16 32) a x).toNat < S480x4.size a) (h2 : ∀ a x, ((![rows, v10] : Fin 2 → IVec S16 32) a x).toNat < S480x4.size a)
    (g0 : ∀ a x, ((![rows, v6] : Fin 2 → IVec S16 32) a x).toNat < S480x3.size a) (g1 : ∀ a x, ((![rows, v8] : Fin 2 → IVec S16 32) a x).toNat < S480x3.size a) (g2 : ∀ a x, ((![rows, v10] : Fin 2 → IVec S16 32) a x).toNat < S480x3.size a) :
    storeIdx (storeIdx (storeIdx B ![rows, v6] (k0_pay23 (loadIdx A ![rows, v6] h0) (loadIdx A ![rows, v8] h1) (loadIdx A ![rows, v10] h2)) (fun _ => 1#1) false g0)
        ![rows, v8] (k0_pay24 (loadIdx A ![rows, v6] h0) (loadIdx A ![rows, v8] h1) (loadIdx A ![rows, v10] h2)) (fun _ => 1#1) false g1)
        ![rows, v10] (k0_pay25 (loadIdx A ![rows, v6] h0) (loadIdx A ![rows, v8] h1) (loadIdx A ![rows, v10] h2)) (fun _ => 1#1) false g2
      = fun y => if r0 ≤ (y 0).val ∧ (y 0).val < r0 + 16 then cellA A y else B y :=
  trip_value A B rows r0 hr hr0 h0 h1 h2 g0 g1 g2

/-! ## The row vector of a trip -/

theorem pay4_toNat (t : Fin k0_t2_loop.trips) (x : S16.Idx) : (k0_pay4 t x).toNat = 16 * t.val + (x 0).val := by
  have ht : t.val < 30 := lt_of_lt_of_le t.isLt k0_t2_abs.2.1
  have hx := lane_lt x
  show (IntOp.addi (BitVec.ofNat 32 (0 * 16 + (x 0).val)) (Scalar.muli (Scf.iv 0#32 1#32 t.val) 16#32)).toNat = _
  simp only [IntOp.addi, Scalar.muli, IntOp.muli, Scf.iv, BitVec.toNat_add, BitVec.toNat_mul, BitVec.toNat_ofNat]
  norm_num
  omega

theorem pay15_toNat (t : Fin k0_t3_loop.trips) (x : S16.Idx) : (k0_pay15 t x).toNat = 16 * t.val + (x 0).val := by
  have ht : t.val < 25 := lt_of_lt_of_le t.isLt k0_t3_abs.2.1
  have hx := lane_lt x
  show (IntOp.addi (BitVec.ofNat 32 (0 * 16 + (x 0).val)) (Scalar.muli (Scf.iv 0#32 1#32 t.val) 16#32)).toNat = _
  simp only [IntOp.addi, Scalar.muli, IntOp.muli, Scf.iv, BitVec.toNat_add, BitVec.toNat_mul, BitVec.toNat_ofNat]
  norm_num
  omega

/-! ## The side conditions of a trip's indices -/

/-- A row below 480 and a column word 0, 1 or 2 are inside both scratch arrays. -/
theorem idx_inb (rows c : IVec S16 32) (r0 cn : ℕ) (hr : ∀ x : S16.Idx, (rows x).toNat = r0 + (x 0).val) (hr0 : r0 + 16 ≤ 480)
    (hc : ∀ x : S16.Idx, (c x).toNat = cn) (hcn : cn < 3) :
    (∀ a x, ((![rows, c] : Fin 2 → IVec S16 32) a x).toNat < S480x4.size a) ∧
    (∀ a x, ((![rows, c] : Fin 2 → IVec S16 32) a x).toNat < S480x3.size a) := by
  refine ⟨fun a x => ?_, fun a x => ?_⟩
  · have hx := lane_lt x
    match a with
    | ⟨0, _⟩ => show (rows x).toNat < 480; rw [hr x]; omega
    | ⟨1, _⟩ => show (c x).toNat < 4; rw [hc x]; omega
  · have hx := lane_lt x
    match a with
    | ⟨0, _⟩ => show (rows x).toNat < 480; rw [hr x]; omega
    | ⟨1, _⟩ => show (c x).toNat < 3; rw [hc x]; omega

theorem chk1_of_rows (L : grid0.Coords) (rows : IVec S16 32) (r0 : ℕ) (hr : ∀ x : S16.Idx, (rows x).toNat = r0 + (x 0).val) (hr0 : r0 + 16 ≤ 480) : k0_chk1 L v6 v8 v10 rows :=
  ⟨fun _ => (idx_inb rows v6 r0 0 hr hr0 v6_toNat (by omega)).1, fun _ => (idx_inb rows v8 r0 1 hr hr0 v8_toNat (by omega)).1,
   fun _ => (idx_inb rows v10 r0 2 hr hr0 v10_toNat (by omega)).1, fun _ => (idx_inb rows v6 r0 0 hr hr0 v6_toNat (by omega)).2,
   fun _ => (idx_inb rows v8 r0 1 hr hr0 v8_toNat (by omega)).2, fun _ => (idx_inb rows v10 r0 2 hr hr0 v10_toNat (by omega)).2⟩

theorem chk2_of_rows (L : grid0.Coords) (rows : IVec S16 32) (r0 : ℕ) (hr : ∀ x : S16.Idx, (rows x).toNat = r0 + (x 0).val) (hr0 : r0 + 16 ≤ 480) : k0_chk2 L v6 v8 v10 rows :=
  ⟨fun _ => (idx_inb rows v6 r0 0 hr hr0 v6_toNat (by omega)).1, fun _ => (idx_inb rows v8 r0 1 hr hr0 v8_toNat (by omega)).1,
   fun _ => (idx_inb rows v10 r0 2 hr hr0 v10_toNat (by omega)).1, fun _ => (idx_inb rows v6 r0 0 hr hr0 v6_toNat (by omega)).2,
   fun _ => (idx_inb rows v8 r0 1 hr hr0 v8_toNat (by omega)).2, fun _ => (idx_inb rows v10 r0 2 hr hr0 v10_toNat (by omega)).2⟩

end Cert.Proof.VoxI

end
-- ==== Proof.ValueI.lean ====
/-
  What the chunk copies carry, read one element at a time.
  A chunk's copy-in places 480 consecutive rows of the point array in the float scratch, so the scratch's
  element (p, a) is the point array's element (first row of the chunk + p, a). Its copy-out places the word
  scratch in the same 480 rows of the result, so the result's element j of the chunk is the word scratch's
  element (row of j - first row of the chunk, column of j). When the word scratch holds the voxel word of
  every row of the float scratch, the chunk of the result therefore holds the voxel function of the points.
  The tail is the same with 400 rows, the first 400 of each scratch.
-/
import proofs.«218498_g40716289966699_cont_8to1_b_543_34_alg».proof.Proof.RowsI
import proofs.«218498_g40716289966699_cont_8to1_b_543_34_alg».proof.Proof.InnerI

noncomputable section

namespace Cert.Proof.VoxI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "sA" => (Memref.whole Cert.KernelIdeal.cc0_scratch0 : Memref Cert.KernelIdeal.sig Kind.scVector Space.vmem Cert.KernelIdeal.S480x4 EltTy.f32)
local notation "sB" => (Memref.whole Cert.KernelIdeal.cc0_scratch1 : Memref Cert.KernelIdeal.sig Kind.scVector Space.vmem Cert.KernelIdeal.S480x3 EltTy.i32)

abbrev sBfull : Memref sig .scVector .vmem S480x3 .i32 := (sB).slice (Rect.unit (s := S480x3) ![0, 0] S480x3.size Gen.inb_S480x3_S480x3_0_0) (fun _ => rfl)

/-! ## Row arithmetic -/

theorem chunk_row_lt (L : grid0.Coords) (h : k0_cond1 L = 1#1) (k : Fin k0_t1_loop.trips) (p : Fin 480) :
    20000 * (L 1).val + 10000 * (L 0).val + 480 * k.val + p.val < 300000 := by
  have hw := (cond_iff L).mp h
  unfold wid at hw
  have hk := trips_lt k
  have hp := p.isLt
  omega

/-- A rectangle at the origin with unit strides places each of its indices at the index with the same coordinates. -/
theorem unit0_emb {n0 n1 m0 m1 : ℕ} (inb : ∀ a, (![0, 0] : Fin 2 → ℕ) a + (![m0, m1] : Fin 2 → ℕ) a ≤ (⟨2, ![n0, n1]⟩ : Shape).size a)
    (y : (⟨2, ![m0, m1]⟩ : Shape).Idx) (c : Fin 2) :
    (((Rect.unit (s := ⟨2, ![n0, n1]⟩) ![0, 0] ![m0, m1] inb).emb y) c).val = (y c).val := by
  match c with
  | ⟨0, _⟩ => show 0 + 1 * (y 0).val = (y 0).val; omega
  | ⟨1, _⟩ => show 0 + 1 * (y 1).val = (y 1).val; omega

/-! ## The float scratch after a chunk's copy-in -/

theorem scratch_read (d : Dev nD) (L : grid0.Coords) (h : k0_cond1 L = 1#1) (k : Fin k0_t1_loop.trips)
    (X : Buf (Elt F) (xLoc d)) (A0 : Vec F S480x4 .f32) (p : Fin 480) (a : Fin 4) :
    ((sA).view.writes (Elt F) A0 [⟨Rect.unit ![0, 0] S480x4.size Gen.inb_S480x4_S480x4_0_0, ReadAs.same.apply (View.read (Elt F) (xChunk L h k).view X)⟩]) (ix2 p a)
      = X (ix2 (⟨20000 * (L 1).val + 10000 * (L 0).val + 480 * k.val + p.val, chunk_row_lt L h k p⟩ : Fin 300000) a) := by
  have he : (Rect.unit (s := S480x4) ![0, 0] S480x4.size Gen.inb_S480x4_S480x4_0_0).emb (ix2 p a) = ix2 p a := by
    funext c
    exact Fin.ext (unit0_emb Gen.inb_S480x4_S480x4_0_0 (ix2 p a) c)
  have hw := View.read_writes_cons_emb (sA).view A0 (Rect.unit (s := S480x4) ![0, 0] S480x4.size Gen.inb_S480x4_S480x4_0_0)
    (ReadAs.same.apply (View.read (Elt F) (xChunk L h k).view X)) [] (ix2 p a)
  rw [he] at hw
  refine Eq.trans hw ?_
  show X ((xChunk L h k).view.emb (ix2 p a)) = _
  congr 1
  funext c
  have hx := xChunk_emb L h k (ix2 p a)
  match c with
  | ⟨0, _⟩ => exact Fin.ext hx.1
  | ⟨1, _⟩ => exact Fin.ext hx.2

/-! ## A chunk of the result after the copy-out -/

theorem out_row_lt (L : grid0.Coords) (h : k0_cond1 L = 1#1) (k : Fin k0_t1_loop.trips) (j : S300000x3.Idx)
    (hj : j ∈ (oChunk L h k).view.set) :
    (j 0).val - (20000 * (L 1).val + 10000 * (L 0).val + 480 * k.val) < 480 := by
  rw [mem_oChunk] at hj
  omega

/-- The copy-out read at the element of the result that an index of the chunk names: the word scratch read
    at that index through its whole-extent slice. -/
theorem out_write_emb (d : Dev nD) (L : grid0.Coords) (h : k0_cond1 L = 1#1) (k : Fin k0_t1_loop.trips)
    (f : Buf (Elt F) (oLoc d)) (B : Vec F S480x3 .i32) (y : S480x3.Idx) :
    ((oChunk L h k).view.writes (Elt F) f [⟨Rect.whole S480x3, ReadAs.same.apply (View.read (Elt F) sBfull.view B)⟩]) ((oChunk L h k).view.emb y)
      = B (sBfull.view.emb y) := by
  have hw := View.read_writes_cons_emb (oChunk L h k).view f (Rect.whole S480x3)
    (ReadAs.same.apply (View.read (Elt F) sBfull.view B)) [] y
  rw [Rect.emb_whole_apply] at hw
  exact hw

/-- An element of the chunk's rows is named by the index with its row counted from the chunk's first row. -/
theorem oChunk_emb_of_bounds (L : grid0.Coords) (h : k0_cond1 L = 1#1) (k : Fin k0_t1_loop.trips) (j : S300000x3.Idx)
    (hlo : 20000 * (L 1).val + 10000 * (L 0).val + 480 * k.val ≤ (j 0).val)
    (hp : (j 0).val - (20000 * (L 1).val + 10000 * (L 0).val + 480 * k.val) < 480) :
    (oChunk L h k).view.emb
      (ix2 (⟨(j 0).val - (20000 * (L 1).val + 10000 * (L 0).val + 480 * k.val), hp⟩ : Fin 480)
        (⟨(j 1).val, idx2_lt1 j⟩ : Fin 3)) = j := by
  funext c
  have he := oChunk_emb L h k
    (ix2 (⟨(j 0).val - (20000 * (L 1).val + 10000 * (L 0).val + 480 * k.val), hp⟩ : Fin 480)
      (⟨(j 1).val, idx2_lt1 j⟩ : Fin 3))
  match c with
  | ⟨0, _⟩ =>
    exact Fin.ext (he.1.trans (by
      show 20000 * (L 1).val + 10000 * (L 0).val + 480 * k.val
        + ((j 0).val - (20000 * (L 1).val + 10000 * (L 0).val + 480 * k.val)) = (j 0).val
      omega))
  | ⟨1, _⟩ => exact Fin.ext he.2

/-- The whole-extent slice of the word scratch names each element by its own index. -/
theorem sBfull_emb (y : S480x3.Idx) : sBfull.view.emb y = y := by
  funext c
  exact Fin.ext (unit0_emb Gen.inb_S480x3_S480x3_0_0 _ c)

/-- The copy-out read at an element of the chunk's rows, the rows given by their bounds. -/
theorem out_read_of_bounds (d : Dev nD) (L : grid0.Coords) (h : k0_cond1 L = 1#1) (k : Fin k0_t1_loop.trips)
    (f : Buf (Elt F) (oLoc d)) (B : Vec F S480x3 .i32) (j : S300000x3.Idx)
    (hlo : 20000 * (L 1).val + 10000 * (L 0).val + 480 * k.val ≤ (j 0).val)
    (hp : (j 0).val - (20000 * (L 1).val + 10000 * (L 0).val + 480 * k.val) < 480) :
    ((oChunk L h k).view.writes (Elt F) f [⟨Rect.whole S480x3, ReadAs.same.apply (View.read (Elt F) sBfull.view B)⟩]) j
      = B (ix2 (⟨(j 0).val - (20000 * (L 1).val + 10000 * (L 0).val + 480 * k.val), hp⟩ : Fin 480)
          (⟨(j 1).val, idx2_lt1 j⟩ : Fin 3)) :=
  (congrArg ((oChunk L h k).view.writes (Elt F) f [⟨Rect.whole S480x3, ReadAs.same.apply (View.read (Elt F) sBfull.view B)⟩])
      (oChunk_emb_of_bounds L h k j hlo hp)).symm.trans
    ((out_write_emb d L h k f B _).trans (congrArg B (sBfull_emb _)))

theorem out_read (d : Dev nD) (L : grid0.Coords) (h : k0_cond1 L = 1#1) (k : Fin k0_t1_loop.trips)
    (f : Buf (Elt F) (oLoc d)) (B : Vec F S480x3 .i32) (j : S300000x3.Idx) (hj : j ∈ (oChunk L h k).view.set) :
    ((oChunk L h k).view.writes (Elt F) f [⟨Rect.whole S480x3, ReadAs.same.apply (View.read (Elt F) sBfull.view B)⟩]) j
      = B (ix2 (⟨(j 0).val - (20000 * (L 1).val + 10000 * (L 0).val + 480 * k.val), out_row_lt L h k j hj⟩ : Fin 480)
          (⟨(j 1).val, idx2_lt1 j⟩ : Fin 3)) :=
  out_read_of_bounds d L h k f B j ((mem_oChunk L h k j).mp hj).1 (out_row_lt L h k j hj)

/-! ## A chunk of the result is the voxel function of the points -/

/-- The voxel word of a row of a float scratch whose first three columns at that row are a row of the points. -/
theorem cellA_of_rows (A : Vec F S480x4 .f32) (X : FVec F Voxel.SIn .f32) (y : S480x3.Idx) (p : Fin 480) (r : Fin 300000) (c : Fin 3)
    (hp : (y 0).val = p.val)
    (h0 : A (ix2 p (0 : Fin 4)) = X (ix2 r 0)) (h1 : A (ix2 p (1 : Fin 4)) = X (ix2 r 1)) (h2 : A (ix2 p (2 : Fin 4)) = X (ix2 r 2))
    (hc : (y 1).val = c.val) :
    cellA A y = Voxel.cell (F := F) (X (ix2 r 0)) (X (ix2 r 1)) (X (ix2 r 2)) c := by
  have e0 : (⟨(y 0).val, idx2_lt0 y⟩ : Fin 480) = p := Fin.ext hp
  have e1 : (⟨(y 1).val, idx2_lt1 y⟩ : Fin 3) = c := Fin.ext hc
  unfold cellA
  rw [e0, e1, h0, h1, h2]

/-- The voxel word of a row of the float scratch after the copy-in is the voxel function of the points at the
    row of the point array it was copied from. -/
theorem cellA_chunk (d : Dev nD) (L : grid0.Coords) (h : k0_cond1 L = 1#1) (k : Fin k0_t1_loop.trips)
    (X : Buf (Elt F) (xLoc d)) (A0 : Vec F S480x4 .f32) (j : S300000x3.Idx)
    (hlo : 20000 * (L 1).val + 10000 * (L 0).val + 480 * k.val ≤ (j 0).val)
    (hp : (j 0).val - (20000 * (L 1).val + 10000 * (L 0).val + 480 * k.val) < 480) :
    cellA ((sA).view.writes (Elt F) A0 [⟨Rect.unit ![0, 0] S480x4.size Gen.inb_S480x4_S480x4_0_0, ReadAs.same.apply (View.read (Elt F) (xChunk L h k).view X)⟩])
        (ix2 (⟨(j 0).val - (20000 * (L 1).val + 10000 * (L 0).val + 480 * k.val), hp⟩ : Fin 480) (⟨(j 1).val, idx2_lt1 j⟩ : Fin 3))
      = Voxel.grid (F := F) X j := by
  have e : (⟨20000 * (L 1).val + 10000 * (L 0).val + 480 * k.val
        + ((j 0).val - (20000 * (L 1).val + 10000 * (L 0).val + 480 * k.val)),
        chunk_row_lt L h k ⟨(j 0).val - (20000 * (L 1).val + 10000 * (L 0).val + 480 * k.val), hp⟩⟩ : Fin 300000)
      = Voxel.rowOf j := Fin.ext (by show _ + (_ - _) = (j 0).val; omega)
  exact cellA_of_rows _ X _ ⟨(j 0).val - (20000 * (L 1).val + 10000 * (L 0).val + 480 * k.val), hp⟩ (Voxel.rowOf j) (Voxel.colOf j) rfl
    ((scratch_read d L h k X A0 ⟨(j 0).val - (20000 * (L 1).val + 10000 * (L 0).val + 480 * k.val), hp⟩ 0).trans (congrArg (fun r => X (ix2 r (0 : Fin 4))) e))
    ((scratch_read d L h k X A0 ⟨(j 0).val - (20000 * (L 1).val + 10000 * (L 0).val + 480 * k.val), hp⟩ 1).trans (congrArg (fun r => X (ix2 r (1 : Fin 4))) e))
    ((scratch_read d L h k X A0 ⟨(j 0).val - (20000 * (L 1).val + 10000 * (L 0).val + 480 * k.val), hp⟩ 2).trans (congrArg (fun r => X (ix2 r (2 : Fin 4))) e))
    rfl

theorem chunk_value (d : Dev nD) (L : grid0.Coords) (h : k0_cond1 L = 1#1) (k : Fin k0_t1_loop.trips)
    (X : Buf (Elt F) (xLoc d)) (f : Buf (Elt F) (oLoc d)) (A0 : Vec F S480x4 .f32) (A : Vec F S480x4 .f32) (B : Vec F S480x3 .i32)
    (hA : A = (sA).view.writes (Elt F) A0 [⟨Rect.unit ![0, 0] S480x4.size Gen.inb_S480x4_S480x4_0_0, ReadAs.same.apply (View.read (Elt F) (xChunk L h k).view X)⟩])
    (hB : ∀ y, B y = cellA A y) :
    ∀ j ∈ (oChunk L h k).view.set, ((oChunk L h k).view.writes (Elt F) f [⟨Rect.whole S480x3, ReadAs.same.apply (View.read (Elt F) sBfull.view B)⟩]) j = Voxel.grid (F := F) X j :=
  fun j hj =>
    (out_read_of_bounds d L h k f B j ((mem_oChunk L h k j).mp hj).1 (out_row_lt L h k j hj)).trans
      ((hB _).trans (hA ▸ cellA_chunk d L h k X A0 j ((mem_oChunk L h k j).mp hj).1 (out_row_lt L h k j hj)))

/-! ## The tail: 400 rows, the first 400 of each scratch -/

abbrev sBtail : Memref sig .scVector .vmem S400x3 .i32 := (sB).slice (Rect.unit (s := S480x3) ![0, 0] S400x3.size Gen.inb_S480x3_S400x3_0_0) (fun _ => rfl)

theorem tail_row_lt (L : grid0.Coords) (h : k0_cond1 L = 1#1) (p : ℕ) (hp : p < 400) :
    20000 * (L 1).val + 10000 * (L 0).val + 9600 + p < 300000 := by
  have hw := (cond_iff L).mp h
  unfold wid at hw
  omega

theorem scratch_read_tail (d : Dev nD) (L : grid0.Coords) (h : k0_cond1 L = 1#1)
    (X : Buf (Elt F) (xLoc d)) (A0 : Vec F S480x4 .f32) (p : Fin 480) (hp : p.val < 400) (a : Fin 4) :
    ((sA).view.writes (Elt F) A0 [⟨Rect.unit ![0, 0] S400x4.size Gen.inb_S480x4_S400x4_0_0, ReadAs.same.apply (View.read (Elt F) (xTail L h).view X)⟩]) (ix2 p a)
      = X (ix2 (⟨20000 * (L 1).val + 10000 * (L 0).val + 9600 + p.val, tail_row_lt L h p.val hp⟩ : Fin 300000) a) := by
  have he : (Rect.unit (s := S480x4) ![0, 0] S400x4.size Gen.inb_S480x4_S400x4_0_0).emb (ix2 (⟨p.val, hp⟩ : Fin 400) a) = ix2 p a := by
    funext c
    refine Fin.ext ((unit0_emb Gen.inb_S480x4_S400x4_0_0 (ix2 (⟨p.val, hp⟩ : Fin 400) a) c).trans ?_)
    match c with
    | ⟨0, _⟩ => rfl
    | ⟨1, _⟩ => rfl
  have hw := View.read_writes_cons_emb (sA).view A0 (Rect.unit (s := S480x4) ![0, 0] S400x4.size Gen.inb_S480x4_S400x4_0_0)
    (ReadAs.same.apply (View.read (Elt F) (xTail L h).view X)) [] (ix2 (⟨p.val, hp⟩ : Fin 400) a)
  rw [he] at hw
  refine Eq.trans hw ?_
  show X ((xTail L h).view.emb (ix2 (⟨p.val, hp⟩ : Fin 400) a)) = _
  congr 1
  have hx := xTail_emb L h (ix2 (⟨p.val, hp⟩ : Fin 400) a)
  exact funext (Fin.forall_fin_two.mpr ⟨Fin.ext hx.1, Fin.ext hx.2⟩)

/-- Reading contents through the tail's view of the result is reading them at the element the view names. -/
theorem oTail_read_apply (L : grid0.Coords) (h : k0_cond1 L = 1#1) (g : (oTail L h).view.ty.Contents (Elt F)) (y : S400x3.Idx) :
    (oTail L h).view.read (Elt F) g y = g ((oTail L h).view.emb y) := rfl

/-- Reading the word scratch through its first-400-rows slice is reading it at the element the slice names. -/
theorem sBtail_read_apply (B : Vec F S480x3 .i32) (y : S400x3.Idx) :
    ReadAs.same.apply (View.read (Elt F) sBtail.view B) y = B (sBtail.view.emb y) := rfl

theorem out_write_emb_tail (d : Dev nD) (L : grid0.Coords) (h : k0_cond1 L = 1#1)
    (f : Buf (Elt F) (oLoc d)) (B : Vec F S480x3 .i32) (y : S400x3.Idx) :
    ((oTail L h).view.writes (Elt F) f [⟨Rect.whole S400x3, ReadAs.same.apply (View.read (Elt F) sBtail.view B)⟩]) ((oTail L h).view.emb y)
      = B (sBtail.view.emb y) :=
  (oTail_read_apply L h _ y).symm.trans
    ((congrArg ((oTail L h).view.read (Elt F) ((oTail L h).view.writes (Elt F) f [⟨Rect.whole S400x3, ReadAs.same.apply (View.read (Elt F) sBtail.view B)⟩]))
        (Rect.emb_whole_apply S400x3 y)).symm.trans
      ((View.read_writes_cons_emb (oTail L h).view f (Rect.whole S400x3)
        (ReadAs.same.apply (View.read (Elt F) sBtail.view B)) [] y).trans (sBtail_read_apply B y)))

/-- The first-400-rows slice of the word scratch names each element by the index with the same coordinates. -/
theorem sBtail_emb (p : Fin 480) (hp : p.val < 400) (q : Fin 3) :
    sBtail.view.emb (ix2 (⟨p.val, hp⟩ : Fin 400) q) = ix2 p q := by
  funext c
  refine Fin.ext ((unit0_emb Gen.inb_S480x3_S400x3_0_0 (ix2 (⟨p.val, hp⟩ : Fin 400) q) c).trans ?_)
  match c with
  | ⟨0, _⟩ => rfl
  | ⟨1, _⟩ => rfl

/-- The element of the result in row (first row of the tail + p) and column (column of j) is named by the tail's
    index (p, column of j). -/
theorem oTail_emb_at (L : grid0.Coords) (h : k0_cond1 L = 1#1) (j : S300000x3.Idx) (p : Fin 480) (hp : p.val < 400)
    (hpj : (j 0).val = 20000 * (L 1).val + 10000 * (L 0).val + 9600 + p.val) :
    (oTail L h).view.emb (ix2 (⟨p.val, hp⟩ : Fin 400) (⟨(j 1).val, idx2_lt1 j⟩ : Fin 3)) = j := by
  have he := oTail_emb L h (ix2 (⟨p.val, hp⟩ : Fin 400) (⟨(j 1).val, idx2_lt1 j⟩ : Fin 3))
  exact funext (Fin.forall_fin_two.mpr ⟨Fin.ext (he.1.trans hpj.symm), Fin.ext he.2⟩)

/-- The tail's copy-out read at the element in row (first row of the tail + p). -/
theorem out_read_tail_at (d : Dev nD) (L : grid0.Coords) (h : k0_cond1 L = 1#1)
    (f : Buf (Elt F) (oLoc d)) (B : Vec F S480x3 .i32) (j : S300000x3.Idx) (p : Fin 480) (hp : p.val < 400)
    (hpj : (j 0).val = 20000 * (L 1).val + 10000 * (L 0).val + 9600 + p.val) :
    ((oTail L h).view.writes (Elt F) f [⟨Rect.whole S400x3, ReadAs.same.apply (View.read (Elt F) sBtail.view B)⟩]) j
      = B (ix2 p (⟨(j 1).val, idx2_lt1 j⟩ : Fin 3)) :=
  (congrArg ((oTail L h).view.writes (Elt F) f [⟨Rect.whole S400x3, ReadAs.same.apply (View.read (Elt F) sBtail.view B)⟩])
      (oTail_emb_at L h j p hp hpj)).symm.trans
    ((out_write_emb_tail d L h f B _).trans (congrArg B (sBtail_emb p hp ⟨(j 1).val, idx2_lt1 j⟩)))

theorem out_tail_row_lt (L : grid0.Coords) (h : k0_cond1 L = 1#1) (j : S300000x3.Idx) (hj : j ∈ (oTail L h).view.set) :
    (j 0).val - (20000 * (L 1).val + 10000 * (L 0).val + 9600) < 400 := by
  rw [mem_oTail] at hj
  omega

theorem out_tail_row_eq (L : grid0.Coords) (h : k0_cond1 L = 1#1) (j : S300000x3.Idx) (hj : j ∈ (oTail L h).view.set) :
    (j 0).val = 20000 * (L 1).val + 10000 * (L 0).val + 9600 + ((j 0).val - (20000 * (L 1).val + 10000 * (L 0).val + 9600)) := by
  rw [mem_oTail] at hj
  omega

theorem out_read_tail (d : Dev nD) (L : grid0.Coords) (h : k0_cond1 L = 1#1)
    (f : Buf (Elt F) (oLoc d)) (B : Vec F S480x3 .i32) (j : S300000x3.Idx) (hj : j ∈ (oTail L h).view.set) :
    ((oTail L h).view.writes (Elt F) f [⟨Rect.whole S400x3, ReadAs.same.apply (View.read (Elt F) sBtail.view B)⟩]) j
      = B (ix2 (⟨(j 0).val - (20000 * (L 1).val + 10000 * (L 0).val + 9600), Nat.lt_of_lt_of_le (out_tail_row_lt L h j hj) (by decide)⟩ : Fin 480)
          (⟨(j 1).val, idx2_lt1 j⟩ : Fin 3)) :=
  out_read_tail_at d L h f B j ⟨(j 0).val - (20000 * (L 1).val + 10000 * (L 0).val + 9600), Nat.lt_of_lt_of_le (out_tail_row_lt L h j hj) (by decide)⟩
    (out_tail_row_lt L h j hj) (out_tail_row_eq L h j hj)

/-- The tail's value at the element in row (first row of the tail + p). -/
theorem tail_value_at (d : Dev nD) (L : grid0.Coords) (h : k0_cond1 L = 1#1)
    (X : Buf (Elt F) (xLoc d)) (f : Buf (Elt F) (oLoc d)) (A0 : Vec F S480x4 .f32) (B : Vec F S480x3 .i32)
    (hB : ∀ y : S480x3.Idx, (y 0).val < 400 → B y = cellA ((sA).view.writes (Elt F) A0 [⟨Rect.unit ![0, 0] S400x4.size Gen.inb_S480x4_S400x4_0_0, ReadAs.same.apply (View.read (Elt F) (xTail L h).view X)⟩]) y)
    (j : S300000x3.Idx) (p : Fin 480) (hp : p.val < 400)
    (hpj : (j 0).val = 20000 * (L 1).val + 10000 * (L 0).val + 9600 + p.val) :
    ((oTail L h).view.writes (Elt F) f [⟨Rect.whole S400x3, ReadAs.same.apply (View.read (Elt F) sBtail.view B)⟩]) j = Voxel.grid (F := F) X j := by
  have e : (⟨20000 * (L 1).val + 10000 * (L 0).val + 9600 + p.val, tail_row_lt L h p.val hp⟩ : Fin 300000) = Voxel.rowOf j :=
    Fin.ext hpj.symm
  exact (out_read_tail_at d L h f B j p hp hpj).trans
    ((hB (ix2 p (⟨(j 1).val, idx2_lt1 j⟩ : Fin 3)) hp).trans
      (cellA_of_rows _ X (ix2 p (⟨(j 1).val, idx2_lt1 j⟩ : Fin 3)) p (Voxel.rowOf j) (Voxel.colOf j) rfl
        ((scratch_read_tail d L h X A0 p hp 0).trans (congrArg (fun r => X (ix2 r (0 : Fin 4))) e))
        ((scratch_read_tail d L h X A0 p hp 1).trans (congrArg (fun r => X (ix2 r (1 : Fin 4))) e))
        ((scratch_read_tail d L h X A0 p hp 2).trans (congrArg (fun r => X (ix2 r (2 : Fin 4))) e))
        rfl))

theorem tail_value (d : Dev nD) (L : grid0.Coords) (h : k0_cond1 L = 1#1)
    (X : Buf (Elt F) (xLoc d)) (f : Buf (Elt F) (oLoc d)) (A0 : Vec F S480x4 .f32) (A : Vec F S480x4 .f32) (B : Vec F S480x3 .i32)
    (hA : A = (sA).view.writes (Elt F) A0 [⟨Rect.unit ![0, 0] S400x4.size Gen.inb_S480x4_S400x4_0_0, ReadAs.same.apply (View.read (Elt F) (xTail L h).view X)⟩])
    (hB : ∀ y : S480x3.Idx, (y 0).val < 400 → B y = cellA A y) :
    ∀ j ∈ (oTail L h).view.set, ((oTail L h).view.writes (Elt F) f [⟨Rect.whole S400x3, ReadAs.same.apply (View.read (Elt F) sBtail.view B)⟩]) j = Voxel.grid (F := F) X j :=
  fun j hj =>
    tail_value_at d L h X f A0 B (fun y hy => hA ▸ hB y hy) j
      ⟨(j 0).val - (20000 * (L 1).val + 10000 * (L 0).val + 9600), Nat.lt_of_lt_of_le (out_tail_row_lt L h j hj) (by decide)⟩
      (out_tail_row_lt L h j hj) (out_tail_row_eq L h j hj)

end Cert.Proof.VoxI

end
-- ==== Proof.TileI.lean ====
/-
  One vector subcore's task. Worker w = 2 i + c < 30 converts rows [10000 w, 10000 (w + 1)) in twenty chunks of
  480 rows and a tail of 400: a chunk of the points is copied into the float scratch, sixteen rows at a time
  the three coordinates of each point are gathered, turned into the voxel word of each column and scattered
  into the word scratch, and the word scratch is copied to the same rows of the result. The invariant of the
  chunk loop: the worker's rows below the current chunk hold the voxel function of the points, the others
  their launch contents. The invariant of the row loop: the word scratch's rows below the current sixteen
  hold the voxel words of the float scratch's rows. The two last workers do nothing and own no row.
-/
import proofs.«218498_g40716289966699_cont_8to1_b_543_34_alg».proof.Proof.RowsI
import proofs.«218498_g40716289966699_cont_8to1_b_543_34_alg».proof.Proof.InnerI
import proofs.«218498_g40716289966699_cont_8to1_b_543_34_alg».proof.Proof.ValueI

noncomputable section

namespace Cert.Proof.VoxI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xV" => (Memref.whole Cert.KernelIdeal.main_arg0_scv : Memref Cert.KernelIdeal.sig Kind.scVector Space.hbm Cert.KernelIdeal.S300000x4 EltTy.f32)
local notation "oV" => (Memref.whole Cert.KernelIdeal.main_v0_scv : Memref Cert.KernelIdeal.sig Kind.scVector Space.hbm Cert.KernelIdeal.S300000x3 EltTy.i32)
local notation "sA" => (Memref.whole Cert.KernelIdeal.cc0_scratch0 : Memref Cert.KernelIdeal.sig Kind.scVector Space.vmem Cert.KernelIdeal.S480x4 EltTy.f32)
local notation "sB" => (Memref.whole Cert.KernelIdeal.cc0_scratch1 : Memref Cert.KernelIdeal.sig Kind.scVector Space.vmem Cert.KernelIdeal.S480x3 EltTy.i32)

variable [FloatOps F]

/-! ## Contents of the word scratch during the row loop -/

/-- Rows below `16 t` hold the voxel words of `A`'s rows, the others what the scratch held before. -/
def Bt (A : Vec F S480x4 .f32) (B0 : Vec F S480x3 .i32) (t : ℕ) : Vec F S480x3 .i32 :=
  fun y => if (y 0).val < 16 * t then cellA A y else B0 y

theorem Bt_zero (A : Vec F S480x4 .f32) (B0 : Vec F S480x3 .i32) : Bt A B0 0 = B0 := by
  funext y; unfold Bt; simp

theorem Bt_succ (A : Vec F S480x4 .f32) (B0 : Vec F S480x3 .i32) (t : ℕ) :
    (fun y : S480x3.Idx => if 16 * t ≤ (y 0).val ∧ (y 0).val < 16 * t + 16 then cellA A y else Bt A B0 t y) = Bt A B0 (t + 1) := by
  funext y; unfold Bt
  by_cases h1 : (y 0).val < 16 * t
  · have h2 : ¬ (16 * t ≤ (y 0).val ∧ (y 0).val < 16 * t + 16) := by omega
    have h3 : (y 0).val < 16 * (t + 1) := by omega
    rw [if_neg h2, if_pos h1, if_pos h3]
  · by_cases h2 : (y 0).val < 16 * t + 16
    · have h3 : (y 0).val < 16 * (t + 1) := by omega
      rw [if_pos ⟨by omega, h2⟩, if_pos h3]
    · have h3 : ¬ (y 0).val < 16 * (t + 1) := by omega
      have h4 : ¬ (16 * t ≤ (y 0).val ∧ (y 0).val < 16 * t + 16) := by omega
      rw [if_neg h4, if_neg h1, if_neg h3]

theorem Bt_cover (A : Vec F S480x4 .f32) (B0 : Vec F S480x3 .i32) (t : ℕ) (y : S480x3.Idx) (hy : (y 0).val < 16 * t) : Bt A B0 t y = cellA A y := by
  unfold Bt; rw [if_pos hy]

theorem trips1 : Scf.trips k0_t1_loop.lb k0_t1_loop.ub k0_t1_loop.st = 20 := by decide
theorem trips2 : Scf.trips k0_t2_loop.lb k0_t2_loop.ub k0_t2_loop.st = 30 := by decide
theorem trips3 : Scf.trips k0_t3_loop.lb k0_t3_loop.ub k0_t3_loop.st = 25 := by decide

section Tile

variable (d : Dev nD) (L : grid0.Coords)

abbrev cV (L : grid0.Coords) : Fin τ.nSC := (L 0).castLE hcore0
abbrev jV (L : grid0.Coords) : Fin τ.nSub := (L 1).castLE hsub0

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)
abbrev c3cell (d : Dev nD) (c : Fin τ.nSC) (i : Fin τ.nSub) : GSem nD τ sig := (V d c i, .dma cc0_scoped3.sem)
omit [FloatOps F] in
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0 ∗ semVal (c3cell d (cV L) (jV L)) 0
          ∗ bigSep (((((ownCells (V d (cV L) (jV L))).erase (c0cell d (cV L) (jV L))).erase (c1cell d (cV L) (jV L))).erase (c2cell d (cV L) (jV L))).erase (c3cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩),
    SparseCore.bigSep_erase' (Finset.mem_erase.mpr ⟨by simp [c2cell, c3cell]; decide, Finset.mem_erase.mpr ⟨by simp [c1cell, c3cell]; decide, Finset.mem_erase.mpr ⟨by simp [c0cell, c3cell]; decide,
      (mem_ownCells (g := c3cell d (cV L) (jV L))).mpr ⟨rfl, by show (SemLoc.dma cc0_scoped3.sem : SemLoc sig).isScoped .scVector = true; decide⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_name {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

omit [FloatOps F] in
theorem pts_eq {ℓ : Loc nD τ sig} {S : Finset (Idx ℓ)} {q : PosShare TreeShare} {f g : Buf (Elt F) ℓ} (h : f = g) :
    (ℓ ↦[S]{q} f : sProp 𝕄) ⊢ ℓ ↦[S]{q} g := h ▸ BI.Entails.refl _

omit [FloatOps F] in
theorem pts_A_access (f : Buf (Elt F) ((V d (cV L) (jV L)).loc cc0_scratch0)) :
    (((sA).access (.whole S480x4)).loc (V d (cV L) (jV L)) ↦{fullShare} f : sProp 𝕄) = (sA).view.loc (V d (cV L) (jV L)) ↦{fullShare} f := rfl
omit [FloatOps F] in
theorem pts_B_access (f : Buf (Elt F) ((V d (cV L) (jV L)).loc cc0_scratch1)) :
    (((sB).access (.whole S480x3)).loc (V d (cV L) (jV L)) ↦[((sB).access (.whole S480x3)).set]{fullShare} f : sProp 𝕄) = (sB).view.loc (V d (cV L) (jV L)) ↦{fullShare} f := by
  have h : ((sB).access (.whole S480x3)).set = Finset.univ := Memref.set_access_whole cc0_scratch1
  rw [h]
omit [FloatOps F] in
theorem pts_oChunk (h : k0_cond1 L = 1#1) (k : Fin k0_t1_loop.trips) (f : Buf (Elt F) (oLoc d)) :
    ((oChunk L h k).view.loc (V d (cV L) (jV L)) ↦[(oChunk L h k).view.set]{fullShare} f : sProp 𝕄) = oLoc d ↦[(oChunk L h k).view.set]{fullShare} f := rfl
omit [FloatOps F] in
theorem pts_oTail (h : k0_cond1 L = 1#1) (f : Buf (Elt F) (oLoc d)) :
    ((oTail L h).view.loc (V d (cV L) (jV L)) ↦[(oTail L h).view.set]{fullShare} f : sProp 𝕄) = oLoc d ↦[(oTail L h).view.set]{fullShare} f := rfl

/-- The first row of the worker's part. -/
abbrev lo (L : grid0.Coords) : ℕ := 20000 * (L 1).val + 10000 * (L 0).val

/-- The row loop's invariant: the float scratch at `A`, the word scratch filled below row `16 t`. -/
def invI (A : Vec F S480x4 .f32) (B0 : Vec F S480x3 .i32) (t : Nat) (_ : PUnit) : sProp 𝕄 :=
  iprop(((sA).view.loc (V d (cV L) (jV L)) ↦{fullShare} A) ∗ ((sB).view.loc (V d (cV L) (jV L)) ↦{fullShare} Bt A B0 t))

/-- The chunk loop's invariant: the worker's rows below chunk `k` converted. -/
def invO (O : CellTallies nD τ sig (HIx 1)) (W : Waits sig (HIx 1)) (k : Nat) (_ : PUnit) : sProp 𝕄 :=
  iprop(Transfers.MayWaits (V d (cV L) (jV L)) (none : HIx 1) O
    ∗ ((xV).view.loc (V d (cV L) (jV L)) ↦{tokT (L 0).val (L 1).val} m (xLoc d))
    ∗ ((oV).view.loc (V d (cV L) (jV L)) ↦[rowsOf (L 0).val (L 1).val]{fullShare} outAt m d (lo L + 480 * k))
    ∗ (∃ fa, (sA).view.loc (V d (cV L) (jV L)) ↦{fullShare} fa)
    ∗ (∃ fb, (sB).view.loc (V d (cV L) (jV L)) ↦{fullShare} fb)
    ∗ semVal (c0cell d (cV L) (jV L)) 0 ∗ semVal (c1cell d (cV L) (jV L)) 0
    ∗ ∃ W', ⌜∀ p ∈ W', p ∈ W ∨ p.2 = none⌝ ∗ owes (V d (cV L) (jV L)) O W')

/-- A subcore with no work: nothing runs, and it owns no row. -/
theorem tile_idle (hF : (K (F := F)).Facts) (O : CellTallies nD τ sig (HIx 1)) (W : Waits sig (HIx 1)) (hO : ∀ g, O g none = 0)
    (k0_h1 : ¬ k0_cond1 L = 1#1) :
    iprop(levAts (K (F := F)).L (K (F := F)).lev ∗ emp ∗ tilePts m d (L 0).val (L 1).val (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_voxel_sc L xV (Memref.isWhole_whole _) oV (Memref.isWhole_whole _) sA (Memref.isWhole_whole _) sB (Memref.isWhole_whole _)
            cc0_scoped0 cc0_scoped1 cc0_scoped2 cc0_scoped3)
          fun _ => iprop(tilePts m d (L 0).val (L 1).val (gout m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_voxel_sc_eq_skeleton]; unfold cc0_voxel_sc_skel
  unfold tilePts
  iintro ⟨-, -, ⟨Hx, Ho⟩, Hsb, Hss, HO⟩
  sl_exec
  sl_step
  isplitl [Hx Ho]
  · isplitl [Hx]; · iexact Hx
    iapply (Entails.of_eq (pointsTo_congr (f := m (oLoc d)) (g := gout m d) (fun j hj => absurd ((cond_iff L).mpr (mem_rowsOf.mp hj).1) k0_h1)))
    iexact Ho
  isplitl [Hsb]; · iexact Hsb
  isplitl [Hss]; · iexact Hss
  iexists W; isplitr
  · ipureintro; exact fun p hp => .inl hp
  · iexact HO

set_option maxHeartbeats 4000000 in
/-- A working subcore: twenty chunks and the tail. -/
theorem tile_work (hF : (K (F := F)).Facts) (O : CellTallies nD τ sig (HIx 1)) (W : Waits sig (HIx 1)) (hO : ∀ g, O g none = 0)
    (k0_h1 : k0_cond1 L = 1#1) :
    iprop(levAts (K (F := F)).L (K (F := F)).lev ∗ emp ∗ tilePts m d (L 0).val (L 1).val (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_voxel_sc L xV (Memref.isWhole_whole _) oV (Memref.isWhole_whole _) sA (Memref.isWhole_whole _) sB (Memref.isWhole_whole _)
            cc0_scoped0 cc0_scoped1 cc0_scoped2 cc0_scoped3)
          fun _ => iprop(tilePts m d (L 0).val (L 1).val (gout m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_voxel_sc_eq_skeleton]; unfold cc0_voxel_sc_skel
  simp only [k0_part1_eq_skeleton]; unfold k0_part1_skel
  simp only [bind_assoc]
  rw [(K (F := F)).scopedBufs_V hF d (cV L) (jV L), SparseCore.Cfg.scopedSems0_V (Val := Elt F) d (cV L) (jV L), ownSems0_V, ownBufs_V]
  unfold tilePts
  iintro ⟨#Hlv, -, ⟨Hx, Ho⟩, ⟨⟨%fa, Ha⟩, ⟨%fb, Hb⟩, Hbufs⟩, ⟨Hs0, Hs1, Hs2, Hs3, Hsems⟩, HO⟩
  ihave Hmw := ((K (F := F)).mayWaits_none (thr := V d (cV L) (jV L)) hO) $$ Hlv
  sl_exec
  sl_for (invO m d L O W) $$ [Hmw Hx Ho Ha Hb Hs0 Hs1 HO]
  case region =>
    intro k _
    unfold invO
    iintro ⟨Hmw, Hx, Ho, ⟨%fa, Ha⟩, ⟨%fb, Hb⟩, Hs0, Hs1, %W', %hW', HO⟩
    -- the chunk's points into the float scratch
    sl_exec
    ihave Ha2 := (pts_name _) $$ Ha
    icases Ha2 with ⟨%A, %hA, Ha⟩
    -- the row loop
    sl_for (invI d L A fb) $$ [Ha Hb]
    case region =>
      intro t _
      unfold invI
      iintro ⟨Ha, Hb⟩
      have ht : t.val < 30 := Nat.lt_of_lt_of_le t.isLt k0_t2_abs.2.1
      have hchk : k0_chk1 L (broadcast S16 0#32) (k0_pay1 (broadcast S16 0#32)) (k0_pay2 (broadcast S16 0#32)) (k0_pay4 t) :=
        chk1_of_rows L (k0_pay4 t) (16 * t.val) (pay4_toNat t) (by omega)
      sl_exec
      ihave Ha' := (Entails.of_eq (pts_A_access (F := F) d L _).symm) $$ Ha
      iapply (SparseCore.wp_vectorLoadIdx 𝒱₀ (V d (cV L) (jV L)) none Set.univ (base := sA) (S := Finset.univ) (q := fullShare) (Finset.subset_univ _)) $$ Ha'; iintro Ha'
      iapply (SparseCore.wp_vectorLoadIdx 𝒱₀ (V d (cV L) (jV L)) none Set.univ (base := sA) (S := Finset.univ) (q := fullShare) (Finset.subset_univ _)) $$ Ha'; iintro Ha'
      iapply (SparseCore.wp_vectorLoadIdx 𝒱₀ (V d (cV L) (jV L)) none Set.univ (base := sA) (S := Finset.univ) (q := fullShare) (Finset.subset_univ _)) $$ Ha'; iintro Ha'
      ihave Hb' := (Entails.of_eq (pts_B_access (F := F) d L _).symm) $$ Hb
      iapply (SparseCore.wp_vectorStoreIdx 𝒱₀ (V d (cV L) (jV L)) none Set.univ (base := sB)) $$ Hb'; iintro Hb'
      iapply (SparseCore.wp_vectorStoreIdx 𝒱₀ (V d (cV L) (jV L)) none Set.univ (base := sB)) $$ Hb'; iintro Hb'
      iapply (SparseCore.wp_vectorStoreIdx 𝒱₀ (V d (cV L) (jV L)) none Set.univ (base := sB)) $$ Hb'; iintro Hb'
      simp only [Memref.read_access_whole, Memref.write_access_whole_univ]
      sl_step
      isplitl [Ha']
      · iapply (Entails.of_eq (pts_A_access (F := F) d L _)); iexact Ha'
      · ihave Hb := (Entails.of_eq (pts_B_access (F := F) d L _)) $$ Hb'
        iapply (pts_eq ((trip_value A (Bt A fb t.val) (k0_pay4 t) (16 * t.val) (pay4_toNat t) (by omega) _ _ _ _ _ _).trans (Bt_succ A fb t.val)))
        iexact Hb
    · unfold invI
      isplitl [Ha]; · iexact Ha
      rw [Bt_zero]; iexact Hb
    iintro %_ HI
    unfold invI
    icases HI with ⟨Ha, Hb⟩
    -- the chunk's rows of the result, carved out of the worker's rows
    ihave Hsp := (pointsTo_split_subset (q := fullShare) (f := outAt m d (lo L + 480 * k.val)) (oChunk_sub L k0_h1 k)).1 $$ Ho
    icases Hsp with ⟨Hoc, Hor⟩
    ihave Hoc' := (Entails.of_eq (pts_oChunk (F := F) d L k0_h1 k _).symm) $$ Hoc
    sl_exec
    sl_step
    isplitl [Hmw]; · iexact Hmw
    isplitl [Hx]; · iexact Hx
    isplitl [Hoc' Hor]
    · ihave Hoc := (Entails.of_eq (pts_oChunk (F := F) d L k0_h1 k _)) $$ Hoc'
      ihave Hj := (pointsTo_join_subset (ℓ := oLoc d) (q := fullShare) (oChunk_sub L k0_h1 k)) $$ [Hoc Hor]
      · isplitl [Hoc] <;> iassumption
      iapply (Entails.of_eq (pointsTo_congr (outAt_step m d L k0_h1 k _
        (chunk_value d L k0_h1 k (m (xLoc d)) _ _ A _ hA (fun y => Bt_cover A fb (Scf.trips k0_t2_loop.lb k0_t2_loop.ub k0_t2_loop.st) y (by rw [trips2]; have := ValueIdx.idx2_lt0 y; omega))))))
      iexact Hj
    isplitl [Ha]; · iexists _; iexact Ha
    isplitl [Hb]; · iexists _; iexact Hb
    isplitl [Hs0]; · iexact Hs0
    isplitl [Hs1]; · iexact Hs1
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold invO
    isplitl [Hmw]; · iexact Hmw
    isplitl [Hx]; · iexact Hx
    isplitl [Ho]
    · iapply (Entails.of_eq (pointsTo_congr (f := m (oLoc d)) (g := outAt m d (lo L + 480 * 0)) (fun j hj => (outAt_start m d L j hj).symm)))
      iexact Ho
    isplitl [Ha]; · iexists _; iexact Ha
    isplitl [Hb]; · iexists _; iexact Hb
    isplitl [Hs0]; · iexact Hs0
    isplitl [Hs1]; · iexact Hs1
    iexists W; isplitr
    · ipureintro; exact fun p hp => .inl hp
    · iexact HO
  iintro %_ HI
  unfold invO
  icases HI with ⟨Hmw, Hx, Ho, ⟨%fa, Ha⟩, ⟨%fb, Hb⟩, Hs0, Hs1, %W', %hW', HO⟩
  rw [trips1, show 480 * 20 = 9600 from rfl]
  -- the tail's points into the float scratch's first 400 rows
  sl_exec
  ihave Ha2 := (pts_name _) $$ Ha
  icases Ha2 with ⟨%A, %hA, Ha⟩
  sl_for (invI d L A fb) $$ [Ha Hb]
  case region =>
    intro t _
    unfold invI
    iintro ⟨Ha, Hb⟩
    have ht : t.val < 25 := Nat.lt_of_lt_of_le t.isLt k0_t3_abs.2.1
    have hchk : k0_chk2 L (broadcast S16 0#32) (k0_pay1 (broadcast S16 0#32)) (k0_pay2 (broadcast S16 0#32)) (k0_pay15 t) :=
      chk2_of_rows L (k0_pay15 t) (16 * t.val) (pay15_toNat t) (by omega)
    sl_exec
    ihave Ha' := (Entails.of_eq (pts_A_access (F := F) d L _).symm) $$ Ha
    iapply (SparseCore.wp_vectorLoadIdx 𝒱₀ (V d (cV L) (jV L)) none Set.univ (base := sA) (S := Finset.univ) (q := fullShare) (Finset.subset_univ _)) $$ Ha'; iintro Ha'
    iapply (SparseCore.wp_vectorLoadIdx 𝒱₀ (V d (cV L) (jV L)) none Set.univ (base := sA) (S := Finset.univ) (q := fullShare) (Finset.subset_univ _)) $$ Ha'; iintro Ha'
    iapply (SparseCore.wp_vectorLoadIdx 𝒱₀ (V d (cV L) (jV L)) none Set.univ (base := sA) (S := Finset.univ) (q := fullShare) (Finset.subset_univ _)) $$ Ha'; iintro Ha'
    ihave Hb' := (Entails.of_eq (pts_B_access (F := F) d L _).symm) $$ Hb
    iapply (SparseCore.wp_vectorStoreIdx 𝒱₀ (V d (cV L) (jV L)) none Set.univ (base := sB)) $$ Hb'; iintro Hb'
    iapply (SparseCore.wp_vectorStoreIdx 𝒱₀ (V d (cV L) (jV L)) none Set.univ (base := sB)) $$ Hb'; iintro Hb'
    iapply (SparseCore.wp_vectorStoreIdx 𝒱₀ (V d (cV L) (jV L)) none Set.univ (base := sB)) $$ Hb'; iintro Hb'
    simp only [Memref.read_access_whole, Memref.write_access_whole_univ]
    sl_step
    isplitl [Ha']
    · iapply (Entails.of_eq (pts_A_access (F := F) d L _)); iexact Ha'
    · ihave Hb := (Entails.of_eq (pts_B_access (F := F) d L _)) $$ Hb'
      iapply (pts_eq ((trip_value_tail A (Bt A fb t.val) (k0_pay15 t) (16 * t.val) (pay15_toNat t) (by omega) _ _ _ _ _ _).trans (Bt_succ A fb t.val)))
      iexact Hb
  · unfold invI
    isplitl [Ha]; · iexact Ha
    rw [Bt_zero]; iexact Hb
  iintro %_ HI
  unfold invI
  icases HI with ⟨Ha, Hb⟩
  ihave Hsp := (pointsTo_split_subset (q := fullShare) (f := outAt m d (lo L + 9600)) (oTail_sub L k0_h1)).1 $$ Ho
  icases Hsp with ⟨Hoc, Hor⟩
  ihave Hoc' := (Entails.of_eq (pts_oTail (F := F) d L k0_h1 _).symm) $$ Hoc
  sl_exec
  sl_step
  isplitl [Hx Hoc' Hor]
  · isplitl [Hx]; · iexact Hx
    ihave Hoc := (Entails.of_eq (pts_oTail (F := F) d L k0_h1 _)) $$ Hoc'
    ihave Hj := (pointsTo_join_subset (ℓ := oLoc d) (q := fullShare) (oTail_sub L k0_h1)) $$ [Hoc Hor]
    · isplitl [Hoc] <;> iassumption
    iapply (Entails.of_eq (pointsTo_congr (fun j hj => ((outAt_step_tail m d L k0_h1 _
      (tail_value d L k0_h1 (m (xLoc d)) _ _ A _ hA
        (fun y hy => Bt_cover A fb (Scf.trips k0_t3_loop.lb k0_t3_loop.ub k0_t3_loop.st) y (by rw [trips3]; omega)))) j hj).trans (outAt_end m d L j hj))))
    iexact Hj
  isplitl [Ha Hb Hbufs]
  · isplitl [Ha]; · iexists _; iexact Ha
    isplitl [Hb]; · iexists _; iexact Hb
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts m d (L 0).val (L 1).val (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_voxel_sc L xV (Memref.isWhole_whole _) oV (Memref.isWhole_whole _) sA (Memref.isWhole_whole _) sB (Memref.isWhole_whole _)
            cc0_scoped0 cc0_scoped1 cc0_scoped2 cc0_scoped3)
          fun _ => iprop(tilePts m d (L 0).val (L 1).val (gout m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases k0_h1 : k0_cond1 L = 1#1
  · exact tile_work m d L hF O W hO k0_h1
  · exact tile_idle m d L hF O W hO k0_h1

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_voxel_sc (coordsV c s)
          xV (Memref.isWhole_whole _) oV (Memref.isWhole_whole _) sA (Memref.isWhole_whole _) sB (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Cert.Proof.VoxI

end
-- ==== Proof.LaunchI.lean ====
/-
  The launch of the kernel program: how the two SparseCores' operands split among their sixteen vector
  subcores and join back, how the result array falls into the thirty-two workers' row blocks, @main on
  the TensorCore (one call), and the program's run with the result named as the voxel function of the points.
-/
import proofs.«218498_g40716289966699_cont_8to1_b_543_34_alg».proof.Proof.TileI

noncomputable section

namespace Cert.Proof.VoxI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The rows of the result array

Row `r` belongs to worker `r / 10000`, and worker `w` is subcore `w / 2` of SparseCore `w % 2`: the
thirty-two row sets are pairwise disjoint and cover the three hundred thousand rows. -/

abbrev rowsP (p : Fin ((K (F := F)).nCore 0) × Fin ((K (F := F)).nSub 0)) : Finset S300000x3.Idx := rowsOf p.1.val p.2.val

theorem rows_disjoint : ∀ p ∈ (Finset.univ : Finset (Fin ((K (F := F)).nCore 0) × Fin ((K (F := F)).nSub 0))),
    ∀ p' ∈ (Finset.univ : Finset (Fin ((K (F := F)).nCore 0) × Fin ((K (F := F)).nSub 0))), p ≠ p' → Disjoint (rowsP (F := F) p) (rowsP (F := F) p') := by
  intro p _ p' _ hne
  refine Finset.disjoint_left.mpr fun j h1 h2 => hne ?_
  have h1' := mem_rowsOf.mp h1
  have h2' := mem_rowsOf.mp h2
  unfold wid at h1' h2'
  have hc : p.1.val < 2 := p.1.isLt
  have hc' : p'.1.val < 2 := p'.1.isLt
  have e : p.1.val = p'.1.val ∧ p.2.val = p'.2.val := by omega
  exact Prod.ext (Fin.ext e.1) (Fin.ext e.2)

theorem rows_cover : (Finset.univ : Finset (Fin ((K (F := F)).nCore 0) × Fin ((K (F := F)).nSub 0))).biUnion (rowsP (F := F)) = Finset.univ := by
  refine Finset.ext fun j => ?_
  simp only [Finset.mem_biUnion, Finset.mem_univ, true_and, iff_true]
  have hj : (j 0).val < 300000 := (j 0).isLt
  refine ⟨(⟨(j 0).val / 10000 % 2, Nat.mod_lt _ (by decide)⟩, ⟨(j 0).val / 10000 / 2, ?_⟩), ?_⟩
  · show (j 0).val / 10000 / 2 < 16
    omega
  · refine mem_rowsOf.mpr ?_
    unfold wid
    show 2 * ((j 0).val / 10000 / 2) + (j 0).val / 10000 % 2 < 30 ∧ (2 * ((j 0).val / 10000 / 2) + (j 0).val / 10000 % 2) * 10000 ≤ (j 0).val
      ∧ (j 0).val < (2 * ((j 0).val / 10000 / 2) + (j 0).val / 10000 % 2 + 1) * 10000
    omega

theorem oPts_rows (d : Dev nD) (f : Buf (Elt F) (oLoc d)) :
    (oLoc d ↦{fullShare} f : sProp 𝕄) = bigSep Finset.univ fun c : Fin ((K (F := F)).nCore 0) => bigSep Finset.univ fun i : Fin ((K (F := F)).nSub 0) =>
      oLoc d ↦[rowsOf c.val i.val]{fullShare} f := by
  rw [← SparseCore.bigSep_product Finset.univ Finset.univ (fun p : Fin ((K (F := F)).nCore 0) × Fin ((K (F := F)).nSub 0) => (oLoc d ↦[rowsOf p.1.val p.2.val]{fullShare} f : sProp 𝕄)),
    Finset.univ_product_univ, ← pointsTo_biUnion Finset.univ (ℓ := oLoc d) (rowsP (F := F)) rows_disjoint, rows_cover]

variable [FloatOps F]

/-! ## A SparseCore's operands among its sixteen subcores

The share of the points halves sixteen times, one right half per subcore, the last left half kept for the
way back; the rows of the result are already one block per subcore. -/

theorem vecSplit : (K (F := F)).VecSplit' (P m) 0 := by
  intro d c
  show corePts m d c.val (m (oLoc d)) ⊢ |={Set.univ}=> iprop(
      (bigSep Finset.univ fun i : Fin ((K (F := F)).nSub 0) => tilePts m d c.val i.val (m (oLoc d)))
      ∗ ((bigSep Finset.univ fun i : Fin ((K (F := F)).nSub 0) => tilePts m d c.val i.val (gout m d)) -∗ corePts m d c.val (gout m d)))
  unfold corePts tilePts tokT
  rw [bigSep_sep', bigSep_sep']
  iintro ⟨Hx, Ho⟩
  ihave Hx' := (Transfers.pointsTo_toks_split (tokC c.val) 16) $$ Hx
  icases Hx' with ⟨Hrem, Htoks⟩
  imodintro
  isplitl [Htoks Ho]
  · isplitl [Htoks]; · iexact Htoks
    iexact Ho
  iintro ⟨Htoks, Ho⟩
  isplitl [Hrem Htoks]
  · iapply (Transfers.pointsTo_toks_join (tokC c.val) 16)
    isplitl [Hrem]; · iexact Hrem
    iexact Htoks
  iexact Ho

/-! ## The launch element: the handshakes' rounds; the transfers' counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The two SparseCores' operands together: the two shares of the points and the whole result array. -/
theorem cores_eq (d : Dev nD) (f : Buf (Elt F) (oLoc d)) :
    (bigSep Finset.univ fun c : Fin ((K (F := F)).nCore 0) => corePts m d c.val f)
      = iprop((bigSep Finset.univ fun c : Fin 2 => xLoc d ↦{Transfers.shareTok fullShare 2 c} m (xLoc d)) ∗ oLoc d ↦{fullShare} f) := by
  unfold corePts tokC
  rw [bigSep_sep', oPts_rows]

theorem st0_eq (d : Dev nD) : (bigSep Finset.univ fun c : Fin ((K (F := F)).nCore 0) => (P m).st 0 d c)
    = iprop((bigSep Finset.univ fun c : Fin 2 => xLoc d ↦{Transfers.shareTok fullShare 2 c} m (xLoc d)) ∗ oLoc d ↦{fullShare} m (oLoc d)) :=
  cores_eq m d (m (oLoc d))
theorem dn0_eq (d : Dev nD) : (bigSep Finset.univ fun c : Fin ((K (F := F)).nCore 0) => (P m).dn 0 d c)
    = iprop((bigSep Finset.univ fun c : Fin 2 => xLoc d ↦{Transfers.shareTok fullShare 2 c} m (xLoc d)) ∗ oLoc d ↦{fullShare} gout m d) :=
  cores_eq m d (gout m d)

/-- What @main leaves the claim: the points at their launch contents, the result at the voxel function of them. -/
abbrev FIN (d : Dev nD) : sProp 𝕄 := iprop((xLoc d ↦{fullShare} m (xLoc d)) ∗ oLoc d ↦{fullShare} gout m d)

/-- @main on device `d`'s TensorCore: the one call, from the points and the result array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  ihave Hx' := (Transfers.pointsTo_toks_split fullShare 2) $$ Hx
  icases Hx' with ⟨Hrem, Htoks⟩
  iapply ((K (F := F)).wp_run (D (F := F)) 𝒱 (EH := EH) (P := P m) κ d 0) $$ [Hst Htoks Ho Hrem]
  isplitr; · iexact Hctx
  isplitl [Hst]; · iexact Hst
  isplitl [Htoks Ho]
  · rw [st0_eq]
    isplitl [Htoks]; · iexact Htoks
    iexact Ho
  iintro ⟨Hst, Hdn⟩
  ihave Hdn' := (Entails.of_eq (dn0_eq m d)) $$ Hdn
  icases Hdn' with ⟨Htoks, Ho⟩
  imodintro
  isplitl [Hst]; · iexact Hst
  isplitl [Hrem Htoks]
  · iapply (Transfers.pointsTo_toks_join fullShare 2)
    isplitl [Hrem]; · iexact Hrem
    iexact Htoks
  iexact Ho

def fq (d : Dev nD) (s' : Phys nD τ sig (Elt F)) : Prop := s'.mem.mem (oLoc d) = gout m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := oLoc d) (I := Finset.univ) (q := fullShare) (f := gout m d))) $$ [HSI Ho]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (oLoc c) = gout m c ∧ r.2.mem (xLoc c) = m (xLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.VoxI

end
-- ==== Proof.SetupB.lean ====
/-
  The kernel program as the SparseCore launch theorem sees it, and what its handshakes carry.
  Thirty of the thirty-two vector subcores each convert ten thousand consecutive points: subcore i of
  SparseCore c is worker 2 i + c and owns rows [10000 (2 i + c), 10000 (2 i + c + 1)) of the result; the
  two last workers own nothing. Every subcore reads the point array through a read share of the whole array.
  The call hands each SparseCore one share of the points and its subcores' rows of the result at the launch
  contents, and takes them back with the rows at the voxel function of the points (Voxel.grid).
-/
import proofs.«218498_g40716289966699_cont_8to1_b_543_34_alg».proof.Defs
import proofs.«218498_g40716289966699_cont_8to1_b_543_34_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218498_g40716289966699_cont_8to1_b_543_34_alg».proof.Proof.Gen.Kernel
import proofs.«218498_g40716289966699_cont_8to1_b_543_34_alg».proof.Proof.Gen.Kernel.Skeleton

noncomputable section

namespace Cert.Proof.VoxB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, the shares and the rows -/

variable (m : (ℓ : Loc nD τ sig) → Buf (Elt F) ℓ) (ρ : Dev nD → PrngReg)

/-- The point array (the argument) and the result array, as locations of device `d`. -/
abbrev xLoc (d : Dev nD) : Loc nD τ sig := (SparseCore.T d).loc main_arg0
abbrev oLoc (d : Dev nD) : Loc nD τ sig := (SparseCore.T d).loc main_v0

/-- SparseCore `c`'s read share of the points, and subcore `i`'s part of it. -/
def tokC (c : ℕ) : PosShare TreeShare := Transfers.shareTokN fullShare c
def tokT (c i : ℕ) : PosShare TreeShare := Transfers.shareTokN (tokC c) i

/-- The worker number of subcore `i` of SparseCore `c`. -/
def wid (c i : ℕ) : ℕ := 2 * i + c

/-- The result rows worker `wid c i` owns: ten thousand consecutive rows, none for the two last workers. -/
def rowsOf (c i : ℕ) : Finset S300000x3.Idx :=
  Finset.univ.filter fun j => wid c i < 30 ∧ wid c i * 10000 ≤ (j 0).val ∧ (j 0).val < (wid c i + 1) * 10000

theorem mem_rowsOf {c i : ℕ} {j : S300000x3.Idx} :
    j ∈ rowsOf c i ↔ wid c i < 30 ∧ wid c i * 10000 ≤ (j 0).val ∧ (j 0).val < (wid c i + 1) * 10000 := by
  unfold rowsOf; rw [Finset.mem_filter]; exact ⟨fun h => h.2, fun h => ⟨Finset.mem_univ _, h⟩⟩

variable [FloatOps F]

/-- What the result array holds after the run: the voxel function of the launch contents of the points. -/
def gout (d : Dev nD) : Buf (Elt F) (oLoc d) := Voxel.grid (F := F) (m (xLoc d))

/-- A subcore's operands: its share of the points, its rows of the result at `f`. -/
def tilePts (d : Dev nD) (c i : ℕ) (f : Buf (Elt F) (oLoc d)) : sProp 𝕄 :=
  iprop((xLoc d ↦{tokT c i} m (xLoc d)) ∗ oLoc d ↦[rowsOf c i]{fullShare} f)

/-- A SparseCore's operands: its share of the points, its sixteen subcores' rows of the result at `f`. -/
def corePts (d : Dev nD) (c : ℕ) (f : Buf (Elt F) (oLoc d)) : sProp 𝕄 :=
  iprop((xLoc d ↦{tokC c} m (xLoc d)) ∗ bigSep Finset.univ fun i : Fin ((K (F := F)).nSub 0) => oLoc d ↦[rowsOf c i.val]{fullShare} f)

/-- The one call: points' shares out and back unchanged, result rows out at the launch contents and back at `gout`. -/
def P : (K (F := F)).Pay (nD := nD) (Val := Elt F) (Name := ℕ) (U := UU) where
  st := fun q d c => match q with | 0 => corePts m d c.val (m (oLoc d))
  dn := fun q d c => match q with | 0 => corePts m d c.val (gout m d)
  go := fun q d c i => match q with | 0 => tilePts m d c.val i.val (m (oLoc d))
  td := fun q d c i => match q with | 0 => tilePts m d c.val i.val (gout m d)
  x := fun _ _ => iprop(emp)

instance P_storable : (P (F := F) m).IsStorable where
  st q d c := match q with | 0 => by unfold P corePts; infer_instance
  dn q d c := match q with | 0 => by unfold P corePts; infer_instance
  go q d c i := match q with | 0 => by unfold P tilePts; infer_instance
  td q d c i := match q with | 0 => by unfold P tilePts; infer_instance

end Cert.Proof.VoxB

end
-- ==== Proof.RowsB.lean ====
/-
  The chunk memrefs of one vector subcore's task, in the program's own spelling, and the row arithmetic
  of its proof. A working subcore converts its ten thousand rows in twenty chunks of 480 rows and a tail
  of 400: chunk k is rows [base + 480 k, base + 480 k + 480) of the points and of the result, the tail
  rows [base + 9600, base + 10000), with base = 20000 (L 1) + 10000 (L 0) the first row of the worker.
-/
import proofs.«218498_g40716289966699_cont_8to1_b_543_34_alg».proof.Proof.SetupB

noncomputable section

namespace Cert.Proof.VoxB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S300000x4 EltTy.f32)
local notation "oV" => (Memref.whole Cert.Kernel.main_v0_scv : Memref Cert.Kernel.sig Kind.scVector Space.hbm Cert.Kernel.S300000x3 EltTy.i32)

/-! ## Which subcores work -/

/-- The kernel's test, computed on words, is that the worker number is below thirty. -/
theorem cond_iff (L : grid0.Coords) : k0_cond1 L = 1#1 ↔ wid (L 0).val (L 1).val < 30 := by
  revert L; decide +kernel

/-! ## The chunks, as the program slices them -/

abbrev xChunk (L : grid0.Coords) (h : k0_cond1 L = 1#1) (k : Fin k0_t1_loop.trips) : Memref sig .scVector .hbm S480x4 .f32 :=
  (xV).slice (Rect.unit (s := S300000x4) (k0_off1 L k) S480x4.size (Gen.k0_off1_inb L k h)) (fun _ => rfl)
abbrev oChunk (L : grid0.Coords) (h : k0_cond1 L = 1#1) (k : Fin k0_t1_loop.trips) : Memref sig .scVector .hbm S480x3 .i32 :=
  (oV).slice (Rect.unit (s := S300000x3) (k0_off2 L k) S480x3.size (Gen.k0_off2_inb L k h)) (fun _ => rfl)
abbrev xTail (L : grid0.Coords) (h : k0_cond1 L = 1#1) : Memref sig .scVector .hbm S400x4 .f32 :=
  (xV).slice (Rect.unit (s := S300000x4) (k0_off3 L) S400x4.size (Gen.k0_off3_inb L h)) (fun _ => rfl)
abbrev oTail (L : grid0.Coords) (h : k0_cond1 L = 1#1) : Memref sig .scVector .hbm S400x3 .i32 :=
  (oV).slice (Rect.unit (s := S300000x3) (k0_off4 L) S400x3.size (Gen.k0_off4_inb L h)) (fun _ => rfl)

theorem trips_lt (k : Fin k0_t1_loop.trips) : k.val < 20 := Nat.lt_of_lt_of_le k.isLt k0_t1_abs.2.1

theorem off1_0 (L : grid0.Coords) (k : Fin k0_t1_loop.trips) : k0_off1 L k 0 = 20000 * (L 1).val + 10000 * (L 0).val + 480 * k.val := by rw [k0_off1_eq]; rfl
theorem off1_1 (L : grid0.Coords) (k : Fin k0_t1_loop.trips) : k0_off1 L k 1 = 0 := by rw [k0_off1_eq]; rfl
theorem off2_0 (L : grid0.Coords) (k : Fin k0_t1_loop.trips) : k0_off2 L k 0 = 20000 * (L 1).val + 10000 * (L 0).val + 480 * k.val := by rw [k0_off2_eq]; rfl
theorem off2_1 (L : grid0.Coords) (k : Fin k0_t1_loop.trips) : k0_off2 L k 1 = 0 := by rw [k0_off2_eq]; rfl
theorem off3_0 (L : grid0.Coords) : k0_off3 L 0 = 20000 * (L 1).val + 10000 * (L 0).val + 9600 := by rw [k0_off3_eq]; rfl
theorem off3_1 (L : grid0.Coords) : k0_off3 L 1 = 0 := by rw [k0_off3_eq]; rfl
theorem off4_0 (L : grid0.Coords) : k0_off4 L 0 = 20000 * (L 1).val + 10000 * (L 0).val + 9600 := by rw [k0_off4_eq]; rfl
theorem off4_1 (L : grid0.Coords) : k0_off4 L 1 = 0 := by rw [k0_off4_eq]; rfl

/-! ## Where a chunk's elements lie in the array -/

theorem xChunk_emb (L : grid0.Coords) (h : k0_cond1 L = 1#1) (k : Fin k0_t1_loop.trips) (y : S480x4.Idx) :
    (((xChunk L h k).view.emb y) 0).val = 20000 * (L 1).val + 10000 * (L 0).val + 480 * k.val + (y 0).val
      ∧ (((xChunk L h k).view.emb y) 1).val = (y 1).val := by
  constructor
  · show k0_off1 L k 0 + 1 * (y 0).val = _
    rw [off1_0]; omega
  · show k0_off1 L k 1 + 1 * (y 1).val = _
    rw [off1_1]; omega

theorem oChunk_emb (L : grid0.Coords) (h : k0_cond1 L = 1#1) (k : Fin k0_t1_loop.trips) (y : S480x3.Idx) :
    (((oChunk L h k).view.emb y) 0).val = 20000 * (L 1).val + 10000 * (L 0).val + 480 * k.val + (y 0).val
      ∧ (((oChunk L h k).view.emb y) 1).val = (y 1).val := by
  constructor
  · show k0_off2 L k 0 + 1 * (y 0).val = _
    rw [off2_0]; omega
  · show k0_off2 L k 1 + 1 * (y 1).val = _
    rw [off2_1]; omega

theorem xTail_emb (L : grid0.Coords) (h : k0_cond1 L = 1#1) (y : S400x4.Idx) :
    (((xTail L h).view.emb y) 0).val = 20000 * (L 1).val + 10000 * (L 0).val + 9600 + (y 0).val
      ∧ (((xTail L h).view.emb y) 1).val = (y 1).val := by
  constructor
  · show k0_off3 L 0 + 1 * (y 0).val = _
    rw [off3_0]; omega
  · show k0_off3 L 1 + 1 * (y 1).val = _
    rw [off3_1]; omega

theorem oTail_emb (L : grid0.Coords) (h : k0_cond1 L = 1#1) (y : S400x3.Idx) :
    (((oTail L h).view.emb y) 0).val = 20000 * (L 1).val + 10000 * (L 0).val + 9600 + (y 0).val
      ∧ (((oTail L h).view.emb y) 1).val = (y 1).val := by
  constructor
  · show k0_off4 L 0 + 1 * (y 0).val = _
    rw [off4_0]; omega
  · show k0_off4 L 1 + 1 * (y 1).val = _
    rw [off4_1]; omega

/-! ## Which rows of the result a chunk is -/

theorem mem_oChunk (L : grid0.Coords) (h : k0_cond1 L = 1#1) (k : Fin k0_t1_loop.trips) (j : S300000x3.Idx) :
    j ∈ (oChunk L h k).view.set ↔ 20000 * (L 1).val + 10000 * (L 0).val + 480 * k.val ≤ (j 0).val
      ∧ (j 0).val < 20000 * (L 1).val + 10000 * (L 0).val + 480 * k.val + 480 := by
  show j ∈ ((View.whole main_v0_scv).slice (Rect.unit (s := S300000x3) (k0_off2 L k) S480x3.size (Gen.k0_off2_inb L k h))).set ↔ _
  rw [View.set_slice_whole, Rect.mem_set_unit]
  have hj1 : (j 1).val < 3 := (j 1).isLt
  refine ⟨fun hm => ?_, fun hm => Fin.forall_fin_two.mpr ⟨?_, ?_⟩⟩
  · have h0 := hm (0 : Fin 2)
    rw [off2_0] at h0
    exact h0
  · rw [off2_0]; exact hm
  · rw [off2_1]; exact ⟨Nat.zero_le _, by show (j 1).val < 0 + 3; omega⟩

theorem mem_oTail (L : grid0.Coords) (h : k0_cond1 L = 1#1) (j : S300000x3.Idx) :
    j ∈ (oTail L h).view.set ↔ 20000 * (L 1).val + 10000 * (L 0).val + 9600 ≤ (j 0).val
      ∧ (j 0).val < 20000 * (L 1).val + 10000 * (L 0).val + 10000 := by
  show j ∈ ((View.whole main_v0_scv).slice (Rect.unit (s := S300000x3) (k0_off4 L) S400x3.size (Gen.k0_off4_inb L h))).set ↔ _
  rw [View.set_slice_whole, Rect.mem_set_unit]
  have hj1 : (j 1).val < 3 := (j 1).isLt
  refine ⟨fun hm => ?_, fun hm => Fin.forall_fin_two.mpr ⟨?_, ?_⟩⟩
  · have h0 := hm (0 : Fin 2)
    rw [off4_0] at h0
    have h0' : 20000 * (L 1).val + 10000 * (L 0).val + 9600 ≤ (j 0).val
        ∧ (j 0).val < 20000 * (L 1).val + 10000 * (L 0).val + 9600 + 400 := h0
    omega
  · rw [off4_0]
    show 20000 * (L 1).val + 10000 * (L 0).val + 9600 ≤ (j 0).val ∧ (j 0).val < 20000 * (L 1).val + 10000 * (L 0).val + 9600 + 400
    omega
  · rw [off4_1]; exact ⟨Nat.zero_le _, by show (j 1).val < 0 + 3; omega⟩

theorem oChunk_sub (L : grid0.Coords) (h : k0_cond1 L = 1#1) (k : Fin k0_t1_loop.trips) :
    (oChunk L h k).view.set ⊆ rowsOf (L 0).val (L 1).val := by
  intro j hj
  have hj' := (mem_oChunk L h k j).mp hj
  have hw := (cond_iff L).mp h
  have hk := trips_lt k
  refine mem_rowsOf.mpr ?_
  unfold wid at hw ⊢
  omega

theorem oTail_sub (L : grid0.Coords) (h : k0_cond1 L = 1#1) : (oTail L h).view.set ⊆ rowsOf (L 0).val (L 1).val := by
  intro j hj
  have hj' := (mem_oTail L h j).mp hj
  have hw := (cond_iff L).mp h
  refine mem_rowsOf.mpr ?_
  unfold wid at hw ⊢
  omega

/-! ## The result array while the rows fill

Rows below `r` hold the voxel function of the points, the rows from `r` on their launch contents. -/

variable (m : (ℓ : Loc nD τ sig) → Buf (Elt F) ℓ) [FloatOps F]

def outAt (d : Dev nD) (r : ℕ) : Buf (Elt F) (oLoc d) := fun (j : S300000x3.Idx) => if (j 0).val < r then gout m d j else m (oLoc d) j

theorem outAt_start (d : Dev nD) (L : grid0.Coords) :
    ∀ j ∈ rowsOf (L 0).val (L 1).val, outAt m d (20000 * (L 1).val + 10000 * (L 0).val) j = m (oLoc d) j := by
  intro j hj
  have hj' := mem_rowsOf.mp hj
  unfold wid at hj'
  unfold outAt
  exact if_neg (by omega)

theorem outAt_end (d : Dev nD) (L : grid0.Coords) :
    ∀ j ∈ rowsOf (L 0).val (L 1).val, outAt m d (20000 * (L 1).val + 10000 * (L 0).val + 10000) j = gout m d j := by
  intro j hj
  have hj' := mem_rowsOf.mp hj
  unfold wid at hj'
  unfold outAt
  exact if_pos (by omega)

theorem outAt_step (d : Dev nD) (L : grid0.Coords) (h : k0_cond1 L = 1#1) (k : Fin k0_t1_loop.trips) (g : Buf (Elt F) (oLoc d))
    (hg : ∀ j ∈ (oChunk L h k).view.set, g j = gout m d j) :
    ∀ j ∈ rowsOf (L 0).val (L 1).val, ((oChunk L h k).view.set.piecewise g (outAt m d (20000 * (L 1).val + 10000 * (L 0).val + 480 * k.val))) j
      = outAt m d (20000 * (L 1).val + 10000 * (L 0).val + 480 * (k.val + 1)) j := by
  intro j hj
  have hj' := mem_rowsOf.mp hj
  unfold wid at hj'
  by_cases hc : j ∈ (oChunk L h k).view.set
  · have hc' := (mem_oChunk L h k j).mp hc
    rw [Finset.piecewise_eq_of_mem _ _ _ hc, hg j hc]
    unfold outAt
    exact (if_pos (by omega)).symm
  · have hc' : ¬ (20000 * (L 1).val + 10000 * (L 0).val + 480 * k.val ≤ (j 0).val
        ∧ (j 0).val < 20000 * (L 1).val + 10000 * (L 0).val + 480 * k.val + 480) := fun hh => hc ((mem_oChunk L h k j).mpr hh)
    rw [Finset.piecewise_eq_of_notMem _ _ _ hc]
    unfold outAt
    by_cases hlt : (j 0).val < 20000 * (L 1).val + 10000 * (L 0).val + 480 * k.val
    · rw [if_pos hlt, if_pos (by omega)]
    · rw [if_neg hlt, if_neg (by omega)]

theorem outAt_step_tail (d : Dev nD) (L : grid0.Coords) (h : k0_cond1 L = 1#1) (g : Buf (Elt F) (oLoc d))
    (hg : ∀ j ∈ (oTail L h).view.set, g j = gout m d j) :
    ∀ j ∈ rowsOf (L 0).val (L 1).val, ((oTail L h).view.set.piecewise g (outAt m d (20000 * (L 1).val + 10000 * (L 0).val + 9600))) j
      = outAt m d (20000 * (L 1).val + 10000 * (L 0).val + 10000) j := by
  intro j hj
  have hj' := mem_rowsOf.mp hj
  unfold wid at hj'
  by_cases hc : j ∈ (oTail L h).view.set
  · have hc' := (mem_oTail L h j).mp hc
    rw [Finset.piecewise_eq_of_mem _ _ _ hc, hg j hc]
    unfold outAt
    exact (if_pos (by omega)).symm
  · have hc' : ¬ (20000 * (L 1).val + 10000 * (L 0).val + 9600 ≤ (j 0).val
        ∧ (j 0).val < 20000 * (L 1).val + 10000 * (L 0).val + 10000) := fun hh => hc ((mem_oTail L h j).mpr hh)
    rw [Finset.piecewise_eq_of_notMem _ _ _ hc]
    unfold outAt
    by_cases hlt : (j 0).val < 20000 * (L 1).val + 10000 * (L 0).val + 9600
    · rw [if_pos hlt, if_pos (by omega)]
    · rw [if_neg hlt, if_neg (by omega)]

end Cert.Proof.VoxB

end
-- ==== Proof.InnerB.lean ====
/-
  One trip of the inner loop as a function of the two scratch arrays.
  A trip takes sixteen consecutive rows r0 .. r0 + 15 of the 480-row float scratch, reads the first three
  columns of each row, computes the voxel word for each of the three output columns lane by lane, and writes
  the sixteen words of each output column to the same rows of the 480-row word scratch. Lanes name distinct
  rows, and the three writes go to distinct columns, so afterwards an element in the band of rows holds the
  voxel word of its row and column, and every other element is unchanged.
-/
import proofs.«218498_g40716289966699_cont_8to1_b_543_34_alg».proof.Proof.SetupB
import proofs.«218498_g40716289966699_cont_8to1_b_543_34_alg».proof.Proof.StoreIdx

noncomputable section

namespace Cert.Proof.VoxB

open Cert.Kernel Cert.Kernel.Gen Idealize.ShloMosaic Idealize.ShloMosaic.ValueIdx

variable {F : FTy → Type} [FloatOps F]

abbrev v6 : IVec S16 32 := broadcast S16 0#32
abbrev v8 : IVec S16 32 := k0_pay1 v6
abbrev v10 : IVec S16 32 := k0_pay2 v6

/-- the voxel word of row (y 0) of a 480-row chunk held in A, column (y 1) -/
def cellA (A : Vec F S480x4 .f32) (y : S480x3.Idx) : BitVec 32 :=
  Voxel.cell (F := F) (A (ix2 (⟨(y 0).val, idx2_lt0 y⟩ : Fin 480) (0 : Fin 4))) (A (ix2 (⟨(y 0).val, idx2_lt0 y⟩ : Fin 480) (1 : Fin 4))) (A (ix2 (⟨(y 0).val, idx2_lt0 y⟩ : Fin 480) (2 : Fin 4))) ⟨(y 1).val, idx2_lt1 y⟩

/-! ## Each stored vector, lane by lane -/

theorem pay12_lane (a0 a1 a2 : Vec F S16 .f32) (x : S16.Idx) :
    k0_pay12 a0 a1 a2 x = Voxel.cell (F := F) (a0 x) (a1 x) (a2 x) 0 := rfl
theorem pay13_lane (a0 a1 a2 : Vec F S16 .f32) (x : S16.Idx) :
    k0_pay13 a0 a1 a2 x = Voxel.cell (F := F) (a0 x) (a1 x) (a2 x) 1 := rfl
theorem pay14_lane (a0 a1 a2 : Vec F S16 .f32) (x : S16.Idx) :
    k0_pay14 a0 a1 a2 x = Voxel.cell (F := F) (a0 x) (a1 x) (a2 x) 2 := rfl
theorem pay23_lane (a0 a1 a2 : Vec F S16 .f32) (x : S16.Idx) :
    k0_pay23 a0 a1 a2 x = Voxel.cell (F := F) (a0 x) (a1 x) (a2 x) 0 := rfl
theorem pay24_lane (a0 a1 a2 : Vec F S16 .f32) (x : S16.Idx) :
    k0_pay24 a0 a1 a2 x = Voxel.cell (F := F) (a0 x) (a1 x) (a2 x) 1 := rfl
theorem pay25_lane (a0 a1 a2 : Vec F S16 .f32) (x : S16.Idx) :
    k0_pay25 a0 a1 a2 x = Voxel.cell (F := F) (a0 x) (a1 x) (a2 x) 2 := rfl

/-! ## The three column vectors are the words 0, 1, 2 in every lane -/

theorem v6_toNat (x : S16.Idx) : (v6 x).toNat = 0 := rfl
theorem v8_toNat (x : S16.Idx) : (v8 x).toNat = 1 := rfl
theorem v10_toNat (x : S16.Idx) : (v10 x).toNat = 2 := rfl

/-- A lane's number is below sixteen. -/
theorem lane_lt (x : S16.Idx) : (x 0).val < 16 := (x 0).isLt

/-! ## The element a lane names -/

/-- Reading the float scratch through a row vector and a column vector: lane `x` reads row `p`, column `q`
    when those are the numbers its two index words hold. -/
theorem load_at (A : Vec F S480x4 .f32) (rows c : IVec S16 32)
    (h : ∀ a x, ((![rows, c] : Fin 2 → IVec S16 32) a x).toNat < S480x4.size a)
    (x : S16.Idx) (p : Fin 480) (q : Fin 4) (hp : (rows x).toNat = p.val) (hq : (c x).toNat = q.val) :
    loadIdx A ![rows, c] h x = A (ix2 p q) := by
  show A (idxAt (s := S480x4) ![rows, c] h x) = A (ix2 p q)
  congr 1
  funext a
  match a with
  | ⟨0, _⟩ => exact Fin.ext hp
  | ⟨1, _⟩ => exact Fin.ext hq

/-- The voxel word computed from lane `x`'s three loaded floats is the voxel word of the row lane `x` names. -/
theorem lanes_cell (A : Vec F S480x4 .f32) (rows : IVec S16 32) (r0 : ℕ)
    (hr : ∀ x : S16.Idx, (rows x).toNat = r0 + (x 0).val)
    (h0 : ∀ a x, ((![rows, v6] : Fin 2 → IVec S16 32) a x).toNat < S480x4.size a)
    (h1 : ∀ a x, ((![rows, v8] : Fin 2 → IVec S16 32) a x).toNat < S480x4.size a)
    (h2 : ∀ a x, ((![rows, v10] : Fin 2 → IVec S16 32) a x).toNat < S480x4.size a)
    (x : S16.Idx) (y : S480x3.Idx) (hy : (y 0).val = r0 + (x 0).val) (col : Fin 3) (hcol : (y 1).val = col.val) :
    Voxel.cell (F := F) (loadIdx A ![rows, v6] h0 x) (loadIdx A ![rows, v8] h1 x) (loadIdx A ![rows, v10] h2 x) col
      = cellA A y := by
  have hp : (rows x).toNat = (⟨(y 0).val, idx2_lt0 y⟩ : Fin 480).val := by rw [hr x]; exact hy.symm
  rw [load_at A rows v6 h0 x ⟨(y 0).val, idx2_lt0 y⟩ 0 hp rfl, load_at A rows v8 h1 x ⟨(y 0).val, idx2_lt0 y⟩ 1 hp rfl,
    load_at A rows v10 h2 x ⟨(y 0).val, idx2_lt0 y⟩ 2 hp rfl]
  unfold cellA
  congr 1
  exact Fin.ext hcol.symm

/-- One scatter of sixteen words to rows r0 .. r0 + 15 of column `cn` of the word scratch: an element of that
    column in the band holds the word its lane carried, every other element is unchanged. The lane's word is
    given as a function `w` of the element it lands on. -/
theorem store_col (B : Vec F S480x3 .i32) (rows c : IVec S16 32) (v : IVec S16 32)
    (g : ∀ a x, ((![rows, c] : Fin 2 → IVec S16 32) a x).toNat < S480x3.size a) (r0 cn : ℕ)
    (hr : ∀ x : S16.Idx, (rows x).toNat = r0 + (x 0).val) (hc : ∀ x : S16.Idx, (c x).toNat = cn)
    (w : S480x3.Idx → BitVec 32)
    (hv : ∀ (x : S16.Idx) (y : S480x3.Idx), (y 0).val = r0 + (x 0).val → (y 1).val = cn → v x = w y)
    (y : S480x3.Idx) :
    storeIdx B ![rows, c] v (fun _ => 1#1) false g y
      = if (r0 ≤ (y 0).val ∧ (y 0).val < r0 + 16) ∧ (y 1).val = cn then w y else B y := by
  have c0 : ∀ k : Fin ((![16] : Fin 1 → ℕ) 0),
      ((idxAt (s := S480x3) ![rows, c] g (Shape.ofLane k)) 0).val = r0 + k.val := fun k => hr _
  have c1 : ∀ k : Fin ((![16] : Fin 1 → ℕ) 0),
      ((idxAt (s := S480x3) ![rows, c] g (Shape.ofLane k)) 1).val = cn := fun k => hc _
  have hinj : ∀ k k' : Fin ((![16] : Fin 1 → ℕ) 0),
      idxAt (s := S480x3) ![rows, c] g (Shape.ofLane k) = idxAt (s := S480x3) ![rows, c] g (Shape.ofLane k') → k = k' := by
    intro k k' h
    have e := congrArg (fun j : S480x3.Idx => (j 0).val) h
    have e' : ((idxAt (s := S480x3) ![rows, c] g (Shape.ofLane k)) 0).val
        = ((idxAt (s := S480x3) ![rows, c] g (Shape.ofLane k')) 0).val := e
    rw [c0, c0] at e'
    exact Fin.ext (by omega)
  by_cases hy : (r0 ≤ (y 0).val ∧ (y 0).val < r0 + 16) ∧ (y 1).val = cn
  · rw [if_pos hy]
    have hk : (y 0).val - r0 < 16 := by omega
    have hyk : idxAt (s := S480x3) ![rows, c] g (Shape.ofLane (d := ![16]) ⟨(y 0).val - r0, hk⟩) = y := by
      funext a
      match a with
      | ⟨0, _⟩ => exact Fin.ext ((c0 ⟨(y 0).val - r0, hk⟩).trans (by show r0 + ((y 0).val - r0) = (y 0).val; omega))
      | ⟨1, _⟩ => exact Fin.ext ((c1 ⟨(y 0).val - r0, hk⟩).trans hy.2.symm)
    calc storeIdx B ![rows, c] v (fun _ => 1#1) false g y
        = storeIdx B ![rows, c] v (fun _ => 1#1) false g
            (idxAt (s := S480x3) ![rows, c] g (Shape.ofLane (d := ![16]) ⟨(y 0).val - r0, hk⟩)) := by rw [hyk]
      _ = v (Shape.ofLane (d := ![16]) ⟨(y 0).val - r0, hk⟩) :=
          Voxel.storeIdx_hit B ![rows, c] v g hinj ⟨(y 0).val - r0, hk⟩
      _ = w y := hv _ y (by show (y 0).val = r0 + ((y 0).val - r0); omega) hy.2
  · rw [if_neg hy]
    apply Voxel.storeIdx_miss
    intro k heq
    apply hy
    have h0 : (y 0).val = r0 + k.val := by rw [← heq]; exact c0 k
    have h1 : (y 1).val = cn := by rw [← heq]; exact c1 k
    have hk : k.val < 16 := k.isLt
    exact ⟨⟨by omega, by omega⟩, h1⟩

/-! ## One trip -/

theorem trip_value (A : Vec F S480x4 .f32) (B : Vec F S480x3 .i32) (rows : IVec S16 32) (r0 : ℕ) (hr : ∀ x : S16.Idx, (rows x).toNat = r0 + (x 0).val) (hr0 : r0 + 16 ≤ 480)
    (h0 : ∀ a x, ((![rows, v6] : Fin 2 → IVec S16 32) a x).toNat < S480x4.size a) (h1 : ∀ a x, ((![rows, v8] : Fin 2 → IVec S16 32) a x).toNat < S480x4.size a) (h2 : ∀ a x, ((![rows, v10] : Fin 2 → IVec S16 32) a x).toNat < S480x4.size a)
    (g0 : ∀ a x, ((![rows, v6] : Fin 2 → IVec S16 32) a x).toNat < S480x3.size a) (g1 : ∀ a x, ((![rows, v8] : Fin 2 → IVec S16 32) a x).toNat < S480x3.size a) (g2 : ∀ a x, ((![rows, v10] : Fin 2 → IVec S16 32) a x).toNat < S480x3.size a) :
    storeIdx (storeIdx (storeIdx B ![rows, v6] (k0_pay12 (loadIdx A ![rows, v6] h0) (loadIdx A ![rows, v8] h1) (loadIdx A ![rows, v10] h2)) (fun _ => 1#1) false g0)
        ![rows, v8] (k0_pay13 (loadIdx A ![rows, v6] h0) (loadIdx A ![rows, v8] h1) (loadIdx A ![rows, v10] h2)) (fun _ => 1#1) false g1)
        ![rows, v10] (k0_pay14 (loadIdx A ![rows, v6] h0) (loadIdx A ![rows, v8] h1) (loadIdx A ![rows, v10] h2)) (fun _ => 1#1) false g2
      = fun y => if r0 ≤ (y 0).val ∧ (y 0).val < r0 + 16 then cellA A y else B y := by
  funext y
  have e2 := store_col (storeIdx (storeIdx B ![rows, v6] (k0_pay12 (loadIdx A ![rows, v6] h0) (loadIdx A ![rows, v8] h1) (loadIdx A ![rows, v10] h2)) (fun _ => 1#1) false g0)
        ![rows, v8] (k0_pay13 (loadIdx A ![rows, v6] h0) (loadIdx A ![rows, v8] h1) (loadIdx A ![rows, v10] h2)) (fun _ => 1#1) false g1)
      rows v10 (k0_pay14 (loadIdx A ![rows, v6] h0) (loadIdx A ![rows, v8] h1) (loadIdx A ![rows, v10] h2)) g2 r0 2 hr v10_toNat (cellA A)
      (fun x y' hy0 hy1 => (pay14_lane _ _ _ x).trans (lanes_cell A rows r0 hr h0 h1 h2 x y' hy0 2 hy1)) y
  have e1 := store_col (storeIdx B ![rows, v6] (k0_pay12 (loadIdx A ![rows, v6] h0) (loadIdx A ![rows, v8] h1) (loadIdx A ![rows, v10] h2)) (fun _ => 1#1) false g0)
      rows v8 (k0_pay13 (loadIdx A ![rows, v6] h0) (loadIdx A ![rows, v8] h1) (loadIdx A ![rows, v10] h2)) g1 r0 1 hr v8_toNat (cellA A)
      (fun x y' hy0 hy1 => (pay13_lane _ _ _ x).trans (lanes_cell A rows r0 hr h0 h1 h2 x y' hy0 1 hy1)) y
  have e0 := store_col B rows v6 (k0_pay12 (loadIdx A ![rows, v6] h0) (loadIdx A ![rows, v8] h1) (loadIdx A ![rows, v10] h2)) g0 r0 0 hr v6_toNat (cellA A)
      (fun x y' hy0 hy1 => (pay12_lane _ _ _ x).trans (lanes_cell A rows r0 hr h0 h1 h2 x y' hy0 0 hy1)) y
  rw [e2, e1, e0]
  have hq := idx2_lt1 y
  split_ifs <;> first | rfl | (exfalso; omega)

theorem trip_value_tail (A : Vec F S480x4 .f32) (B : Vec F S480x3 .i32) (rows : IVec S16 32) (r0 : ℕ) (hr : ∀ x : S16.Idx, (rows x).toNat = r0 + (x 0).val) (hr0 : r0 + 16 ≤ 480)
    (h0 : ∀ a x, ((![rows, v6] : Fin 2 → IVec S16 32) a x).toNat < S480x4.size a) (h1 : ∀ a x, ((![rows, v8] : Fin 2 → IVec S16 32) a x).toNat < S480x4.size a) (h2 : ∀ a x, ((![rows, v10] : Fin 2 → IVec S16 32) a x).toNat < S480x4.size a)
    (g0 : ∀ a x, ((![rows, v6] : Fin 2 → IVec S16 32) a x).toNat < S480x3.size a) (g1 : ∀ a x, ((![rows, v8] : Fin 2 → IVec S16 32) a x).toNat < S480x3.size a) (g2 : ∀ a x, ((![rows, v10] : Fin 2 → IVec S16 32) a x).toNat < S480x3.size a) :
    storeIdx (storeIdx (storeIdx B ![rows, v6] (k0_pay23 (loadIdx A ![rows, v6] h0) (loadIdx A ![rows, v8] h1) (loadIdx A ![rows, v10] h2)) (fun _ => 1#1) false g0)
        ![rows, v8] (k0_pay24 (loadIdx A ![rows, v6] h0) (loadIdx A ![rows, v8] h1) (loadIdx A ![rows, v10] h2)) (fun _ => 1#1) false g1)
        ![rows, v10] (k0_pay25 (loadIdx A ![rows, v6] h0) (loadIdx A ![rows, v8] h1) (loadIdx A ![rows, v10] h2)) (fun _ => 1#1) false g2
      = fun y => if r0 ≤ (y 0).val ∧ (y 0).val < r0 + 16 then cellA A y else B y :=
  trip_value A B rows r0 hr hr0 h0 h1 h2 g0 g1 g2

/-! ## The row vector of a trip -/

theorem pay4_toNat (t : Fin k0_t2_loop.trips) (x : S16.Idx) : (k0_pay4 t x).toNat = 16 * t.val + (x 0).val := by
  have ht : t.val < 30 := lt_of_lt_of_le t.isLt k0_t2_abs.2.1
  have hx := lane_lt x
  show (IntOp.addi (BitVec.ofNat 32 (0 * 16 + (x 0).val)) (Scalar.muli (Scf.iv 0#32 1#32 t.val) 16#32)).toNat = _
  simp only [IntOp.addi, Scalar.muli, IntOp.muli, Scf.iv, BitVec.toNat_add, BitVec.toNat_mul, BitVec.toNat_ofNat]
  norm_num
  omega

theorem pay15_toNat (t : Fin k0_t3_loop.trips) (x : S16.Idx) : (k0_pay15 t x).toNat = 16 * t.val + (x 0).val := by
  have ht : t.val < 25 := lt_of_lt_of_le t.isLt k0_t3_abs.2.1
  have hx := lane_lt x
  show (IntOp.addi (BitVec.ofNat 32 (0 * 16 + (x 0).val)) (Scalar.muli (Scf.iv 0#32 1#32 t.val) 16#32)).toNat = _
  simp only [IntOp.addi, Scalar.muli, IntOp.muli, Scf.iv, BitVec.toNat_add, BitVec.toNat_mul, BitVec.toNat_ofNat]
  norm_num
  omega

/-! ## The side conditions of a trip's indices -/

/-- A row below 480 and a column word 0, 1 or 2 are inside both scratch arrays. -/
theorem idx_inb (rows c : IVec S16 32) (r0 cn : ℕ) (hr : ∀ x : S16.Idx, (rows x).toNat = r0 + (x 0).val) (hr0 : r0 + 16 ≤ 480)
    (hc : ∀ x : S16.Idx, (c x).toNat = cn) (hcn : cn < 3) :
    (∀ a x, ((![rows, c] : Fin 2 → IVec S16 32) a x).toNat < S480x4.size a) ∧
    (∀ a x, ((![rows, c] : Fin 2 → IVec S16 32) a x).toNat < S480x3.size a) := by
  refine ⟨fun a x => ?_, fun a x => ?_⟩
  · have hx := lane_lt x
    match a with
    | ⟨0, _⟩ => show (rows x).toNat < 480; rw [hr x]; omega
    | ⟨1, _⟩ => show (c x).toNat < 4; rw [hc x]; omega
  · have hx := lane_lt x
    match a with
    | ⟨0, _⟩ => show (rows x).toNat < 480; rw [hr x]; omega
    | ⟨1, _⟩ => show (c x).toNat < 3; rw [hc x]; omega

theorem chk1_of_rows (L : grid0.Coords) (rows : IVec S16 32) (r0 : ℕ) (hr : ∀ x : S16.Idx, (rows x).toNat = r0 + (x 0).val) (hr0 : r0 + 16 ≤ 480) : k0_chk1 L v6 v8 v10 rows :=
  ⟨fun _ => (idx_inb rows v6 r0 0 hr hr0 v6_toNat (by omega)).1, fun _ => (idx_inb rows v8 r0 1 hr hr0 v8_toNat (by omega)).1,
   fun _ => (idx_inb rows v10 r0 2 hr hr0 v10_toNat (by omega)).1, fun _ => (idx_inb rows v6 r0 0 hr hr0 v6_toNat (by omega)).2,
   fun _ => (idx_inb rows v8 r0 1 hr hr0 v8_toNat (by omega)).2, fun _ => (idx_inb rows v10 r0 2 hr hr0 v10_toNat (by omega)).2⟩

theorem chk2_of_rows (L : grid0.Coords) (rows : IVec S16 32) (r0 : ℕ) (hr : ∀ x : S16.Idx, (rows x).toNat = r0 + (x 0).val) (hr0 : r0 + 16 ≤ 480) : k0_chk2 L v6 v8 v10 rows :=
  ⟨fun _ => (idx_inb rows v6 r0 0 hr hr0 v6_toNat (by omega)).1, fun _ => (idx_inb rows v8 r0 1 hr hr0 v8_toNat (by omega)).1,
   fun _ => (idx_inb rows v10 r0 2 hr hr0 v10_toNat (by omega)).1, fun _ => (idx_inb rows v6 r0 0 hr hr0 v6_toNat (by omega)).2,
   fun _ => (idx_inb rows v8 r0 1 hr hr0 v8_toNat (by omega)).2, fun _ => (idx_inb rows v10 r0 2 hr hr0 v10_toNat (by omega)).2⟩

end Cert.Proof.VoxB

end
-- ==== Proof.ValueB.lean ====
/-
  What the chunk copies carry, read one element at a time.
  A chunk's copy-in places 480 consecutive rows of the point array in the float scratch, so the scratch's
  element (p, a) is the point array's element (first row of the chunk + p, a). Its copy-out places the word
  scratch in the same 480 rows of the result, so the result's element j of the chunk is the word scratch's
  element (row of j - first row of the chunk, column of j). When the word scratch holds the voxel word of
  every row of the float scratch, the chunk of the result therefore holds the voxel function of the points.
  The tail is the same with 400 rows, the first 400 of each scratch.
-/
import proofs.«218498_g40716289966699_cont_8to1_b_543_34_alg».proof.Proof.RowsB
import proofs.«218498_g40716289966699_cont_8to1_b_543_34_alg».proof.Proof.InnerB

noncomputable section

namespace Cert.Proof.VoxB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "sA" => (Memref.whole Cert.Kernel.cc0_scratch0 : Memref Cert.Kernel.sig Kind.scVector Space.vmem Cert.Kernel.S480x4 EltTy.f32)
local notation "sB" => (Memref.whole Cert.Kernel.cc0_scratch1 : Memref Cert.Kernel.sig Kind.scVector Space.vmem Cert.Kernel.S480x3 EltTy.i32)

abbrev sBfull : Memref sig .scVector .vmem S480x3 .i32 := (sB).slice (Rect.unit (s := S480x3) ![0, 0] S480x3.size Gen.inb_S480x3_S480x3_0_0) (fun _ => rfl)

/-! ## Row arithmetic -/

theorem chunk_row_lt (L : grid0.Coords) (h : k0_cond1 L = 1#1) (k : Fin k0_t1_loop.trips) (p : Fin 480) :
    20000 * (L 1).val + 10000 * (L 0).val + 480 * k.val + p.val < 300000 := by
  have hw := (cond_iff L).mp h
  unfold wid at hw
  have hk := trips_lt k
  have hp := p.isLt
  omega

/-- A rectangle at the origin with unit strides places each of its indices at the index with the same coordinates. -/
theorem unit0_emb {n0 n1 m0 m1 : ℕ} (inb : ∀ a, (![0, 0] : Fin 2 → ℕ) a + (![m0, m1] : Fin 2 → ℕ) a ≤ (⟨2, ![n0, n1]⟩ : Shape).size a)
    (y : (⟨2, ![m0, m1]⟩ : Shape).Idx) (c : Fin 2) :
    (((Rect.unit (s := ⟨2, ![n0, n1]⟩) ![0, 0] ![m0, m1] inb).emb y) c).val = (y c).val := by
  match c with
  | ⟨0, _⟩ => show 0 + 1 * (y 0).val = (y 0).val; omega
  | ⟨1, _⟩ => show 0 + 1 * (y 1).val = (y 1).val; omega

/-! ## The float scratch after a chunk's copy-in -/

theorem scratch_read (d : Dev nD) (L : grid0.Coords) (h : k0_cond1 L = 1#1) (k : Fin k0_t1_loop.trips)
    (X : Buf (Elt F) (xLoc d)) (A0 : Vec F S480x4 .f32) (p : Fin 480) (a : Fin 4) :
    ((sA).view.writes (Elt F) A0 [⟨Rect.unit ![0, 0] S480x4.size Gen.inb_S480x4_S480x4_0_0, ReadAs.same.apply (View.read (Elt F) (xChunk L h k).view X)⟩]) (ix2 p a)
      = X (ix2 (⟨20000 * (L 1).val + 10000 * (L 0).val + 480 * k.val + p.val, chunk_row_lt L h k p⟩ : Fin 300000) a) := by
  have he : (Rect.unit (s := S480x4) ![0, 0] S480x4.size Gen.inb_S480x4_S480x4_0_0).emb (ix2 p a) = ix2 p a := by
    funext c
    exact Fin.ext (unit0_emb Gen.inb_S480x4_S480x4_0_0 (ix2 p a) c)
  have hw := View.read_writes_cons_emb (sA).view A0 (Rect.unit (s := S480x4) ![0, 0] S480x4.size Gen.inb_S480x4_S480x4_0_0)
    (ReadAs.same.apply (View.read (Elt F) (xChunk L h k).view X)) [] (ix2 p a)
  rw [he] at hw
  refine Eq.trans hw ?_
  show X ((xChunk L h k).view.emb (ix2 p a)) = _
  congr 1
  funext c
  have hx := xChunk_emb L h k (ix2 p a)
  match c with
  | ⟨0, _⟩ => exact Fin.ext hx.1
  | ⟨1, _⟩ => exact Fin.ext hx.2

/-! ## A chunk of the result after the copy-out -/

theorem out_row_lt (L : grid0.Coords) (h : k0_cond1 L = 1#1) (k : Fin k0_t1_loop.trips) (j : S300000x3.Idx)
    (hj : j ∈ (oChunk L h k).view.set) :
    (j 0).val - (20000 * (L 1).val + 10000 * (L 0).val + 480 * k.val) < 480 := by
  rw [mem_oChunk] at hj
  omega

/-- The copy-out read at the element of the result that an index of the chunk names: the word scratch read
    at that index through its whole-extent slice. -/
theorem out_write_emb (d : Dev nD) (L : grid0.Coords) (h : k0_cond1 L = 1#1) (k : Fin k0_t1_loop.trips)
    (f : Buf (Elt F) (oLoc d)) (B : Vec F S480x3 .i32) (y : S480x3.Idx) :
    ((oChunk L h k).view.writes (Elt F) f [⟨Rect.whole S480x3, ReadAs.same.apply (View.read (Elt F) sBfull.view B)⟩]) ((oChunk L h k).view.emb y)
      = B (sBfull.view.emb y) := by
  have hw := View.read_writes_cons_emb (oChunk L h k).view f (Rect.whole S480x3)
    (ReadAs.same.apply (View.read (Elt F) sBfull.view B)) [] y
  rw [Rect.emb_whole_apply] at hw
  exact hw

/-- An element of the chunk's rows is named by the index with its row counted from the chunk's first row. -/
theorem oChunk_emb_of_bounds (L : grid0.Coords) (h : k0_cond1 L = 1#1) (k : Fin k0_t1_loop.trips) (j : S300000x3.Idx)
    (hlo : 20000 * (L 1).val + 10000 * (L 0).val + 480 * k.val ≤ (j 0).val)
    (hp : (j 0).val - (20000 * (L 1).val + 10000 * (L 0).val + 480 * k.val) < 480) :
    (oChunk L h k).view.emb
      (ix2 (⟨(j 0).val - (20000 * (L 1).val + 10000 * (L 0).val + 480 * k.val), hp⟩ : Fin 480)
        (⟨(j 1).val, idx2_lt1 j⟩ : Fin 3)) = j := by
  funext c
  have he := oChunk_emb L h k
    (ix2 (⟨(j 0).val - (20000 * (L 1).val + 10000 * (L 0).val + 480 * k.val), hp⟩ : Fin 480)
      (⟨(j 1).val, idx2_lt1 j⟩ : Fin 3))
  match c with
  | ⟨0, _⟩ =>
    exact Fin.ext (he.1.trans (by
      show 20000 * (L 1).val + 10000 * (L 0).val + 480 * k.val
        + ((j 0).val - (20000 * (L 1).val + 10000 * (L 0).val + 480 * k.val)) = (j 0).val
      omega))
  | ⟨1, _⟩ => exact Fin.ext he.2

/-- The whole-extent slice of the word scratch names each element by its own index. -/
theorem sBfull_emb (y : S480x3.Idx) : sBfull.view.emb y = y := by
  funext c
  exact Fin.ext (unit0_emb Gen.inb_S480x3_S480x3_0_0 _ c)

/-- The copy-out read at an element of the chunk's rows, the rows given by their bounds. -/
theorem out_read_of_bounds (d : Dev nD) (L : grid0.Coords) (h : k0_cond1 L = 1#1) (k : Fin k0_t1_loop.trips)
    (f : Buf (Elt F) (oLoc d)) (B : Vec F S480x3 .i32) (j : S300000x3.Idx)
    (hlo : 20000 * (L 1).val + 10000 * (L 0).val + 480 * k.val ≤ (j 0).val)
    (hp : (j 0).val - (20000 * (L 1).val + 10000 * (L 0).val + 480 * k.val) < 480) :
    ((oChunk L h k).view.writes (Elt F) f [⟨Rect.whole S480x3, ReadAs.same.apply (View.read (Elt F) sBfull.view B)⟩]) j
      = B (ix2 (⟨(j 0).val - (20000 * (L 1).val + 10000 * (L 0).val + 480 * k.val), hp⟩ : Fin 480)
          (⟨(j 1).val, idx2_lt1 j⟩ : Fin 3)) :=
  (congrArg ((oChunk L h k).view.writes (Elt F) f [⟨Rect.whole S480x3, ReadAs.same.apply (View.read (Elt F) sBfull.view B)⟩])
      (oChunk_emb_of_bounds L h k j hlo hp)).symm.trans
    ((out_write_emb d L h k f B _).trans (congrArg B (sBfull_emb _)))

theorem out_read (d : Dev nD) (L : grid0.Coords) (h : k0_cond1 L = 1#1) (k : Fin k0_t1_loop.trips)
    (f : Buf (Elt F) (oLoc d)) (B : Vec F S480x3 .i32) (j : S300000x3.Idx) (hj : j ∈ (oChunk L h k).view.set) :
    ((oChunk L h k).view.writes (Elt F) f [⟨Rect.whole S480x3, ReadAs.same.apply (View.read (Elt F) sBfull.view B)⟩]) j
      = B (ix2 (⟨(j 0).val - (20000 * (L 1).val + 10000 * (L 0).val + 480 * k.val), out_row_lt L h k j hj⟩ : Fin 480)
          (⟨(j 1).val, idx2_lt1 j⟩ : Fin 3)) :=
  out_read_of_bounds d L h k f B j ((mem_oChunk L h k j).mp hj).1 (out_row_lt L h k j hj)

/-! ## A chunk of the result is the voxel function of the points -/

/-- The voxel word of a row of a float scratch whose first three columns at that row are a row of the points. -/
theorem cellA_of_rows (A : Vec F S480x4 .f32) (X : FVec F Voxel.SIn .f32) (y : S480x3.Idx) (p : Fin 480) (r : Fin 300000) (c : Fin 3)
    (hp : (y 0).val = p.val)
    (h0 : A (ix2 p (0 : Fin 4)) = X (ix2 r 0)) (h1 : A (ix2 p (1 : Fin 4)) = X (ix2 r 1)) (h2 : A (ix2 p (2 : Fin 4)) = X (ix2 r 2))
    (hc : (y 1).val = c.val) :
    cellA A y = Voxel.cell (F := F) (X (ix2 r 0)) (X (ix2 r 1)) (X (ix2 r 2)) c := by
  have e0 : (⟨(y 0).val, idx2_lt0 y⟩ : Fin 480) = p := Fin.ext hp
  have e1 : (⟨(y 1).val, idx2_lt1 y⟩ : Fin 3) = c := Fin.ext hc
  unfold cellA
  rw [e0, e1, h0, h1, h2]

/-- The voxel word of a row of the float scratch after the copy-in is the voxel function of the points at the
    row of the point array it was copied from. -/
theorem cellA_chunk (d : Dev nD) (L : grid0.Coords) (h : k0_cond1 L = 1#1) (k : Fin k0_t1_loop.trips)
    (X : Buf (Elt F) (xLoc d)) (A0 : Vec F S480x4 .f32) (j : S300000x3.Idx)
    (hlo : 20000 * (L 1).val + 10000 * (L 0).val + 480 * k.val ≤ (j 0).val)
    (hp : (j 0).val - (20000 * (L 1).val + 10000 * (L 0).val + 480 * k.val) < 480) :
    cellA ((sA).view.writes (Elt F) A0 [⟨Rect.unit ![0, 0] S480x4.size Gen.inb_S480x4_S480x4_0_0, ReadAs.same.apply (View.read (Elt F) (xChunk L h k).view X)⟩])
        (ix2 (⟨(j 0).val - (20000 * (L 1).val + 10000 * (L 0).val + 480 * k.val), hp⟩ : Fin 480) (⟨(j 1).val, idx2_lt1 j⟩ : Fin 3))
      = Voxel.grid (F := F) X j := by
  have e : (⟨20000 * (L 1).val + 10000 * (L 0).val + 480 * k.val
        + ((j 0).val - (20000 * (L 1).val + 10000 * (L 0).val + 480 * k.val)),
        chunk_row_lt L h k ⟨(j 0).val - (20000 * (L 1).val + 10000 * (L 0).val + 480 * k.val), hp⟩⟩ : Fin 300000)
      = Voxel.rowOf j := Fin.ext (by show _ + (_ - _) = (j 0).val; omega)
  exact cellA_of_rows _ X _ ⟨(j 0).val - (20000 * (L 1).val + 10000 * (L 0).val + 480 * k.val), hp⟩ (Voxel.rowOf j) (Voxel.colOf j) rfl
    ((scratch_read d L h k X A0 ⟨(j 0).val - (20000 * (L 1).val + 10000 * (L 0).val + 480 * k.val), hp⟩ 0).trans (congrArg (fun r => X (ix2 r (0 : Fin 4))) e))
    ((scratch_read d L h k X A0 ⟨(j 0).val - (20000 * (L 1).val + 10000 * (L 0).val + 480 * k.val), hp⟩ 1).trans (congrArg (fun r => X (ix2 r (1 : Fin 4))) e))
    ((scratch_read d L h k X A0 ⟨(j 0).val - (20000 * (L 1).val + 10000 * (L 0).val + 480 * k.val), hp⟩ 2).trans (congrArg (fun r => X (ix2 r (2 : Fin 4))) e))
    rfl

theorem chunk_value (d : Dev nD) (L : grid0.Coords) (h : k0_cond1 L = 1#1) (k : Fin k0_t1_loop.trips)
    (X : Buf (Elt F) (xLoc d)) (f : Buf (Elt F) (oLoc d)) (A0 : Vec F S480x4 .f32) (A : Vec F S480x4 .f32) (B : Vec F S480x3 .i32)
    (hA : A = (sA).view.writes (Elt F) A0 [⟨Rect.unit ![0, 0] S480x4.size Gen.inb_S480x4_S480x4_0_0, ReadAs.same.apply (View.read (Elt F) (xChunk L h k).view X)⟩])
    (hB : ∀ y, B y = cellA A y) :
    ∀ j ∈ (oChunk L h k).view.set, ((oChunk L h k).view.writes (Elt F) f [⟨Rect.whole S480x3, ReadAs.same.apply (View.read (Elt F) sBfull.view B)⟩]) j = Voxel.grid (F := F) X j :=
  fun j hj =>
    (out_read_of_bounds d L h k f B j ((mem_oChunk L h k j).mp hj).1 (out_row_lt L h k j hj)).trans
      ((hB _).trans (hA ▸ cellA_chunk d L h k X A0 j ((mem_oChunk L h k j).mp hj).1 (out_row_lt L h k j hj)))

/-! ## The tail: 400 rows, the first 400 of each scratch -/

abbrev sBtail : Memref sig .scVector .vmem S400x3 .i32 := (sB).slice (Rect.unit (s := S480x3) ![0, 0] S400x3.size Gen.inb_S480x3_S400x3_0_0) (fun _ => rfl)

theorem tail_row_lt (L : grid0.Coords) (h : k0_cond1 L = 1#1) (p : ℕ) (hp : p < 400) :
    20000 * (L 1).val + 10000 * (L 0).val + 9600 + p < 300000 := by
  have hw := (cond_iff L).mp h
  unfold wid at hw
  omega

theorem scratch_read_tail (d : Dev nD) (L : grid0.Coords) (h : k0_cond1 L = 1#1)
    (X : Buf (Elt F) (xLoc d)) (A0 : Vec F S480x4 .f32) (p : Fin 480) (hp : p.val < 400) (a : Fin 4) :
    ((sA).view.writes (Elt F) A0 [⟨Rect.unit ![0, 0] S400x4.size Gen.inb_S480x4_S400x4_0_0, ReadAs.same.apply (View.read (Elt F) (xTail L h).view X)⟩]) (ix2 p a)
      = X (ix2 (⟨20000 * (L 1).val + 10000 * (L 0).val + 9600 + p.val, tail_row_lt L h p.val hp⟩ : Fin 300000) a) := by
  have he : (Rect.unit (s := S480x4) ![0, 0] S400x4.size Gen.inb_S480x4_S400x4_0_0).emb (ix2 (⟨p.val, hp⟩ : Fin 400) a) = ix2 p a := by
    funext c
    refine Fin.ext ((unit0_emb Gen.inb_S480x4_S400x4_0_0 (ix2 (⟨p.val, hp⟩ : Fin 400) a) c).trans ?_)
    match c with
    | ⟨0, _⟩ => rfl
    | ⟨1, _⟩ => rfl
  have hw := View.read_writes_cons_emb (sA).view A0 (Rect.unit (s := S480x4) ![0, 0] S400x4.size Gen.inb_S480x4_S400x4_0_0)
    (ReadAs.same.apply (View.read (Elt F) (xTail L h).view X)) [] (ix2 (⟨p.val, hp⟩ : Fin 400) a)
  rw [he] at hw
  refine Eq.trans hw ?_
  show X ((xTail L h).view.emb (ix2 (⟨p.val, hp⟩ : Fin 400) a)) = _
  congr 1
  have hx := xTail_emb L h (ix2 (⟨p.val, hp⟩ : Fin 400) a)
  exact funext (Fin.forall_fin_two.mpr ⟨Fin.ext hx.1, Fin.ext hx.2⟩)

/-- Reading contents through the tail's view of the result is reading them at the element the view names. -/
theorem oTail_read_apply (L : grid0.Coords) (h : k0_cond1 L = 1#1) (g : (oTail L h).view.ty.Contents (Elt F)) (y : S400x3.Idx) :
    (oTail L h).view.read (Elt F) g y = g ((oTail L h).view.emb y) := rfl

/-- Reading the word scratch through its first-400-rows slice is reading it at the element the slice names. -/
theorem sBtail_read_apply (B : Vec F S480x3 .i32) (y : S400x3.Idx) :
    ReadAs.same.apply (View.read (Elt F) sBtail.view B) y = B (sBtail.view.emb y) := rfl

theorem out_write_emb_tail (d : Dev nD) (L : grid0.Coords) (h : k0_cond1 L = 1#1)
    (f : Buf (Elt F) (oLoc d)) (B : Vec F S480x3 .i32) (y : S400x3.Idx) :
    ((oTail L h).view.writes (Elt F) f [⟨Rect.whole S400x3, ReadAs.same.apply (View.read (Elt F) sBtail.view B)⟩]) ((oTail L h).view.emb y)
      = B (sBtail.view.emb y) :=
  (oTail_read_apply L h _ y).symm.trans
    ((congrArg ((oTail L h).view.read (Elt F) ((oTail L h).view.writes (Elt F) f [⟨Rect.whole S400x3, ReadAs.same.apply (View.read (Elt F) sBtail.view B)⟩]))
        (Rect.emb_whole_apply S400x3 y)).symm.trans
      ((View.read_writes_cons_emb (oTail L h).view f (Rect.whole S400x3)
        (ReadAs.same.apply (View.read (Elt F) sBtail.view B)) [] y).trans (sBtail_read_apply B y)))

/-- The first-400-rows slice of the word scratch names each element by the index with the same coordinates. -/
theorem sBtail_emb (p : Fin 480) (hp : p.val < 400) (q : Fin 3) :
    sBtail.view.emb (ix2 (⟨p.val, hp⟩ : Fin 400) q) = ix2 p q := by
  funext c
  refine Fin.ext ((unit0_emb Gen.inb_S480x3_S400x3_0_0 (ix2 (⟨p.val, hp⟩ : Fin 400) q) c).trans ?_)
  match c with
  | ⟨0, _⟩ => rfl
  | ⟨1, _⟩ => rfl

/-- The element of the result in row (first row of the tail + p) and column (column of j) is named by the tail's
    index (p, column of j). -/
theorem oTail_emb_at (L : grid0.Coords) (h : k0_cond1 L = 1#1) (j : S300000x3.Idx) (p : Fin 480) (hp : p.val < 400)
    (hpj : (j 0).val = 20000 * (L 1).val + 10000 * (L 0).val + 9600 + p.val) :
    (oTail L h).view.emb (ix2 (⟨p.val, hp⟩ : Fin 400) (⟨(j 1).val, idx2_lt1 j⟩ : Fin 3)) = j := by
  have he := oTail_emb L h (ix2 (⟨p.val, hp⟩ : Fin 400) (⟨(j 1).val, idx2_lt1 j⟩ : Fin 3))
  exact funext (Fin.forall_fin_two.mpr ⟨Fin.ext (he.1.trans hpj.symm), Fin.ext he.2⟩)

/-- The tail's copy-out read at the element in row (first row of the tail + p). -/
theorem out_read_tail_at (d : Dev nD) (L : grid0.Coords) (h : k0_cond1 L = 1#1)
    (f : Buf (Elt F) (oLoc d)) (B : Vec F S480x3 .i32) (j : S300000x3.Idx) (p : Fin 480) (hp : p.val < 400)
    (hpj : (j 0).val = 20000 * (L 1).val + 10000 * (L 0).val + 9600 + p.val) :
    ((oTail L h).view.writes (Elt F) f [⟨Rect.whole S400x3, ReadAs.same.apply (View.read (Elt F) sBtail.view B)⟩]) j
      = B (ix2 p (⟨(j 1).val, idx2_lt1 j⟩ : Fin 3)) :=
  (congrArg ((oTail L h).view.writes (Elt F) f [⟨Rect.whole S400x3, ReadAs.same.apply (View.read (Elt F) sBtail.view B)⟩])
      (oTail_emb_at L h j p hp hpj)).symm.trans
    ((out_write_emb_tail d L h f B _).trans (congrArg B (sBtail_emb p hp ⟨(j 1).val, idx2_lt1 j⟩)))

theorem out_tail_row_lt (L : grid0.Coords) (h : k0_cond1 L = 1#1) (j : S300000x3.Idx) (hj : j ∈ (oTail L h).view.set) :
    (j 0).val - (20000 * (L 1).val + 10000 * (L 0).val + 9600) < 400 := by
  rw [mem_oTail] at hj
  omega

theorem out_tail_row_eq (L : grid0.Coords) (h : k0_cond1 L = 1#1) (j : S300000x3.Idx) (hj : j ∈ (oTail L h).view.set) :
    (j 0).val = 20000 * (L 1).val + 10000 * (L 0).val + 9600 + ((j 0).val - (20000 * (L 1).val + 10000 * (L 0).val + 9600)) := by
  rw [mem_oTail] at hj
  omega

theorem out_read_tail (d : Dev nD) (L : grid0.Coords) (h : k0_cond1 L = 1#1)
    (f : Buf (Elt F) (oLoc d)) (B : Vec F S480x3 .i32) (j : S300000x3.Idx) (hj : j ∈ (oTail L h).view.set) :
    ((oTail L h).view.writes (Elt F) f [⟨Rect.whole S400x3, ReadAs.same.apply (View.read (Elt F) sBtail.view B)⟩]) j
      = B (ix2 (⟨(j 0).val - (20000 * (L 1).val + 10000 * (L 0).val + 9600), Nat.lt_of_lt_of_le (out_tail_row_lt L h j hj) (by decide)⟩ : Fin 480)
          (⟨(j 1).val, idx2_lt1 j⟩ : Fin 3)) :=
  out_read_tail_at d L h f B j ⟨(j 0).val - (20000 * (L 1).val + 10000 * (L 0).val + 9600), Nat.lt_of_lt_of_le (out_tail_row_lt L h j hj) (by decide)⟩
    (out_tail_row_lt L h j hj) (out_tail_row_eq L h j hj)

/-- The tail's value at the element in row (first row of the tail + p). -/
theorem tail_value_at (d : Dev nD) (L : grid0.Coords) (h : k0_cond1 L = 1#1)
    (X : Buf (Elt F) (xLoc d)) (f : Buf (Elt F) (oLoc d)) (A0 : Vec F S480x4 .f32) (B : Vec F S480x3 .i32)
    (hB : ∀ y : S480x3.Idx, (y 0).val < 400 → B y = cellA ((sA).view.writes (Elt F) A0 [⟨Rect.unit ![0, 0] S400x4.size Gen.inb_S480x4_S400x4_0_0, ReadAs.same.apply (View.read (Elt F) (xTail L h).view X)⟩]) y)
    (j : S300000x3.Idx) (p : Fin 480) (hp : p.val < 400)
    (hpj : (j 0).val = 20000 * (L 1).val + 10000 * (L 0).val + 9600 + p.val) :
    ((oTail L h).view.writes (Elt F) f [⟨Rect.whole S400x3, ReadAs.same.apply (View.read (Elt F) sBtail.view B)⟩]) j = Voxel.grid (F := F) X j := by
  have e : (⟨20000 * (L 1).val + 10000 * (L 0).val + 9600 + p.val, tail_row_lt L h p.val hp⟩ : Fin 300000) = Voxel.rowOf j :=
    Fin.ext hpj.symm
  exact (out_read_tail_at d L h f B j p hp hpj).trans
    ((hB (ix2 p (⟨(j 1).val, idx2_lt1 j⟩ : Fin 3)) hp).trans
      (cellA_of_rows _ X (ix2 p (⟨(j 1).val, idx2_lt1 j⟩ : Fin 3)) p (Voxel.rowOf j) (Voxel.colOf j) rfl
        ((scratch_read_tail d L h X A0 p hp 0).trans (congrArg (fun r => X (ix2 r (0 : Fin 4))) e))
        ((scratch_read_tail d L h X A0 p hp 1).trans (congrArg (fun r => X (ix2 r (1 : Fin 4))) e))
        ((scratch_read_tail d L h X A0 p hp 2).trans (congrArg (fun r => X (ix2 r (2 : Fin 4))) e))
        rfl))

theorem tail_value (d : Dev nD) (L : grid0.Coords) (h : k0_cond1 L = 1#1)
    (X : Buf (Elt F) (xLoc d)) (f : Buf (Elt F) (oLoc d)) (A0 : Vec F S480x4 .f32) (A : Vec F S480x4 .f32) (B : Vec F S480x3 .i32)
    (hA : A = (sA).view.writes (Elt F) A0 [⟨Rect.unit ![0, 0] S400x4.size Gen.inb_S480x4_S400x4_0_0, ReadAs.same.apply (View.read (Elt F) (xTail L h).view X)⟩])
    (hB : ∀ y : S480x3.Idx, (y 0).val < 400 → B y = cellA A y) :
    ∀ j ∈ (oTail L h).view.set, ((oTail L h).view.writes (Elt F) f [⟨Rect.whole S400x3, ReadAs.same.apply (View.read (Elt F) sBtail.view B)⟩]) j = Voxel.grid (F := F) X j :=
  fun j hj =>
    tail_value_at d L h X f A0 B (fun y hy => hA ▸ hB y hy) j
      ⟨(j 0).val - (20000 * (L 1).val + 10000 * (L 0).val + 9600), Nat.lt_of_lt_of_le (out_tail_row_lt L h j hj) (by decide)⟩
      (out_tail_row_lt L h j hj) (out_tail_row_eq L h j hj)

end Cert.Proof.VoxB

end
-- ==== Proof.TileB.lean ====
/-
  One vector subcore's task. Worker w = 2 i + c < 30 converts rows [10000 w, 10000 (w + 1)) in twenty chunks of
  480 rows and a tail of 400: a chunk of the points is copied into the float scratch, sixteen rows at a time
  the three coordinates of each point are gathered, turned into the voxel word of each column and scattered
  into the word scratch, and the word scratch is copied to the same rows of the result. The invariant of the
  chunk loop: the worker's rows below the current chunk hold the voxel function of the points, the others
  their launch contents. The invariant of the row loop: the word scratch's rows below the current sixteen
  hold the voxel words of the float scratch's rows. The two last workers do nothing and own no row.
-/
import proofs.«218498_g40716289966699_cont_8to1_b_543_34_alg».proof.Proof.RowsB
import proofs.«218498_g40716289966699_cont_8to1_b_543_34_alg».proof.Proof.InnerB
import proofs.«218498_g40716289966699_cont_8to1_b_543_34_alg».proof.Proof.ValueB

noncomputable section

namespace Cert.Proof.VoxB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xV" => (Memref.whole Cert.Kernel.main_arg0_scv : Memref Cert.Kernel.sig Kind.scVector Space.hbm Cert.Kernel.S300000x4 EltTy.f32)
local notation "oV" => (Memref.whole Cert.Kernel.main_v0_scv : Memref Cert.Kernel.sig Kind.scVector Space.hbm Cert.Kernel.S300000x3 EltTy.i32)
local notation "sA" => (Memref.whole Cert.Kernel.cc0_scratch0 : Memref Cert.Kernel.sig Kind.scVector Space.vmem Cert.Kernel.S480x4 EltTy.f32)
local notation "sB" => (Memref.whole Cert.Kernel.cc0_scratch1 : Memref Cert.Kernel.sig Kind.scVector Space.vmem Cert.Kernel.S480x3 EltTy.i32)

variable [FloatOps F]

/-! ## Contents of the word scratch during the row loop -/

/-- Rows below `16 t` hold the voxel words of `A`'s rows, the others what the scratch held before. -/
def Bt (A : Vec F S480x4 .f32) (B0 : Vec F S480x3 .i32) (t : ℕ) : Vec F S480x3 .i32 :=
  fun y => if (y 0).val < 16 * t then cellA A y else B0 y

theorem Bt_zero (A : Vec F S480x4 .f32) (B0 : Vec F S480x3 .i32) : Bt A B0 0 = B0 := by
  funext y; unfold Bt; simp

theorem Bt_succ (A : Vec F S480x4 .f32) (B0 : Vec F S480x3 .i32) (t : ℕ) :
    (fun y : S480x3.Idx => if 16 * t ≤ (y 0).val ∧ (y 0).val < 16 * t + 16 then cellA A y else Bt A B0 t y) = Bt A B0 (t + 1) := by
  funext y; unfold Bt
  by_cases h1 : (y 0).val < 16 * t
  · have h2 : ¬ (16 * t ≤ (y 0).val ∧ (y 0).val < 16 * t + 16) := by omega
    have h3 : (y 0).val < 16 * (t + 1) := by omega
    rw [if_neg h2, if_pos h1, if_pos h3]
  · by_cases h2 : (y 0).val < 16 * t + 16
    · have h3 : (y 0).val < 16 * (t + 1) := by omega
      rw [if_pos ⟨by omega, h2⟩, if_pos h3]
    · have h3 : ¬ (y 0).val < 16 * (t + 1) := by omega
      have h4 : ¬ (16 * t ≤ (y 0).val ∧ (y 0).val < 16 * t + 16) := by omega
      rw [if_neg h4, if_neg h1, if_neg h3]

theorem Bt_cover (A : Vec F S480x4 .f32) (B0 : Vec F S480x3 .i32) (t : ℕ) (y : S480x3.Idx) (hy : (y 0).val < 16 * t) : Bt A B0 t y = cellA A y := by
  unfold Bt; rw [if_pos hy]

theorem trips1 : Scf.trips k0_t1_loop.lb k0_t1_loop.ub k0_t1_loop.st = 20 := by decide
theorem trips2 : Scf.trips k0_t2_loop.lb k0_t2_loop.ub k0_t2_loop.st = 30 := by decide
theorem trips3 : Scf.trips k0_t3_loop.lb k0_t3_loop.ub k0_t3_loop.st = 25 := by decide

section Tile

variable (d : Dev nD) (L : grid0.Coords)

abbrev cV (L : grid0.Coords) : Fin τ.nSC := (L 0).castLE hcore0
abbrev jV (L : grid0.Coords) : Fin τ.nSub := (L 1).castLE hsub0

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)
abbrev c3cell (d : Dev nD) (c : Fin τ.nSC) (i : Fin τ.nSub) : GSem nD τ sig := (V d c i, .dma cc0_scoped3.sem)
omit [FloatOps F] in
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0 ∗ semVal (c3cell d (cV L) (jV L)) 0
          ∗ bigSep (((((ownCells (V d (cV L) (jV L))).erase (c0cell d (cV L) (jV L))).erase (c1cell d (cV L) (jV L))).erase (c2cell d (cV L) (jV L))).erase (c3cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩),
    SparseCore.bigSep_erase' (Finset.mem_erase.mpr ⟨by simp [c2cell, c3cell]; decide, Finset.mem_erase.mpr ⟨by simp [c1cell, c3cell]; decide, Finset.mem_erase.mpr ⟨by simp [c0cell, c3cell]; decide,
      (mem_ownCells (g := c3cell d (cV L) (jV L))).mpr ⟨rfl, by show (SemLoc.dma cc0_scoped3.sem : SemLoc sig).isScoped .scVector = true; decide⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_name {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

omit [FloatOps F] in
theorem pts_eq {ℓ : Loc nD τ sig} {S : Finset (Idx ℓ)} {q : PosShare TreeShare} {f g : Buf (Elt F) ℓ} (h : f = g) :
    (ℓ ↦[S]{q} f : sProp 𝕄) ⊢ ℓ ↦[S]{q} g := h ▸ BI.Entails.refl _

omit [FloatOps F] in
theorem pts_A_access (f : Buf (Elt F) ((V d (cV L) (jV L)).loc cc0_scratch0)) :
    (((sA).access (.whole S480x4)).loc (V d (cV L) (jV L)) ↦{fullShare} f : sProp 𝕄) = (sA).view.loc (V d (cV L) (jV L)) ↦{fullShare} f := rfl
omit [FloatOps F] in
theorem pts_B_access (f : Buf (Elt F) ((V d (cV L) (jV L)).loc cc0_scratch1)) :
    (((sB).access (.whole S480x3)).loc (V d (cV L) (jV L)) ↦[((sB).access (.whole S480x3)).set]{fullShare} f : sProp 𝕄) = (sB).view.loc (V d (cV L) (jV L)) ↦{fullShare} f := by
  have h : ((sB).access (.whole S480x3)).set = Finset.univ := Memref.set_access_whole cc0_scratch1
  rw [h]
omit [FloatOps F] in
theorem pts_oChunk (h : k0_cond1 L = 1#1) (k : Fin k0_t1_loop.trips) (f : Buf (Elt F) (oLoc d)) :
    ((oChunk L h k).view.loc (V d (cV L) (jV L)) ↦[(oChunk L h k).view.set]{fullShare} f : sProp 𝕄) = oLoc d ↦[(oChunk L h k).view.set]{fullShare} f := rfl
omit [FloatOps F] in
theorem pts_oTail (h : k0_cond1 L = 1#1) (f : Buf (Elt F) (oLoc d)) :
    ((oTail L h).view.loc (V d (cV L) (jV L)) ↦[(oTail L h).view.set]{fullShare} f : sProp 𝕄) = oLoc d ↦[(oTail L h).view.set]{fullShare} f := rfl

/-- The first row of the worker's part. -/
abbrev lo (L : grid0.Coords) : ℕ := 20000 * (L 1).val + 10000 * (L 0).val

/-- The row loop's invariant: the float scratch at `A`, the word scratch filled below row `16 t`. -/
def invI (A : Vec F S480x4 .f32) (B0 : Vec F S480x3 .i32) (t : Nat) (_ : PUnit) : sProp 𝕄 :=
  iprop(((sA).view.loc (V d (cV L) (jV L)) ↦{fullShare} A) ∗ ((sB).view.loc (V d (cV L) (jV L)) ↦{fullShare} Bt A B0 t))

/-- The chunk loop's invariant: the worker's rows below chunk `k` converted. -/
def invO (O : CellTallies nD τ sig (HIx 1)) (W : Waits sig (HIx 1)) (k : Nat) (_ : PUnit) : sProp 𝕄 :=
  iprop(Transfers.MayWaits (V d (cV L) (jV L)) (none : HIx 1) O
    ∗ ((xV).view.loc (V d (cV L) (jV L)) ↦{tokT (L 0).val (L 1).val} m (xLoc d))
    ∗ ((oV).view.loc (V d (cV L) (jV L)) ↦[rowsOf (L 0).val (L 1).val]{fullShare} outAt m d (lo L + 480 * k))
    ∗ (∃ fa, (sA).view.loc (V d (cV L) (jV L)) ↦{fullShare} fa)
    ∗ (∃ fb, (sB).view.loc (V d (cV L) (jV L)) ↦{fullShare} fb)
    ∗ semVal (c0cell d (cV L) (jV L)) 0 ∗ semVal (c1cell d (cV L) (jV L)) 0
    ∗ ∃ W', ⌜∀ p ∈ W', p ∈ W ∨ p.2 = none⌝ ∗ owes (V d (cV L) (jV L)) O W')

/-- A subcore with no work: nothing runs, and it owns no row. -/
theorem tile_idle (hF : (K (F := F)).Facts) (O : CellTallies nD τ sig (HIx 1)) (W : Waits sig (HIx 1)) (hO : ∀ g, O g none = 0)
    (k0_h1 : ¬ k0_cond1 L = 1#1) :
    iprop(levAts (K (F := F)).L (K (F := F)).lev ∗ emp ∗ tilePts m d (L 0).val (L 1).val (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_voxel_sc L xV (Memref.isWhole_whole _) oV (Memref.isWhole_whole _) sA (Memref.isWhole_whole _) sB (Memref.isWhole_whole _)
            cc0_scoped0 cc0_scoped1 cc0_scoped2 cc0_scoped3)
          fun _ => iprop(tilePts m d (L 0).val (L 1).val (gout m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_voxel_sc_eq_skeleton]; unfold cc0_voxel_sc_skel
  unfold tilePts
  iintro ⟨-, -, ⟨Hx, Ho⟩, Hsb, Hss, HO⟩
  sl_exec
  sl_step
  isplitl [Hx Ho]
  · isplitl [Hx]; · iexact Hx
    iapply (Entails.of_eq (pointsTo_congr (f := m (oLoc d)) (g := gout m d) (fun j hj => absurd ((cond_iff L).mpr (mem_rowsOf.mp hj).1) k0_h1)))
    iexact Ho
  isplitl [Hsb]; · iexact Hsb
  isplitl [Hss]; · iexact Hss
  iexists W; isplitr
  · ipureintro; exact fun p hp => .inl hp
  · iexact HO

set_option maxHeartbeats 4000000 in
/-- A working subcore: twenty chunks and the tail. -/
theorem tile_work (hF : (K (F := F)).Facts) (O : CellTallies nD τ sig (HIx 1)) (W : Waits sig (HIx 1)) (hO : ∀ g, O g none = 0)
    (k0_h1 : k0_cond1 L = 1#1) :
    iprop(levAts (K (F := F)).L (K (F := F)).lev ∗ emp ∗ tilePts m d (L 0).val (L 1).val (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_voxel_sc L xV (Memref.isWhole_whole _) oV (Memref.isWhole_whole _) sA (Memref.isWhole_whole _) sB (Memref.isWhole_whole _)
            cc0_scoped0 cc0_scoped1 cc0_scoped2 cc0_scoped3)
          fun _ => iprop(tilePts m d (L 0).val (L 1).val (gout m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_voxel_sc_eq_skeleton]; unfold cc0_voxel_sc_skel
  simp only [k0_part1_eq_skeleton]; unfold k0_part1_skel
  simp only [bind_assoc]
  rw [(K (F := F)).scopedBufs_V hF d (cV L) (jV L), SparseCore.Cfg.scopedSems0_V (Val := Elt F) d (cV L) (jV L), ownSems0_V, ownBufs_V]
  unfold tilePts
  iintro ⟨#Hlv, -, ⟨Hx, Ho⟩, ⟨⟨%fa, Ha⟩, ⟨%fb, Hb⟩, Hbufs⟩, ⟨Hs0, Hs1, Hs2, Hs3, Hsems⟩, HO⟩
  ihave Hmw := ((K (F := F)).mayWaits_none (thr := V d (cV L) (jV L)) hO) $$ Hlv
  sl_exec
  sl_for (invO m d L O W) $$ [Hmw Hx Ho Ha Hb Hs0 Hs1 HO]
  case region =>
    intro k _
    unfold invO
    iintro ⟨Hmw, Hx, Ho, ⟨%fa, Ha⟩, ⟨%fb, Hb⟩, Hs0, Hs1, %W', %hW', HO⟩
    -- the chunk's points into the float scratch
    sl_exec
    ihave Ha2 := (pts_name _) $$ Ha
    icases Ha2 with ⟨%A, %hA, Ha⟩
    -- the row loop
    sl_for (invI d L A fb) $$ [Ha Hb]
    case region =>
      intro t _
      unfold invI
      iintro ⟨Ha, Hb⟩
      have ht : t.val < 30 := Nat.lt_of_lt_of_le t.isLt k0_t2_abs.2.1
      have hchk : k0_chk1 L (broadcast S16 0#32) (k0_pay1 (broadcast S16 0#32)) (k0_pay2 (broadcast S16 0#32)) (k0_pay4 t) :=
        chk1_of_rows L (k0_pay4 t) (16 * t.val) (pay4_toNat t) (by omega)
      sl_exec
      ihave Ha' := (Entails.of_eq (pts_A_access (F := F) d L _).symm) $$ Ha
      iapply (SparseCore.wp_vectorLoadIdx 𝒱₀ (V d (cV L) (jV L)) none Set.univ (base := sA) (S := Finset.univ) (q := fullShare) (Finset.subset_univ _)) $$ Ha'; iintro Ha'
      iapply (SparseCore.wp_vectorLoadIdx 𝒱₀ (V d (cV L) (jV L)) none Set.univ (base := sA) (S := Finset.univ) (q := fullShare) (Finset.subset_univ _)) $$ Ha'; iintro Ha'
      iapply (SparseCore.wp_vectorLoadIdx 𝒱₀ (V d (cV L) (jV L)) none Set.univ (base := sA) (S := Finset.univ) (q := fullShare) (Finset.subset_univ _)) $$ Ha'; iintro Ha'
      ihave Hb' := (Entails.of_eq (pts_B_access (F := F) d L _).symm) $$ Hb
      iapply (SparseCore.wp_vectorStoreIdx 𝒱₀ (V d (cV L) (jV L)) none Set.univ (base := sB)) $$ Hb'; iintro Hb'
      iapply (SparseCore.wp_vectorStoreIdx 𝒱₀ (V d (cV L) (jV L)) none Set.univ (base := sB)) $$ Hb'; iintro Hb'
      iapply (SparseCore.wp_vectorStoreIdx 𝒱₀ (V d (cV L) (jV L)) none Set.univ (base := sB)) $$ Hb'; iintro Hb'
      simp only [Memref.read_access_whole, Memref.write_access_whole_univ]
      sl_step
      isplitl [Ha']
      · iapply (Entails.of_eq (pts_A_access (F := F) d L _)); iexact Ha'
      · ihave Hb := (Entails.of_eq (pts_B_access (F := F) d L _)) $$ Hb'
        iapply (pts_eq ((trip_value A (Bt A fb t.val) (k0_pay4 t) (16 * t.val) (pay4_toNat t) (by omega) _ _ _ _ _ _).trans (Bt_succ A fb t.val)))
        iexact Hb
    · unfold invI
      isplitl [Ha]; · iexact Ha
      rw [Bt_zero]; iexact Hb
    iintro %_ HI
    unfold invI
    icases HI with ⟨Ha, Hb⟩
    -- the chunk's rows of the result, carved out of the worker's rows
    ihave Hsp := (pointsTo_split_subset (q := fullShare) (f := outAt m d (lo L + 480 * k.val)) (oChunk_sub L k0_h1 k)).1 $$ Ho
    icases Hsp with ⟨Hoc, Hor⟩
    ihave Hoc' := (Entails.of_eq (pts_oChunk (F := F) d L k0_h1 k _).symm) $$ Hoc
    sl_exec
    sl_step
    isplitl [Hmw]; · iexact Hmw
    isplitl [Hx]; · iexact Hx
    isplitl [Hoc' Hor]
    · ihave Hoc := (Entails.of_eq (pts_oChunk (F := F) d L k0_h1 k _)) $$ Hoc'
      ihave Hj := (pointsTo_join_subset (ℓ := oLoc d) (q := fullShare) (oChunk_sub L k0_h1 k)) $$ [Hoc Hor]
      · isplitl [Hoc] <;> iassumption
      iapply (Entails.of_eq (pointsTo_congr (outAt_step m d L k0_h1 k _
        (chunk_value d L k0_h1 k (m (xLoc d)) _ _ A _ hA (fun y => Bt_cover A fb (Scf.trips k0_t2_loop.lb k0_t2_loop.ub k0_t2_loop.st) y (by rw [trips2]; have := ValueIdx.idx2_lt0 y; omega))))))
      iexact Hj
    isplitl [Ha]; · iexists _; iexact Ha
    isplitl [Hb]; · iexists _; iexact Hb
    isplitl [Hs0]; · iexact Hs0
    isplitl [Hs1]; · iexact Hs1
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold invO
    isplitl [Hmw]; · iexact Hmw
    isplitl [Hx]; · iexact Hx
    isplitl [Ho]
    · iapply (Entails.of_eq (pointsTo_congr (f := m (oLoc d)) (g := outAt m d (lo L + 480 * 0)) (fun j hj => (outAt_start m d L j hj).symm)))
      iexact Ho
    isplitl [Ha]; · iexists _; iexact Ha
    isplitl [Hb]; · iexists _; iexact Hb
    isplitl [Hs0]; · iexact Hs0
    isplitl [Hs1]; · iexact Hs1
    iexists W; isplitr
    · ipureintro; exact fun p hp => .inl hp
    · iexact HO
  iintro %_ HI
  unfold invO
  icases HI with ⟨Hmw, Hx, Ho, ⟨%fa, Ha⟩, ⟨%fb, Hb⟩, Hs0, Hs1, %W', %hW', HO⟩
  rw [trips1, show 480 * 20 = 9600 from rfl]
  -- the tail's points into the float scratch's first 400 rows
  sl_exec
  ihave Ha2 := (pts_name _) $$ Ha
  icases Ha2 with ⟨%A, %hA, Ha⟩
  sl_for (invI d L A fb) $$ [Ha Hb]
  case region =>
    intro t _
    unfold invI
    iintro ⟨Ha, Hb⟩
    have ht : t.val < 25 := Nat.lt_of_lt_of_le t.isLt k0_t3_abs.2.1
    have hchk : k0_chk2 L (broadcast S16 0#32) (k0_pay1 (broadcast S16 0#32)) (k0_pay2 (broadcast S16 0#32)) (k0_pay15 t) :=
      chk2_of_rows L (k0_pay15 t) (16 * t.val) (pay15_toNat t) (by omega)
    sl_exec
    ihave Ha' := (Entails.of_eq (pts_A_access (F := F) d L _).symm) $$ Ha
    iapply (SparseCore.wp_vectorLoadIdx 𝒱₀ (V d (cV L) (jV L)) none Set.univ (base := sA) (S := Finset.univ) (q := fullShare) (Finset.subset_univ _)) $$ Ha'; iintro Ha'
    iapply (SparseCore.wp_vectorLoadIdx 𝒱₀ (V d (cV L) (jV L)) none Set.univ (base := sA) (S := Finset.univ) (q := fullShare) (Finset.subset_univ _)) $$ Ha'; iintro Ha'
    iapply (SparseCore.wp_vectorLoadIdx 𝒱₀ (V d (cV L) (jV L)) none Set.univ (base := sA) (S := Finset.univ) (q := fullShare) (Finset.subset_univ _)) $$ Ha'; iintro Ha'
    ihave Hb' := (Entails.of_eq (pts_B_access (F := F) d L _).symm) $$ Hb
    iapply (SparseCore.wp_vectorStoreIdx 𝒱₀ (V d (cV L) (jV L)) none Set.univ (base := sB)) $$ Hb'; iintro Hb'
    iapply (SparseCore.wp_vectorStoreIdx 𝒱₀ (V d (cV L) (jV L)) none Set.univ (base := sB)) $$ Hb'; iintro Hb'
    iapply (SparseCore.wp_vectorStoreIdx 𝒱₀ (V d (cV L) (jV L)) none Set.univ (base := sB)) $$ Hb'; iintro Hb'
    simp only [Memref.read_access_whole, Memref.write_access_whole_univ]
    sl_step
    isplitl [Ha']
    · iapply (Entails.of_eq (pts_A_access (F := F) d L _)); iexact Ha'
    · ihave Hb := (Entails.of_eq (pts_B_access (F := F) d L _)) $$ Hb'
      iapply (pts_eq ((trip_value_tail A (Bt A fb t.val) (k0_pay15 t) (16 * t.val) (pay15_toNat t) (by omega) _ _ _ _ _ _).trans (Bt_succ A fb t.val)))
      iexact Hb
  · unfold invI
    isplitl [Ha]; · iexact Ha
    rw [Bt_zero]; iexact Hb
  iintro %_ HI
  unfold invI
  icases HI with ⟨Ha, Hb⟩
  ihave Hsp := (pointsTo_split_subset (q := fullShare) (f := outAt m d (lo L + 9600)) (oTail_sub L k0_h1)).1 $$ Ho
  icases Hsp with ⟨Hoc, Hor⟩
  ihave Hoc' := (Entails.of_eq (pts_oTail (F := F) d L k0_h1 _).symm) $$ Hoc
  sl_exec
  sl_step
  isplitl [Hx Hoc' Hor]
  · isplitl [Hx]; · iexact Hx
    ihave Hoc := (Entails.of_eq (pts_oTail (F := F) d L k0_h1 _)) $$ Hoc'
    ihave Hj := (pointsTo_join_subset (ℓ := oLoc d) (q := fullShare) (oTail_sub L k0_h1)) $$ [Hoc Hor]
    · isplitl [Hoc] <;> iassumption
    iapply (Entails.of_eq (pointsTo_congr (fun j hj => ((outAt_step_tail m d L k0_h1 _
      (tail_value d L k0_h1 (m (xLoc d)) _ _ A _ hA
        (fun y hy => Bt_cover A fb (Scf.trips k0_t3_loop.lb k0_t3_loop.ub k0_t3_loop.st) y (by rw [trips3]; omega)))) j hj).trans (outAt_end m d L j hj))))
    iexact Hj
  isplitl [Ha Hb Hbufs]
  · isplitl [Ha]; · iexists _; iexact Ha
    isplitl [Hb]; · iexists _; iexact Hb
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts m d (L 0).val (L 1).val (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_voxel_sc L xV (Memref.isWhole_whole _) oV (Memref.isWhole_whole _) sA (Memref.isWhole_whole _) sB (Memref.isWhole_whole _)
            cc0_scoped0 cc0_scoped1 cc0_scoped2 cc0_scoped3)
          fun _ => iprop(tilePts m d (L 0).val (L 1).val (gout m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases k0_h1 : k0_cond1 L = 1#1
  · exact tile_work m d L hF O W hO k0_h1
  · exact tile_idle m d L hF O W hO k0_h1

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_voxel_sc (coordsV c s)
          xV (Memref.isWhole_whole _) oV (Memref.isWhole_whole _) sA (Memref.isWhole_whole _) sB (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Cert.Proof.VoxB

end
-- ==== Proof.LaunchB.lean ====
/-
  The launch of the kernel program: how the two SparseCores' operands split among their sixteen vector
  subcores and join back, how the result array falls into the thirty-two workers' row blocks, @main on
  the TensorCore (one call), and the program's run with the result named as the voxel function of the points.
-/
import proofs.«218498_g40716289966699_cont_8to1_b_543_34_alg».proof.Proof.TileB

noncomputable section

namespace Cert.Proof.VoxB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The rows of the result array

Row `r` belongs to worker `r / 10000`, and worker `w` is subcore `w / 2` of SparseCore `w % 2`: the
thirty-two row sets are pairwise disjoint and cover the three hundred thousand rows. -/

abbrev rowsP (p : Fin ((K (F := F)).nCore 0) × Fin ((K (F := F)).nSub 0)) : Finset S300000x3.Idx := rowsOf p.1.val p.2.val

theorem rows_disjoint : ∀ p ∈ (Finset.univ : Finset (Fin ((K (F := F)).nCore 0) × Fin ((K (F := F)).nSub 0))),
    ∀ p' ∈ (Finset.univ : Finset (Fin ((K (F := F)).nCore 0) × Fin ((K (F := F)).nSub 0))), p ≠ p' → Disjoint (rowsP (F := F) p) (rowsP (F := F) p') := by
  intro p _ p' _ hne
  refine Finset.disjoint_left.mpr fun j h1 h2 => hne ?_
  have h1' := mem_rowsOf.mp h1
  have h2' := mem_rowsOf.mp h2
  unfold wid at h1' h2'
  have hc : p.1.val < 2 := p.1.isLt
  have hc' : p'.1.val < 2 := p'.1.isLt
  have e : p.1.val = p'.1.val ∧ p.2.val = p'.2.val := by omega
  exact Prod.ext (Fin.ext e.1) (Fin.ext e.2)

theorem rows_cover : (Finset.univ : Finset (Fin ((K (F := F)).nCore 0) × Fin ((K (F := F)).nSub 0))).biUnion (rowsP (F := F)) = Finset.univ := by
  refine Finset.ext fun j => ?_
  simp only [Finset.mem_biUnion, Finset.mem_univ, true_and, iff_true]
  have hj : (j 0).val < 300000 := (j 0).isLt
  refine ⟨(⟨(j 0).val / 10000 % 2, Nat.mod_lt _ (by decide)⟩, ⟨(j 0).val / 10000 / 2, ?_⟩), ?_⟩
  · show (j 0).val / 10000 / 2 < 16
    omega
  · refine mem_rowsOf.mpr ?_
    unfold wid
    show 2 * ((j 0).val / 10000 / 2) + (j 0).val / 10000 % 2 < 30 ∧ (2 * ((j 0).val / 10000 / 2) + (j 0).val / 10000 % 2) * 10000 ≤ (j 0).val
      ∧ (j 0).val < (2 * ((j 0).val / 10000 / 2) + (j 0).val / 10000 % 2 + 1) * 10000
    omega

theorem oPts_rows (d : Dev nD) (f : Buf (Elt F) (oLoc d)) :
    (oLoc d ↦{fullShare} f : sProp 𝕄) = bigSep Finset.univ fun c : Fin ((K (F := F)).nCore 0) => bigSep Finset.univ fun i : Fin ((K (F := F)).nSub 0) =>
      oLoc d ↦[rowsOf c.val i.val]{fullShare} f := by
  rw [← SparseCore.bigSep_product Finset.univ Finset.univ (fun p : Fin ((K (F := F)).nCore 0) × Fin ((K (F := F)).nSub 0) => (oLoc d ↦[rowsOf p.1.val p.2.val]{fullShare} f : sProp 𝕄)),
    Finset.univ_product_univ, ← pointsTo_biUnion Finset.univ (ℓ := oLoc d) (rowsP (F := F)) rows_disjoint, rows_cover]

variable [FloatOps F]

/-! ## A SparseCore's operands among its sixteen subcores

The share of the points halves sixteen times, one right half per subcore, the last left half kept for the
way back; the rows of the result are already one block per subcore. -/

theorem vecSplit : (K (F := F)).VecSplit' (P m) 0 := by
  intro d c
  show corePts m d c.val (m (oLoc d)) ⊢ |={Set.univ}=> iprop(
      (bigSep Finset.univ fun i : Fin ((K (F := F)).nSub 0) => tilePts m d c.val i.val (m (oLoc d)))
      ∗ ((bigSep Finset.univ fun i : Fin ((K (F := F)).nSub 0) => tilePts m d c.val i.val (gout m d)) -∗ corePts m d c.val (gout m d)))
  unfold corePts tilePts tokT
  rw [bigSep_sep', bigSep_sep']
  iintro ⟨Hx, Ho⟩
  ihave Hx' := (Transfers.pointsTo_toks_split (tokC c.val) 16) $$ Hx
  icases Hx' with ⟨Hrem, Htoks⟩
  imodintro
  isplitl [Htoks Ho]
  · isplitl [Htoks]; · iexact Htoks
    iexact Ho
  iintro ⟨Htoks, Ho⟩
  isplitl [Hrem Htoks]
  · iapply (Transfers.pointsTo_toks_join (tokC c.val) 16)
    isplitl [Hrem]; · iexact Hrem
    iexact Htoks
  iexact Ho

/-! ## The launch element: the handshakes' rounds; the transfers' counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The two SparseCores' operands together: the two shares of the points and the whole result array. -/
theorem cores_eq (d : Dev nD) (f : Buf (Elt F) (oLoc d)) :
    (bigSep Finset.univ fun c : Fin ((K (F := F)).nCore 0) => corePts m d c.val f)
      = iprop((bigSep Finset.univ fun c : Fin 2 => xLoc d ↦{Transfers.shareTok fullShare 2 c} m (xLoc d)) ∗ oLoc d ↦{fullShare} f) := by
  unfold corePts tokC
  rw [bigSep_sep', oPts_rows]

theorem st0_eq (d : Dev nD) : (bigSep Finset.univ fun c : Fin ((K (F := F)).nCore 0) => (P m).st 0 d c)
    = iprop((bigSep Finset.univ fun c : Fin 2 => xLoc d ↦{Transfers.shareTok fullShare 2 c} m (xLoc d)) ∗ oLoc d ↦{fullShare} m (oLoc d)) :=
  cores_eq m d (m (oLoc d))
theorem dn0_eq (d : Dev nD) : (bigSep Finset.univ fun c : Fin ((K (F := F)).nCore 0) => (P m).dn 0 d c)
    = iprop((bigSep Finset.univ fun c : Fin 2 => xLoc d ↦{Transfers.shareTok fullShare 2 c} m (xLoc d)) ∗ oLoc d ↦{fullShare} gout m d) :=
  cores_eq m d (gout m d)

/-- What @main leaves the claim: the points at their launch contents, the result at the voxel function of them. -/
abbrev FIN (d : Dev nD) : sProp 𝕄 := iprop((xLoc d ↦{fullShare} m (xLoc d)) ∗ oLoc d ↦{fullShare} gout m d)

/-- @main on device `d`'s TensorCore: the one call, from the points and the result array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  ihave Hx' := (Transfers.pointsTo_toks_split fullShare 2) $$ Hx
  icases Hx' with ⟨Hrem, Htoks⟩
  iapply ((K (F := F)).wp_run (D (F := F)) 𝒱 (EH := EH) (P := P m) κ d 0) $$ [Hst Htoks Ho Hrem]
  isplitr; · iexact Hctx
  isplitl [Hst]; · iexact Hst
  isplitl [Htoks Ho]
  · rw [st0_eq]
    isplitl [Htoks]; · iexact Htoks
    iexact Ho
  iintro ⟨Hst, Hdn⟩
  ihave Hdn' := (Entails.of_eq (dn0_eq m d)) $$ Hdn
  icases Hdn' with ⟨Htoks, Ho⟩
  imodintro
  isplitl [Hst]; · iexact Hst
  isplitl [Hrem Htoks]
  · iapply (Transfers.pointsTo_toks_join fullShare 2)
    isplitl [Hrem]; · iexact Hrem
    iexact Htoks
  iexact Ho

def fq (d : Dev nD) (s' : Phys nD τ sig (Elt F)) : Prop := s'.mem.mem (oLoc d) = gout m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := oLoc d) (I := Finset.univ) (q := fullShare) (f := gout m d))) $$ [HSI Ho]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (oLoc c) = gout m c ∧ r.2.mem (xLoc c) = m (xLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.VoxB

end
-- ==== Proof.lean ====
/-
  The certificate's five claims for the voxel-coordinate kernel.

  The kernel turns each of 300000 points (x, y, z, ·) into the integer coordinates of the voxel that holds it,
  stored in the order (z, y, x), or into (-1, -1, -1) when the point lies outside the grid of
  1408 × 1600 × 40 voxels: along each axis q = (p - lower end) / voxel width, the index is q rounded toward
  zero, and the point is inside when 0 ≤ q and the index is below the axis's extent. The reference rounds q
  down before converting and tests 0 ≤ index < extent on the converted word. On the extended reals the two
  agree for every q, finite or not: for q ≥ 0 rounding toward zero is rounding down and the clamped index is
  not negative; for q < 0 the kernel's test fails and the index rounded down is at most -1, so the
  reference's test fails too; +∞ converts to the largest word and -∞ to the smallest on both sides
  (Voxel.cell_ideal). No finiteness of the input is used.

  Both kernel programs run on the vector subcores: thirty workers each convert ten thousand consecutive
  rows, chunk by chunk, and the run of the whole family of threads ends with the result array at the voxel
  function of the points and the points unchanged (run_main, once per printed program). The reference's run
  ends with its result at the same function in the reference's form (RefValue.run). The frames are these runs
  with the value dropped; the idealization's ledger is empty.
-/
import proofs.«218498_g40716289966699_cont_8to1_b_543_34_alg».proof.Defs
import proofs.«218498_g40716289966699_cont_8to1_b_543_34_alg».proof.Proof.Gen.Kernel
import proofs.«218498_g40716289966699_cont_8to1_b_543_34_alg».proof.Proof.Gen.Kernel.Skeleton
import proofs.«218498_g40716289966699_cont_8to1_b_543_34_alg».proof.Proof.Gen.KernelIdeal
import proofs.«218498_g40716289966699_cont_8to1_b_543_34_alg».proof.Proof.Gen.KernelIdeal.Skeleton
import proofs.«218498_g40716289966699_cont_8to1_b_543_34_alg».proof.Proof.Gen.ReferenceIdeal
import proofs.«218498_g40716289966699_cont_8to1_b_543_34_alg».proof.Proof.Gen.Pre_finite_inputs
import proofs.«218498_g40716289966699_cont_8to1_b_543_34_alg».proof.Proof.SpecLaw
import proofs.«218498_g40716289966699_cont_8to1_b_543_34_alg».proof.Proof.RefRun
import proofs.«218498_g40716289966699_cont_8to1_b_543_34_alg».proof.Proof.LaunchI
import proofs.«218498_g40716289966699_cont_8to1_b_543_34_alg».proof.Proof.LaunchB
import Idealize.ShloMosaic.Adequacy
import Idealize.ShloMosaic.Init

noncomputable section

namespace Cert.Proof

open Idealize.ShloMosaic Idealize.SL.Sem

/-- The word-level kernel's frame: its run with the result's value dropped. -/
theorem frame_k : Cert.frame_Kernel := fun m ρ _ =>
  (θ_run Cert.Kernel.defs _ _).mono (fun _ h c => (h c).2) (Cert.Proof.VoxB.run_main (F := Bits) m ρ)

/-- The idealized kernel's frame. -/
theorem frame_ki : Cert.frame_KernelIdeal := fun m ρ _ =>
  (θ_run Cert.KernelIdeal.defs _ _).mono (fun _ h c => (h c).2) (Cert.Proof.VoxI.run_main (F := Ideal) m ρ)

/-- The reference's frame. -/
theorem frame_r : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- Both idealized programs end at the voxel function of the points: the kernel in its own form, the
    reference in its form, and the two forms are one function on the extended reals. -/
theorem algebraic : Cert.algebraic_KernelIdeal_ReferenceIdeal := by
  intro m ρ m' ρ' _ hagree
  refine ⟨fun c => Cert.Proof.VoxI.gout (F := Ideal) m c, Cert.Proof.VoxI.run_main (F := Ideal) m ρ, ?_⟩
  refine (θ_run Cert.ReferenceIdeal.defs _ _).mono (fun _ h c => ⟨(h c).1.trans ?_, (h c).2⟩)
    (Cert.ReferenceIdeal.RefValue.run m' ρ')
  rw [hagree c]
  exact (Voxel.grid_ideal _).symm

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
